-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S512x1x1024 : Shape := ⟨3, ![512, 1, 1024]⟩
abbrev S50257x1024 : Shape := ⟨2, ![50257, 1024]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S512x1x1024 : S_.BroadcastsInDim S512x1x1024 (![] : Fin 0 → Fin S512x1x1024.rank)
  reducesTo_S512x1x1024_S_d0_1_2 : S512x1x1024.ReducesTo [0, 1, 2] S_
  bcast_S_S50257x1024 : S_.BroadcastsInDim S50257x1024 (![] : Fin 0 → Fin S50257x1024.rank)
  reducesTo_S50257x1024_S_d0_1 : S50257x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_
  shapeCasts_S1_S_ : S1.ShapeCasts S_

variable [Facts]

def fn_part3 {F : FTy → Type} [FloatOps F] (main_arg0 : IVec S1 32) (main_v48 : IVec S_ 1) (main_v49 : FVec F S50257 .f32) (main_v50 : FVec F S50257 .f32) : IVec S_ 1 :=
  let main_v51 : IVec S50257 1 := cmpf .olt main_v49 main_v50
  let main_c_19 : IVec S_ 1 := constantI S_ 1 1#1
  let main_v52 : IVec S_ 1 := (fun x v => Host.reduce IntOp.andi x v reducesTo_S50257_S_d0 h_S_) main_v51 main_c_19
  let main_v53 : IVec S_ 1 := andi main_v48 main_v52
  let main_v54 : IVec S_ 32 := shapeCast S_ main_arg0 shapeCasts_S1_S_
  let main_c_20 : IVec S_ 32 := constantI S_ 32 0#32
  let main_v55 : IVec S_ 1 := cmpi .sge main_v54 main_c_20
  let main_v56 : IVec S_ 1 := andi main_v53 main_v55
  main_v56

def fn_part2 {F : FTy → Type} [FloatOps F] (main_arg0 : IVec S1 32) (main_arg8 : FVec F S3072 .f32) (main_arg9 : FVec F S3072 .f32) (main_arg10 : FVec F S50257x1024 .f32) (main_arg11 : FVec F S50257 .f32) (main_v33 : IVec S_ 1) : IVec S_ 1 :=
  let main_v34 : FVec F S3072 .f32 := Host.absf main_arg8
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  let main_v39 : FVec F S3072 .f32 := Host.absf main_arg9
  let main_cst_14 : FVec F S_ .f32 := constant S_ .f32 0x7F800000#32
  let main_v40 : FVec F S3072 .f32 := broadcastInDim S3072 ![] bcast_S_S3072 main_cst_14
  let main_v41 : IVec S3072 1 := cmpf .olt main_v39 main_v40
  let main_c_15 : IVec S_ 1 := constantI S_ 1 1#1
  let main_v42 : IVec S_ 1 := (fun x v => Host.reduce IntOp.andi x v reducesTo_S3072_S_d0 h_S_) main_v41 main_c_15
  let main_v43 : IVec S_ 1 := andi main_v38 main_v42
  let main_v44 : FVec F S50257x1024 .f32 := Host.absf main_arg10
  let main_cst_16 : FVec F S_ .f32 := constant S_ .f32 0x7F800000#32
  let main_v45 : FVec F S50257x1024 .f32 := broadcastInDim S50257x1024 ![] bcast_S_S50257x1024 main_cst_16
  let main_v46 : IVec S50257x1024 1 := cmpf .olt main_v44 main_v45
  let main_c_17 : IVec S_ 1 := constantI S_ 1 1#1
  let main_v47 : IVec S_ 1 := (fun x v => Host.reduce IntOp.andi x v reducesTo_S50257x1024_S_d0_1 h_S_) main_v46 main_c_17
  let main_v48 : IVec S_ 1 := andi main_v43 main_v47
  let main_v49 : FVec F S50257 .f32 := Host.absf main_arg11
  let main_cst_18 : FVec F S_ .f32 := constant S_ .f32 0x7F800000#32
  let main_v50 : FVec F S50257 .f32 := broadcastInDim S50257 ![] bcast_S_S50257 main_cst_18
  fn_part3 (F := F) main_arg0 main_v48 main_v49 main_v50

def fn_part1 {F : FTy → Type} [FloatOps F] (main_arg0 : IVec S1 32) (main_arg5 : FVec F S1024 .f32) (main_arg6 : FVec F S3072x1024 .f32) (main_arg7 : FVec F S3072x1024 .f32) (main_arg8 : FVec F S3072 .f32) (main_arg9 : FVec F S3072 .f32) (main_arg10 : FVec F S50257x1024 .f32) (main_arg11 : FVec F S50257 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S3072x1024 .f32 := Host.absf main_arg6
  let main_cst_8 : FVec F S_ .f32 := constant S_ .f32 0x7F800000#32
  let main_v25 : FVec F S3072x1024 .f32 := broadcastInDim S3072x1024 ![] bcast_S_S3072x1024 main_cst_8
  let main_v26 : IVec S3072x1024 1 := cmpf .olt main_v24 main_v25
  let main_c_9 : IVec S_ 1 := constantI S_ 1 1#1
  let main_v27 : IVec S_ 1 := (fun x v => Host.reduce IntOp.andi x v reducesTo_S3072x1024_S_d0_1 h_S_) main_v26 main_c_9
  let main_v28 : IVec S_ 1 := andi main_v23 main_v27
  let main_v29 : FVec F S3072x1024 .f32 := Host.absf main_arg7
  let main_cst_10 : FVec F S_ .f32 := constant S_ .f32 0x7F800000#32
  let main_v30 : FVec F S3072x1024 .f32 := broadcastInDim S3072x1024 ![] bcast_S_S3072x1024 main_cst_10
  let main_v31 : IVec S3072x1024 1 := cmpf .olt main_v29 main_v30
  let main_c_11 : IVec S_ 1 := constantI S_ 1 1#1
  let main_v32 : IVec S_ 1 := (fun x v => Host.reduce IntOp.andi x v reducesTo_S3072x1024_S_d0_1 h_S_) main_v31 main_c_11
  let main_v33 : IVec S_ 1 := andi main_v28 main_v32
  fn_part2 (F := F) main_arg0 main_arg8 main_arg9 main_arg10 main_arg11 main_v33

def fn {F : FTy → Type} [FloatOps F] (main_arg0 : IVec S1 32) (main_arg1 : FVec F S1x1x1024 .f32) (main_arg2 : FVec F S512x1x1024 .f32) (main_arg3 : FVec F S50257x1024 .f32) (main_arg4 : FVec F S1024x2048 .f32) (main_arg5 : FVec F S1024 .f32) (main_arg6 : FVec F S3072x1024 .f32) (main_arg7 : FVec F S3072x1024 .f32) (main_arg8 : FVec F S3072 .f32) (main_arg9 : FVec F S3072 .f32) (main_arg10 : FVec F S50257x1024 .f32) (main_arg11 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S512x1x1024 .f32 := Host.absf main_arg2
  let main_cst_0 : FVec F S_ .f32 := constant S_ .f32 0x7F800000#32
  let main_v5 : FVec F S512x1x1024 .f32 := broadcastInDim S512x1x1024 ![] bcast_S_S512x1x1024 main_cst_0
  let main_v6 : IVec S512x1x1024 1 := cmpf .olt main_v4 main_v5
  let main_c_1 : IVec S_ 1 := constantI S_ 1 1#1
  let main_v7 : IVec S_ 1 := (fun x v => Host.reduce IntOp.andi x v reducesTo_S512x1x1024_S_d0_1_2 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S1024x2048 .f32 := Host.absf main_arg4
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg0 main_arg5 main_arg6 main_arg7 main_arg8 main_arg9 main_arg10 main_arg11 main_v13 main_v16
-- ==== Kernel.lean ====
abbrev S1 : Shape := ⟨1, ![1]⟩
abbrev S1x1x1024 : Shape := ⟨3, ![1, 1, 1024]⟩
abbrev S512x1x1024 : Shape := ⟨3, ![512, 1, 1024]⟩
abbrev S50257x1024 : Shape := ⟨2, ![50257, 1024]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1024 : Shape := ⟨2, ![1, 1024]⟩
abbrev S512x1024 : Shape := ⟨2, ![512, 1024]⟩
abbrev S1x3072 : Shape := ⟨2, ![1, 3072]⟩
abbrev S1x512 : Shape := ⟨2, ![1, 512]⟩
abbrev S1x50257 : Shape := ⟨2, ![1, 50257]⟩
abbrev S1x1 : Shape := ⟨2, ![1, 1]⟩
abbrev S1x2048 : Shape := ⟨2, ![1, 2048]⟩
abbrev S1024x1024 : Shape := ⟨2, ![1024, 1024]⟩
abbrev S2048x1024 : Shape := ⟨2, ![2048, 1024]⟩

abbrev nBuf : Space → Nat
  | .hbm => 97
  | .vmem => 28
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1x1024, .f32⟩
  | .hbm, ⟨3, _⟩ => ⟨S50257x1024, .f32⟩
  | .hbm, ⟨4, _⟩ => ⟨S1024x2048, .f32⟩
  | .hbm, ⟨5, _⟩ => ⟨S1024, .f32⟩
  | .hbm, ⟨6, _⟩ => ⟨S3072x1024, .f32⟩
  | .hbm, ⟨7, _⟩ => ⟨S3072x1024, .f32⟩
  | .hbm, ⟨8, _⟩ => ⟨S3072, .f32⟩
  | .hbm, ⟨9, _⟩ => ⟨S3072, .f32⟩
  | .hbm, ⟨10, _⟩ => ⟨S50257x1024, .f32⟩
  | .hbm, ⟨11, _⟩ => ⟨S50257, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1x1024, .f32⟩
  | .hbm, ⟨38, _⟩ => ⟨S512x1024, .f32⟩
  | .hbm, ⟨39, _⟩ => ⟨S1x1024, .f32⟩
  | .hbm, ⟨40, _⟩ => ⟨S1x3072, .f32⟩
  | .hbm, ⟨41, _⟩ => ⟨S1x3072, .f32⟩
  | .hbm, ⟨42, _⟩ => ⟨S1x1024, .f32⟩
  | .hbm, ⟨43, _⟩ => ⟨S1x512, .f32⟩
  | .hbm, ⟨44, _⟩ => ⟨S1x3072, .f32⟩
  | .hbm, ⟨45, _⟩ => ⟨S1x3072, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x50257, .f32⟩
  | .hbm, ⟨80, _⟩ => ⟨S1x50257, .f32⟩
  | .hbm, ⟨81, _⟩ => ⟨S_, .f32⟩
  | .hbm, ⟨82, _⟩ => ⟨S1, .f32⟩
  | .hbm, ⟨83, _⟩ => ⟨S_, .f32⟩
  | .hbm, ⟨84, _⟩ => ⟨S1, .f32⟩
  | .hbm, ⟨85, _⟩ => ⟨S1, .f32⟩
  | .hbm, ⟨86, _⟩ => ⟨S1x1, .f32⟩
  | .hbm, ⟨87, _⟩ => ⟨S1x50257, .f32⟩
  | .hbm, ⟨88, _⟩ => ⟨S1x50257, .f32⟩
  | .hbm, ⟨89, _⟩ => ⟨S1x50257, .f32⟩
  | .hbm, ⟨90, _⟩ => ⟨S_, .f32⟩
  | .hbm, ⟨91, _⟩ => ⟨S1, .f32⟩
  | .hbm, ⟨92, _⟩ => ⟨S1x1, .f32⟩
  | .hbm, ⟨93, _⟩ => ⟨S1x1, .f32⟩
  | .hbm, ⟨94, _⟩ => ⟨S1x50257, .f32⟩
  | .hbm, ⟨95, _⟩ => ⟨S1x50257, .f32⟩
  | .hbm, ⟨96, _⟩ => ⟨S1x1x1024, .f32⟩
  | .local _ .vmem, ⟨0, _⟩ => ⟨S1x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S1x512, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S2048x1024, .f32⟩
  | .local _ .vmem, ⟨23, _⟩ => ⟨S2048x1024, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_c_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_v0 : Ref sig .tc := ⟨.hbm, 19, rfl⟩
abbrev main_call0_v1 : Ref sig .tc := ⟨.hbm, 20, rfl⟩
abbrev main_call0_c_1 : Ref sig .tc := ⟨.hbm, 21, rfl⟩
abbrev main_call0_v2 : Ref sig .tc := ⟨.hbm, 22, rfl⟩
abbrev main_call0_c_2 : Ref sig .tc := ⟨.hbm, 23, rfl⟩
abbrev main_call0_v3 : Ref sig .tc := ⟨.hbm, 24, rfl⟩
abbrev main_call0_v4 : Ref sig .tc := ⟨.hbm, 25, rfl⟩
abbrev main_call0_c_3 : Ref sig .tc := ⟨.hbm, 26, rfl⟩
abbrev main_call0_c_4 : Ref sig .tc := ⟨.hbm, 27, rfl⟩
abbrev main_call0_v5 : Ref sig .tc := ⟨.hbm, 28, rfl⟩
abbrev main_call0_c_5 : Ref sig .tc := ⟨.hbm, 29, rfl⟩
abbrev main_call0_c_6 : Ref sig .tc := ⟨.hbm, 30, rfl⟩
abbrev main_call0_v6 : Ref sig .tc := ⟨.hbm, 31, rfl⟩
abbrev main_call0_c_7 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_v15 : Ref sig .tc := ⟨.hbm, 41, rfl⟩
abbrev main_call0_v16_0 : Ref sig .tc := ⟨.hbm, 42, rfl⟩
abbrev main_v0_2 : Ref sig .tc := ⟨.hbm, 43, rfl⟩
abbrev main_call0_v17_0 : Ref sig .tc := ⟨.hbm, 44, rfl⟩
abbrev main_call0_v17_1 : Ref sig .tc := ⟨.hbm, 45, rfl⟩
abbrev main_call0_v18 : Ref sig .tc := ⟨.hbm, 46, rfl⟩
abbrev main_call0_v19 : Ref sig .tc := ⟨.hbm, 47, rfl⟩
abbrev main_call0_v20 : Ref sig .tc := ⟨.hbm, 48, rfl⟩
abbrev main_call0_v21 : Ref sig .tc := ⟨.hbm, 49, rfl⟩
abbrev main_call0_v22 : Ref sig .tc := ⟨.hbm, 50, rfl⟩
abbrev main_call0_cst : Ref sig .tc := ⟨.hbm, 51, rfl⟩
abbrev main_call0_v23 : Ref sig .tc := ⟨.hbm, 52, rfl⟩
abbrev main_call0_v24 : Ref sig .tc := ⟨.hbm, 53, rfl⟩
abbrev main_call0_cst_8 : Ref sig .tc := ⟨.hbm, 54, rfl⟩
abbrev main_call0_v25 : Ref sig .tc := ⟨.hbm, 55, rfl⟩
abbrev main_call0_v26 : Ref sig .tc := ⟨.hbm, 56, rfl⟩
abbrev main_call0_v27 : Ref sig .tc := ⟨.hbm, 57, rfl⟩
abbrev main_call0_v28 : Ref sig .tc := ⟨.hbm, 58, rfl⟩
abbrev main_call0_v29 : Ref sig .tc := ⟨.hbm, 59, rfl⟩
abbrev main_call0_v30 : Ref sig .tc := ⟨.hbm, 60, rfl⟩
abbrev main_call0_v31 : Ref sig .tc := ⟨.hbm, 61, rfl⟩
abbrev main_call0_cst_9 : Ref sig .tc := ⟨.hbm, 62, rfl⟩
abbrev main_call0_v32 : Ref sig .tc := ⟨.hbm, 63, rfl⟩
abbrev main_call0_v33 : Ref sig .tc := ⟨.hbm, 64, rfl⟩
abbrev main_call0_cst_10 : Ref sig .tc := ⟨.hbm, 65, rfl⟩
abbrev main_call0_v34 : Ref sig .tc := ⟨.hbm, 66, rfl⟩
abbrev main_call0_v35 : Ref sig .tc := ⟨.hbm, 67, rfl⟩
abbrev main_call0_v36 : Ref sig .tc := ⟨.hbm, 68, rfl⟩
abbrev main_call0_v37 : Ref sig .tc := ⟨.hbm, 69, rfl⟩
abbrev main_call0_v38 : Ref sig .tc := ⟨.hbm, 70, rfl⟩
abbrev main_call0_v39 : Ref sig .tc := ⟨.hbm, 71, rfl⟩
abbrev main_call0_v40 : Ref sig .tc := ⟨.hbm, 72, rfl⟩
abbrev main_call0_cst_11 : Ref sig .tc := ⟨.hbm, 73, rfl⟩
abbrev main_call0_v41 : Ref sig .tc := ⟨.hbm, 74, rfl⟩
abbrev main_call0_v42 : Ref sig .tc := ⟨.hbm, 75, rfl⟩
abbrev main_call0_v43 : Ref sig .tc := ⟨.hbm, 76, rfl⟩
abbrev main_call0_v44 : Ref sig .tc := ⟨.hbm, 77, rfl⟩
abbrev main_call0_v45 : Ref sig .tc := ⟨.hbm, 78, rfl⟩
abbrev main_call0_v46 : Ref sig .tc := ⟨.hbm, 79, rfl⟩
abbrev main_call0_v47 : Ref sig .tc := ⟨.hbm, 80, rfl⟩
abbrev main_call0_call1_cst : Ref sig .tc := ⟨.hbm, 81, rfl⟩
abbrev main_call0_call1_v0 : Ref sig .tc := ⟨.hbm, 82, rfl⟩
abbrev main_call0_call1_cst_0 : Ref sig .tc := ⟨.hbm, 83, rfl⟩
abbrev main_call0_call1_v1 : Ref sig .tc := ⟨.hbm, 84, rfl⟩
abbrev main_call0_call1_v2 : Ref sig .tc := ⟨.hbm, 85, rfl⟩
abbrev main_call0_call1_v3 : Ref sig .tc := ⟨.hbm, 86, rfl⟩
abbrev main_call0_call1_v4 : Ref sig .tc := ⟨.hbm, 87, rfl⟩
abbrev main_call0_call1_v5 : Ref sig .tc := ⟨.hbm, 88, rfl⟩
abbrev main_call0_call1_v6 : Ref sig .tc := ⟨.hbm, 89, rfl⟩
abbrev main_call0_call1_cst_1 : Ref sig .tc := ⟨.hbm, 90, rfl⟩
abbrev main_call0_call1_v7 : Ref sig .tc := ⟨.hbm, 91, rfl⟩
abbrev main_call0_call1_v8 : Ref sig .tc := ⟨.hbm, 92, rfl⟩
abbrev main_call0_call1_v9 : Ref sig .tc := ⟨.hbm, 93, rfl⟩
abbrev main_call0_call1_v10 : Ref sig .tc := ⟨.hbm, 94, rfl⟩
abbrev main_v0_0 : Ref sig .tc := ⟨.hbm, 95, rfl⟩
abbrev main_v0_1 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1 : S_.BroadcastsInDim S1 (![] : Fin 0 → Fin S1.rank)
  shapeCasts_S1_S_ : S1.ShapeCasts S_
  sliceFits_S50257x1024_S1x1024 : S50257x1024.Slices (fun _ => 0) S1x1024
  h_S_ : 0 < S_.numel
  shapeCasts_S1x1024_S1024 : S1x1024.ShapeCasts S1024
  bcast_S1024_S1x1024_1 : S1024.BroadcastsInDim S1x1024 (![1] : Fin 1 → Fin S1x1024.rank)
  shapeCasts_S1x1x1024_S1x1024 : S1x1x1024.ShapeCasts S1x1024
  shapeCasts_S512x1x1024_S512x1024 : S512x1x1024.ShapeCasts S512x1024
  bcast_S3072_S1x3072_1 : S3072.BroadcastsInDim S1x3072 (![1] : Fin 1 → Fin S1x3072.rank)
  slices_S1x3072_S1x1024_0_0 : S1x3072.Slices ![0, 0] S1x1024
  bcast_S_S1x1024 : S_.BroadcastsInDim S1x1024 (![] : Fin 0 → Fin S1x1024.rank)
  slices_S1x3072_S1x1024_0_1024 : S1x3072.Slices ![0, 1024] S1x1024
  slices_S1x3072_S1x1024_0_2048 : S1x3072.Slices ![0, 2048] S1x1024
  bcast_S50257_S1x50257_1 : S50257.BroadcastsInDim S1x50257 (![1] : Fin 1 → Fin S1x50257.rank)
  reducesTo_S1x50257_S1_d1 : S1x50257.ReducesTo [1] S1
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  reduces_S1x512_S1 : S1x512.Reduces [1] S1
  shapeCasts_S1_S1x1 : S1.ShapeCasts S1x1
  broadcasts_S1x1_S1x512 : S1x1.Broadcasts S1x512
  concatenates_S1x1024_S1x1024_S1x2048_d1 : Shape.Concatenates [S1x1024, S1x1024] S1x2048 1
  inb_S1024x2048_S1024x2048_0_0 : ∀ a, (![0, 0] : Fin 2 → Nat) a + S1024x2048.size a ≤ S1024x2048.size a
  h_S1024x2048 : 0 < S1024x2048.numel
  inb_S1x512_S1x512_0_0 : ∀ a, (![0, 0] : Fin 2 → Nat) a + S1x512.size a ≤ S1x512.size a
  h_S1x512 : 0 < S1x512.numel
  inb_S1024x1024_S1024x1024_0_0 : ∀ a, (![0, 0] : Fin 2 → Nat) a + S1024x1024.size a ≤ S1024x1024.size a
  h_S1024x1024 : 0 < S1024x1024.numel
  inb_S2048x1024_S2048x1024_0_0 : ∀ a, (![0, 0] : Fin 2 → Nat) a + S2048x1024.size a ≤ S2048x1024.size a
  h_S2048x1024 : 0 < S2048x1024.numel
  iota_S1x2048_d1_w32 : S1x2048.Iotas .tc 32 [1]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  dot_S1x1024_S512x1024_S1x512_1_1_0_0_n_n_wf : DotDims.WF S1x1024 S512x1024 S1x512 [1] [1] [0] [0] [] []
  dot_S1x512_S512x1024_S1x1024_1_0_0_1_n_n_wf : DotDims.WF S1x512 S512x1024 S1x1024 [1] [0] [0] [1] [] []
  dot_S1x2048_S1024x2048_S1x1024_1_1_0_0_n_n_wf : DotDims.WF S1x2048 S1024x2048 S1x1024 [1] [1] [0] [0] [] []
  dot_S1x1024_S1024x1024_S1x1024_1_1_0_0_n_n_wf : DotDims.WF S1x1024 S1024x1024 S1x1024 [1] [1] [0] [0] [] []
  dot_S1x1024_S2048x1024_S1x2048_1_1_0_0_n_n_wf : DotDims.WF S1x1024 S2048x1024 S1x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .f32 = 32 ∨ (Rect.block (s := S1024x2048) S1024x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S3072x1024.size a
  hwx1_2 : ∀ i : grid1.Coords, EltTy.bits .f32 = 32 ∨ (Rect.block (s := S3072x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S3072x1024.size a
  hwx1_3 : ∀ i : grid1.Coords, EltTy.bits .f32 = 32 ∨ (Rect.block (s := S3072x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x3072.size a
  hwx1_4 : ∀ i : grid1.Coords, EltTy.bits .f32 = 32 ∨ (Rect.block (s := S1x3072) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x3072.size a
  hwx1_5 : ∀ i : grid1.Coords, EltTy.bits .f32 = 32 ∨ (Rect.block (s := S1x3072) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x3072.size a
  hwx1_6 : ∀ i : grid1.Coords, EltTy.bits .f32 = 32 ∨ (Rect.block (s := S1x3072) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x3072.size a
  hwx1_7 : ∀ i : grid1.Coords, EltTy.bits .f32 = 32 ∨ (Rect.block (s := S1x3072) S1x1024.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2048x1024.size a < S50257x1024.size a
  hwx2_1 : ∀ i : grid2.Coords, EltTy.bits .f32 = 32 ∨ (Rect.unit (s := S50257x1024) (fun a => cc2_transform_1 i a * S2048x1024.size a) (fun a => (Pipeline.Clip.of (cc2_transform_1 i a) (S2048x1024.size a) (S50257x1024.size a)).extent (S2048x1024.size a)) fun a => Pipeline.Clip.inb (Pipeline.Clip.ok_of (hstart2_1 i a))).WholeWords (EltTy.packing .f32)
  hwxs2_1 : ∀ i : grid2.Coords, EltTy.bits .f32 = 32 ∨ (Rect.unit (s := S2048x1024) (fun _ => 0) (fun a => (Pipeline.Clip.of (cc2_transform_1 i a) (S2048x1024.size a) (S50257x1024.size a)).extent (S2048x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x2048.size a < S1x50257.size a
  hwx2_2 : ∀ i : grid2.Coords, EltTy.bits .f32 = 32 ∨ (Rect.unit (s := S1x50257) (fun a => cc2_transform_2 i a * S1x2048.size a) (fun a => (Pipeline.Clip.of (cc2_transform_2 i a) (S1x2048.size a) (S1x50257.size a)).extent (S1x2048.size a)) fun a => Pipeline.Clip.inb (Pipeline.Clip.ok_of (hstart2_2 i a))).WholeWords (EltTy.packing .f32)
  hwxs2_2 : ∀ i : grid2.Coords, EltTy.bits .f32 = 32 ∨ (Rect.unit (s := S1x2048) (fun _ => 0) (fun a => (Pipeline.Clip.of (cc2_transform_2 i a) (S1x2048.size a) (S1x50257.size a)).extent (S1x2048.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x2048.size a < S1x50257.size a
  hwx2_3 : ∀ i : grid2.Coords, EltTy.bits .f32 = 32 ∨ (Rect.unit (s := S1x50257) (fun a => cc2_transform_3 i a * S1x2048.size a) (fun a => (Pipeline.Clip.of (cc2_transform_3 i a) (S1x2048.size a) (S1x50257.size a)).extent (S1x2048.size a)) fun a => Pipeline.Clip.inb (Pipeline.Clip.ok_of (hstart2_3 i a))).WholeWords (EltTy.packing .f32)
  hwxs2_3 : ∀ i : grid2.Coords, EltTy.bits .f32 = 32 ∨ (Rect.unit (s := S1x2048) (fun _ => 0) (fun a => (Pipeline.Clip.of (cc2_transform_3 i a) (S1x2048.size a) (S1x50257.size a)).extent (S1x2048.size a)) fun a => (Nat.zero_add _).trans_le (Pipeline.Clip.extent_le (Pipeline.Clip.ok_of (hstart2_3 i a)))).WholeWords (EltTy.packing .f32)

variable [Facts₀]

def dot_S1x1024_S512x1024_S1x512_1_1_0_0_n_n : DotDims S1x1024 S512x1024 S1x512 where
  lhsContracting := [1]
  rhsContracting := [1]
  lhsNonContracting := [0]
  rhsNonContracting := [0]
  lhsBatch := []
  rhsBatch := []
  wf := dot_S1x1024_S512x1024_S1x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf

abbrev win0_0 : Pipeline.Window sig grid0 :=
  Pipeline.Window.ofSpec (Memref.whole main_call0_v11) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v12) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v13) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v16_0) S1x1024.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x512.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v16_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v11) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v14) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v15) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v17_0) S1x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_call0_v17_1) S1x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_call0_v45) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg10) S2048x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_call0_v46) S1x2048.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_call0_v47) S1x2048.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S512x1x1024 : Shape := ⟨3, ![512, 1, 1024]⟩
abbrev S50257x1024 : Shape := ⟨2, ![50257, 1024]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1024 : Shape := ⟨2, ![1, 1024]⟩
abbrev S512x1024 : Shape := ⟨2, ![512, 1024]⟩
abbrev S1024x512 : Shape := ⟨2, ![1024, 512]⟩
abbrev S1x512 : Shape := ⟨2, ![1, 512]⟩
abbrev S1x1 : Shape := ⟨2, ![1, 1]⟩
abbrev S1x2048 : Shape := ⟨2, ![1, 2048]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 117
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1x1024, .f32⟩
  | .hbm, ⟨3, _⟩ => ⟨S50257x1024, .f32⟩
  | .hbm, ⟨4, _⟩ => ⟨S1024x2048, .f32⟩
  | .hbm, ⟨5, _⟩ => ⟨S1024, .f32⟩
  | .hbm, ⟨6, _⟩ => ⟨S3072x1024, .f32⟩
  | .hbm, ⟨7, _⟩ => ⟨S3072x1024, .f32⟩
  | .hbm, ⟨8, _⟩ => ⟨S3072, .f32⟩
  | .hbm, ⟨9, _⟩ => ⟨S3072, .f32⟩
  | .hbm, ⟨10, _⟩ => ⟨S50257x1024, .f32⟩
  | .hbm, ⟨11, _⟩ => ⟨S50257, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S512x1024, .f32⟩
  | .hbm, ⟨30, _⟩ => ⟨S1x1024, .f32⟩
  | .hbm, ⟨31, _⟩ => ⟨S1024x512, .f32⟩
  | .hbm, ⟨32, _⟩ => ⟨S1x512, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1x1, .f32⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S_, .f32⟩
  | .hbm, ⟨43, _⟩ => ⟨S1, .f32⟩
  | .hbm, ⟨44, _⟩ => ⟨S1x1, .f32⟩
  | .hbm, ⟨45, _⟩ => ⟨S1x512, .f32⟩
  | .hbm, ⟨46, _⟩ => ⟨S1x512, .f32⟩
  | .hbm, ⟨47, _⟩ => ⟨S1x1024, .f32⟩
  | .hbm, ⟨48, _⟩ => ⟨S1x2048, .f32⟩
  | .hbm, ⟨49, _⟩ => ⟨S2048x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1024x3072, .f32⟩
  | .hbm, ⟨61, _⟩ => ⟨S1x3072, .f32⟩
  | .hbm, ⟨62, _⟩ => ⟨S1x3072, .f32⟩
  | .hbm, ⟨63, _⟩ => ⟨S1x3072, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S_, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1024x50257, .f32⟩
  | .hbm, ⟨98, _⟩ => ⟨S1x50257, .f32⟩
  | .hbm, ⟨99, _⟩ => ⟨S1x50257, .f32⟩
  | .hbm, ⟨100, _⟩ => ⟨S1x50257, .f32⟩
  | .hbm, ⟨101, _⟩ => ⟨S_, .f32⟩
  | .hbm, ⟨102, _⟩ => ⟨S1, .f32⟩
  | .hbm, ⟨103, _⟩ => ⟨S_, .f32⟩
  | .hbm, ⟨104, _⟩ => ⟨S1, .f32⟩
  | .hbm, ⟨105, _⟩ => ⟨S1, .f32⟩
  | .hbm, ⟨106, _⟩ => ⟨S1x1, .f32⟩
  | .hbm, ⟨107, _⟩ => ⟨S1x50257, .f32⟩
  | .hbm, ⟨108, _⟩ => ⟨S1x50257, .f32⟩
  | .hbm, ⟨109, _⟩ => ⟨S1x50257, .f32⟩
  | .hbm, ⟨110, _⟩ => ⟨S_, .f32⟩
  | .hbm, ⟨111, _⟩ => ⟨S1, .f32⟩
  | .hbm, ⟨112, _⟩ => ⟨S1x1, .f32⟩
  | .hbm, ⟨113, _⟩ => ⟨S1x1, .f32⟩
  | .hbm, ⟨114, _⟩ => ⟨S1x50257, .f32⟩
  | .hbm, ⟨115, _⟩ => ⟨S1x50257, .f32⟩
  | .hbm, ⟨116, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_c_2 : Ref sig .tc := ⟨.hbm, 19, rfl⟩
abbrev main_v4 : Ref sig .tc := ⟨.hbm, 20, rfl⟩
abbrev main_c_3 : Ref sig .tc := ⟨.hbm, 21, rfl⟩
abbrev main_c_4 : Ref sig .tc := ⟨.hbm, 22, rfl⟩
abbrev main_v5 : Ref sig .tc := ⟨.hbm, 23, rfl⟩
abbrev main_c_5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_cst_6 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_7 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call1_cst : Ref sig .tc := ⟨.hbm, 101, rfl⟩
abbrev main_call1_v0 : Ref sig .tc := ⟨.hbm, 102, rfl⟩
abbrev main_call1_cst_0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_cst_1 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_v72 : Ref sig .tc := ⟨.hbm, 115, rfl⟩
abbrev main_v73 : Ref sig .tc := ⟨.hbm, 116, rfl⟩

abbrev nD : Nat := 1
abbrev τ : Topo := Topo.v7x

variable {F : FTy → Type} [FloatOps F]

class Facts₀ : Prop where
  shapeCasts_S1_S_ : S1.ShapeCasts S_
  sliceFits_S50257x1024_S1x1024 : S50257x1024.Slices (fun _ => 0) S1x1024
  h_S_ : 0 < S_.numel
  shapeCasts_S1x1024_S1024 : S1x1024.ShapeCasts S1024
  bcast_S1024_S1x1024_1 : S1024.BroadcastsInDim S1x1024 (![1] : Fin 1 → Fin S1x1024.rank)
  shapeCasts_S512x1x1024_S512x1024 : S512x1x1024.ShapeCasts S512x1024
  shapeCasts_S1x1x1024_S1x1024 : S1x1x1024.ShapeCasts S1x1024
  transposes_S512x1024_S1024x512_1_0 : S512x1024.Transposes [1, 0] S1024x512
  reducesTo_S1x512_S1_d1 : S1x512.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x512_0_1 : S1x1.BroadcastsInDim S1x512 (![0, 1] : Fin 2 → Fin S1x512.rank)
  concatenates_S1x1024_S1x1024_S1x2048_d1 : Shape.Concatenates [S1x1024, S1x1024] S1x2048 1
  transposes_S1024x2048_S2048x1024_1_0 : S1024x2048.Transposes [1, 0] S2048x1024
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  dot_S1x1024_S1024x512_S1x512_1_0_0_1_n_n_wf : DotDims.WF S1x1024 S1024x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.K.Reg0.lean ====
/- The region half of the frame proof for pallas_call 0 (`cc0_attn_kernel`, one grid point, seven windows: five
   inputs and two outputs, each window the whole of its array), stated at a parameter `V`: the TensorCore's buffer
   contents when the region is entered. Each window's block at a point, what the body leaves in each output
   window's staging buffer as a function of the input blocks, the body's triple, the pipeline's proof data, and
   the body obligation at every point. -/
import proofs.«425490_j31568009626350_3_alg».proof.Proof.Gen.Kernel.Launch
import proofs.«425490_j31568009626350_3_alg».proof.Proof.Gen.Kernel.Skeleton
import proofs.«425490_j31568009626350_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of a thousand coordinates recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s (`hA`) and whose body leaves the block in place (`hafter`): an unfetched window's
    block index has not moved; the window is uncut and never idle. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S1x1024 := Rect.unit (s := S1x1024) ![0, 0] S1x1024.size inb_S1x1024_S1x1024_0_0
abbrev r0_1 : Rect S512x1024 := Rect.unit (s := S512x1024) ![0, 0] S512x1024.size inb_S512x1024_S512x1024_0_0
abbrev r0_2 : Rect S1024x2048 := Rect.unit (s := S1024x2048) ![0, 0] S1024x2048.size inb_S1024x2048_S1024x2048_0_0
abbrev r0_3 : Rect S1x512 := Rect.unit (s := S1x512) ![0, 0] S1x512.size inb_S1x512_S1x512_0_0

/-! ## What the body leaves in each output window's buffer -/

/-- Window 5's staging buffer after the body, from the input windows' blocks: its one store as a piece. -/
def out0_5 (x0 : Vec F S1x1024 .f32) (x1 : Vec F S512x1024 .f32) (x2 : Vec F S1x1024 .f32) (x3 : Vec F S1024x2048 .f32) (x4 : Vec F S1x1024 .f32) : Vec F S1x1024 .f32 :=
  View.canon [⟨r0_0, k0_pay3 (View.ld x0 r0_0) (View.ld x1 r0_1) (View.ld x2 r0_0) (View.ld x3 r0_2) (View.ld x4 r0_0)⟩]

/-- The one store tiles the buffer, so it covers it. -/
theorem cover0_5 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 6's staging buffer after the body, from the input windows' blocks: its one store as a piece. -/
def out0_6 (x0 : Vec F S1x1024 .f32) (x1 : Vec F S512x1024 .f32) : Vec F S1x512 .f32 :=
  View.canon [⟨r0_3, k0_pay2 (View.ld x0 r0_0) (View.ld x1 r0_1)⟩]

/-- The one store tiles the buffer, so it covers it. -/
theorem cover0_6 (p0 : Vec F S1x512 .f32) (y : S1x512.Idx) :
    ∃ pc ∈ ([⟨r0_3, p0⟩] : List (View.Piece (Elt F) S1x512 .f32)), y ∈ pc.1.set :=
  View.cover_of_tiled [⟨r0_3, p0⟩] S1x512.size (by rfl) y

/-! ## The body's triple -/

set_option maxHeartbeats 4000000 in
/-- The kernel body on whole staging memrefs, the inputs' at read contents `xW` and the outputs' at anything, runs to
    the continuation holding the inputs' as they were and each output's at `out0_W` of the inputs'. The body also
    reads each output buffer once before it stores to it; what it reads there is not used. -/
theorem sound_kernel0 (c : Dev nD) (E : Set ℕ) (i : grid0.Coords)
    (arg1 : Memref sig .tc .vmem S1x1024 .f32) (harg1 : arg1.IsWhole) (arg2 : Memref sig .tc .vmem S512x1024 .f32) (harg2 : arg2.IsWhole)
    (arg3 : Memref sig .tc .vmem S1x1024 .f32) (harg3 : arg3.IsWhole) (arg4 : Memref sig .tc .vmem S1024x2048 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x512 .f32) (harg7 : arg7.IsWhole)
    (x0 : Vec F S1x1024 .f32) (x1 : Vec F S512x1024 .f32) (x2 : Vec F S1x1024 .f32) (x3 : Vec F S1024x2048 .f32) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1)) -∗ K ⟨⟩))
      ⊢ wp frame (wpE (defs₀ (F := F)) Variants.none c none) E (cc0_attn_kernel i arg1 harg1 arg2 harg2 arg3 harg3 arg4 harg4 arg5 harg5 arg6 harg6 arg7 harg7) K := by
  simp only [cc0_attn_kernel_eq_skeleton]; unfold cc0_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/- The region half of the frame proof for pallas_call 1 (the gate kernel, grid of 3 points), stated at a parameter
   `V` — the TensorCore's buffer contents when the region is entered. Per window its block at a point; per output
   window what the body's one store leaves in the staging buffer, as a function of the input blocks; the body's
   triple; the pipeline's proof data; and the body obligation at every point. -/
import proofs.«425490_j31568009626350_3_alg».proof.Proof.Gen.Kernel.Launch
import proofs.«425490_j31568009626350_3_alg».proof.Proof.Gen.Kernel.Skeleton
import proofs.«425490_j31568009626350_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for any proof
    data whose array is `V`'s and whose body leaves the block in place: where the window is not fetched its block
    index has not moved, so the block of the point before is this point's. The two resident windows (0 and 1) are
    fetched at the first point only; the four streamed ones (2 to 5) at every point; one statement covers both. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a row buffer of 1024 lanes, and the whole of a square weight block. -/
abbrev r1_0 : Rect S1x1024 := Rect.unit (s := S1x1024) ![0, 0] S1x1024.size inb_S1x1024_S1x1024_0_0
abbrev r1_1 : Rect S1024x1024 := Rect.unit (s := S1024x1024) ![0, 0] S1024x1024.size inb_S1024x1024_S1024x1024_0_0

/-! ## What the body leaves in each output window's buffer -/

/-- Window 6's staging buffer after the body, from the input windows' blocks: its one store, of the input-gate
    payload (the activation row against the input-weight block, plus the input-bias block). -/
def out1_6 (x0 : Vec F S1x1024 .f32) (x1 : Vec F S1x1024 .f32) (x2 : Vec F S1024x1024 .f32) (x3 : Vec F S1024x1024 .f32) (x4 : Vec F S1x1024 .f32) (x5 : Vec F S1x1024 .f32) : Vec F S1x1024 .f32 :=
  View.canon [⟨r1_0, k1_pay1 (View.ld x0 r1_0) (View.ld x2 r1_1) (View.ld x4 r1_0)⟩]

/-- Its store is of the whole buffer, so it covers it. -/
theorem cover1_6 (p0 : Vec F S1x1024 .f32) (y : S1x1024.Idx) :
    ∃ pc ∈ ([⟨r1_0, p0⟩] : List (View.Piece (Elt F) S1x1024 .f32)), y ∈ pc.1.set :=
  View.cover_of_tiled [⟨r1_0, p0⟩] S1x1024.size (by rfl) y

/-- Window 7's staging buffer after the body: its one store, of the hidden-gate payload (the hidden row against the
    hidden-weight block, plus the hidden-bias block). -/
def out1_7 (x0 : Vec F S1x1024 .f32) (x1 : Vec F S1x1024 .f32) (x2 : Vec F S1024x1024 .f32) (x3 : Vec F S1024x1024 .f32) (x4 : Vec F S1x1024 .f32) (x5 : Vec F S1x1024 .f32) : Vec F S1x1024 .f32 :=
  View.canon [⟨r1_0, k1_pay2 (View.ld x1 r1_0) (View.ld x3 r1_1) (View.ld x5 r1_0)⟩]

/-- Its store is of the whole buffer, so it covers it. -/
theorem cover1_7 (p0 : Vec F S1x1024 .f32) (y : S1x1024.Idx) :
    ∃ pc ∈ ([⟨r1_0, p0⟩] : List (View.Piece (Elt F) S1x1024 .f32)), y ∈ pc.1.set :=
  View.cover_of_tiled [⟨r1_0, p0⟩] S1x1024.size (by rfl) y

/-! ## The body's triple -/

set_option maxHeartbeats 1000000 in
/-- The kernel body on whole staging memrefs, the six inputs' at read contents `x0 … x5` and the two outputs' at
    anything, runs to the continuation holding the inputs' as they were and each output's at `out1_6`, `out1_7` of
    the inputs': the body is its sequence of loads and stores over the named payloads; each output buffer is read
    once before it is stored to, and that value is used nowhere. -/
theorem sound_kernel1 (c : Dev nD) (E : Set ℕ) (i : grid1.Coords)
    (arg1 : Memref sig .tc .vmem S1x1024 .f32) (harg1 : arg1.IsWhole) (arg2 : Memref sig .tc .vmem S1x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (x0 : Vec F S1x1024 .f32) (x1 : Vec F S1x1024 .f32) (x2 : Vec F S1024x1024 .f32) (x3 : Vec F S1024x1024 .f32) (x4 : Vec F S1x1024 .f32) (x5 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1_gate_kernel i arg1 harg1 arg2 harg2 arg3 harg3 arg4 harg4 arg5 harg5 arg6 harg6 arg7 harg7 arg8 harg8) K := by
  simp only [cc1_gate_kernel_eq_skeleton]; unfold cc1_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and each output's at `out1_6`, `out1_7` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's match reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's owed counters pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Fold.lean ====
/-
  The buffer contents between the items of @main, as far as they are determined whatever the float instance:
  the launch contents, the first host stretch, then what the first two kernel regions leave in their arrays
  (each output array at the fold of its write-backs, every other buffer untouched), then the second host stretch.
  Stated as the valuations the conditional frame is written over, with the regions' outputs named.
-/
import proofs.«425490_j31568009626350_3_alg».proof.Proof.Gen.Kernel.Regions
import proofs.«425490_j31568009626350_3_alg».proof.Proof.K.Reg0
import proofs.«425490_j31568009626350_3_alg».proof.Proof.K.Reg1
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- A valuation read at the TensorCore's references: what a region's proof data take. -/
abbrev tcOf (W : Dev nD → Valuation τ sig (Elt F)) : (c : Dev nD) → (b : Ref sig .tc) → Buf (Elt F) ((c : Thread nD τ).loc b) :=
  fun c b => W c b

/-! ## After region 0 -/

/-- What region 0 leaves in a buffer: its arrays at the fold of their write-backs, any other buffer as entered. -/
def o2 (r : Ref sig .tc) (c : Dev nD) : Buf (Elt F) ((c : Thread nD τ).loc r) :=
  Pipeline.withArrays spec0 c (V1 m c) (fun w => (dat0 (tcOf (V1 m)) c).arrAt w cfg0.N) r

theorem o2_arr (c : Dev nD) (w : Fin cfg0.W) :
    o2 m (Pipeline.arrRef spec0 w) c = (dat0 (tcOf (V1 m)) c).arrAt w cfg0.N := by
  unfold o2; exact Pipeline.withArrays_arr spec0 launch0.win.arr_inj c _ _ w

/-- The contents after region 0: the two output arrays replaced. -/
abbrev W2 (c : Dev nD) : Valuation τ sig (Elt F) :=
  Function.update (Function.update (V1 m c) main_call0_v16_0 (o2 m main_call0_v16_0 c)) main_v0_2 (o2 m main_v0_2 c)

theorem W2_of (c : Dev nD) (r : Ref sig .tc) (h : r ∉ ([main_call0_v16_0, main_v0_2] : List (Ref sig .tc))) :
    W2 m c r = V1 m c r := by
  simp only [W2, Function.update_of_ne (StableHlo.devRef_ne_of_ne (List.ne_of_not_mem_cons h) : (Proc.devRef .tc r : DevRef τ sig) ≠ Proc.devRef .tc main_call0_v16_0), Function.update_of_ne (StableHlo.devRef_ne_of_ne (List.ne_of_not_mem_cons (List.not_mem_of_not_mem_cons h)) : (Proc.devRef .tc r : DevRef τ sig) ≠ Proc.devRef .tc main_v0_2)]

theorem W2_x (c : Dev nD) : W2 m c main_call0_v16_0 = o2 m main_call0_v16_0 c := by
  simp only [W2, Function.update_of_ne (StableHlo.devRef_ne_of_ne (by decide) : (Proc.devRef .tc main_call0_v16_0 : DevRef τ sig) ≠ Proc.devRef .tc main_v0_2), Function.update_self]

theorem W2_aw (c : Dev nD) : W2 m c main_v0_2 = o2 m main_v0_2 c := by
  simp only [W2, Function.update_self]

/-- Region 0's arrays after the region are what the valuation holds: the inputs as entered, the outputs at their
    write-backs' fold. -/
theorem hF0_0 (c : Dev nD) : (dat0 (tcOf (V1 m)) c).arrAt 0 cfg0.N = W2 m c main_call0_v11 := by
  rw [W2_of m c main_call0_v11 (by decide)]
  exact ((dat0 (tcOf (V1 m)) c).arrAt_in 0 rfl _).trans (A_eq0 (tcOf (V1 m)) c 0)

theorem hF0_1 (c : Dev nD) : (dat0 (tcOf (V1 m)) c).arrAt 1 cfg0.N = W2 m c main_call0_v12 := by
  rw [W2_of m c main_call0_v12 (by decide)]
  exact ((dat0 (tcOf (V1 m)) c).arrAt_in 1 rfl _).trans (A_eq0 (tcOf (V1 m)) c 1)

theorem hF0_2 (c : Dev nD) : (dat0 (tcOf (V1 m)) c).arrAt 2 cfg0.N = W2 m c main_call0_v10 := by
  rw [W2_of m c main_call0_v10 (by decide)]
  exact ((dat0 (tcOf (V1 m)) c).arrAt_in 2 rfl _).trans (A_eq0 (tcOf (V1 m)) c 2)

theorem hF0_3 (c : Dev nD) : (dat0 (tcOf (V1 m)) c).arrAt 3 cfg0.N = W2 m c main_arg4 := by
  rw [W2_of m c main_arg4 (by decide)]
  exact ((dat0 (tcOf (V1 m)) c).arrAt_in 3 rfl _).trans (A_eq0 (tcOf (V1 m)) c 3)

theorem hF0_4 (c : Dev nD) : (dat0 (tcOf (V1 m)) c).arrAt 4 cfg0.N = W2 m c main_call0_v13 := by
  rw [W2_of m c main_call0_v13 (by decide)]
  exact ((dat0 (tcOf (V1 m)) c).arrAt_in 4 rfl _).trans (A_eq0 (tcOf (V1 m)) c 4)

theorem hF0_5 (c : Dev nD) : (dat0 (tcOf (V1 m)) c).arrAt 5 cfg0.N = W2 m c main_call0_v16_0 := by
  rw [W2_x]; exact (o2_arr m c 5).symm

theorem hF0_6 (c : Dev nD) : (dat0 (tcOf (V1 m)) c).arrAt 6 cfg0.N = W2 m c main_v0_2 := by
  rw [W2_aw]; exact (o2_arr m c 6).symm

theorem hF0 (c : Dev nD) (w : Fin cfg0.W) :
    (dat0 (tcOf (V1 m)) c).arrAt w cfg0.N = tcOf (W2 m) c (Pipeline.arrRef spec0 w) := by
  match w with
  | ⟨0, _⟩ => exact hF0_0 m c
  | ⟨1, _⟩ => exact hF0_1 m c
  | ⟨2, _⟩ => exact hF0_2 m c
  | ⟨3, _⟩ => exact hF0_3 m c
  | ⟨4, _⟩ => exact hF0_4 m c
  | ⟨5, _⟩ => exact hF0_5 m c
  | ⟨6, _⟩ => exact hF0_6 m c

theorem hrest0 (c : Dev nD) : ∀ b, b ∉ Finset.univ.image (Pipeline.arrRef spec0) → tcOf (W2 m) c b = tcOf (V1 m) c b :=
  fun b hb => W2_of m c b fun h => hb (by
    rcases List.mem_cons.mp h with rfl | h
    · exact Finset.mem_image.mpr ⟨5, Finset.mem_univ _, rfl⟩
    · rcases List.mem_cons.mp h with rfl | h
      · exact Finset.mem_image.mpr ⟨6, Finset.mem_univ _, rfl⟩
      · exact absurd h (List.not_mem_nil))

/-! ## After region 1 -/

def o3 (r : Ref sig .tc) (c : Dev nD) : Buf (Elt F) ((c : Thread nD τ).loc r) :=
  Pipeline.withArrays spec1 c (W2 m c) (fun w => (dat1 (tcOf (W2 m)) c).arrAt w cfg1.N) r

theorem o3_arr (c : Dev nD) (w : Fin cfg1.W) :
    o3 m (Pipeline.arrRef spec1 w) c = (dat1 (tcOf (W2 m)) c).arrAt w cfg1.N := by
  unfold o3; exact Pipeline.withArrays_arr spec1 launch1.win.arr_inj c _ _ w

abbrev W3 (c : Dev nD) : Valuation τ sig (Elt F) :=
  Function.update (Function.update (W2 m c) main_call0_v17_0 (o3 m main_call0_v17_0 c)) main_call0_v17_1 (o3 m main_call0_v17_1 c)

theorem W3_of (c : Dev nD) (r : Ref sig .tc) (h : r ∉ ([main_call0_v17_0, main_call0_v17_1] : List (Ref sig .tc))) :
    W3 m c r = W2 m c r := by
  simp only [W3, Function.update_of_ne (StableHlo.devRef_ne_of_ne (List.ne_of_not_mem_cons h) : (Proc.devRef .tc r : DevRef τ sig) ≠ Proc.devRef .tc main_call0_v17_0), Function.update_of_ne (StableHlo.devRef_ne_of_ne (List.ne_of_not_mem_cons (List.not_mem_of_not_mem_cons h)) : (Proc.devRef .tc r : DevRef τ sig) ≠ Proc.devRef .tc main_call0_v17_1)]

theorem W3_gi (c : Dev nD) : W3 m c main_call0_v17_0 = o3 m main_call0_v17_0 c := by
  simp only [W3, Function.update_of_ne (StableHlo.devRef_ne_of_ne (by decide) : (Proc.devRef .tc main_call0_v17_0 : DevRef τ sig) ≠ Proc.devRef .tc main_call0_v17_1), Function.update_self]

theorem W3_gh (c : Dev nD) : W3 m c main_call0_v17_1 = o3 m main_call0_v17_1 c := by
  simp only [W3, Function.update_self]

theorem hF1_0 (c : Dev nD) : (dat1 (tcOf (W2 m)) c).arrAt 0 cfg1.N = W3 m c main_call0_v16_0 := by
  rw [W3_of m c main_call0_v16_0 (by decide)]
  exact ((dat1 (tcOf (W2 m)) c).arrAt_in 0 rfl _).trans (A_eq1 (tcOf (W2 m)) c 0)

theorem hF1_1 (c : Dev nD) : (dat1 (tcOf (W2 m)) c).arrAt 1 cfg1.N = W3 m c main_call0_v11 := by
  rw [W3_of m c main_call0_v11 (by decide)]
  exact ((dat1 (tcOf (W2 m)) c).arrAt_in 1 rfl _).trans (A_eq1 (tcOf (W2 m)) c 1)

theorem hF1_2 (c : Dev nD) : (dat1 (tcOf (W2 m)) c).arrAt 2 cfg1.N = W3 m c main_arg6 := by
  rw [W3_of m c main_arg6 (by decide)]
  exact ((dat1 (tcOf (W2 m)) c).arrAt_in 2 rfl _).trans (A_eq1 (tcOf (W2 m)) c 2)

theorem hF1_3 (c : Dev nD) : (dat1 (tcOf (W2 m)) c).arrAt 3 cfg1.N = W3 m c main_arg7 := by
  rw [W3_of m c main_arg7 (by decide)]
  exact ((dat1 (tcOf (W2 m)) c).arrAt_in 3 rfl _).trans (A_eq1 (tcOf (W2 m)) c 3)

theorem hF1_4 (c : Dev nD) : (dat1 (tcOf (W2 m)) c).arrAt 4 cfg1.N = W3 m c main_call0_v14 := by
  rw [W3_of m c main_call0_v14 (by decide)]
  exact ((dat1 (tcOf (W2 m)) c).arrAt_in 4 rfl _).trans (A_eq1 (tcOf (W2 m)) c 4)

theorem hF1_5 (c : Dev nD) : (dat1 (tcOf (W2 m)) c).arrAt 5 cfg1.N = W3 m c main_call0_v15 := by
  rw [W3_of m c main_call0_v15 (by decide)]
  exact ((dat1 (tcOf (W2 m)) c).arrAt_in 5 rfl _).trans (A_eq1 (tcOf (W2 m)) c 5)

theorem hF1_6 (c : Dev nD) : (dat1 (tcOf (W2 m)) c).arrAt 6 cfg1.N = W3 m c main_call0_v17_0 := by
  rw [W3_gi]; exact (o3_arr m c 6).symm

theorem hF1_7 (c : Dev nD) : (dat1 (tcOf (W2 m)) c).arrAt 7 cfg1.N = W3 m c main_call0_v17_1 := by
  rw [W3_gh]; exact (o3_arr m c 7).symm

theorem hF1 (c : Dev nD) (w : Fin cfg1.W) :
    (dat1 (tcOf (W2 m)) c).arrAt w cfg1.N = tcOf (W3 m) c (Pipeline.arrRef spec1 w) := by
  match w with
  | ⟨0, _⟩ => exact hF1_0 m c
  | ⟨1, _⟩ => exact hF1_1 m c
  | ⟨2, _⟩ => exact hF1_2 m c
  | ⟨3, _⟩ => exact hF1_3 m c
  | ⟨4, _⟩ => exact hF1_4 m c
  | ⟨5, _⟩ => exact hF1_5 m c
  | ⟨6, _⟩ => exact hF1_6 m c
  | ⟨7, _⟩ => exact hF1_7 m c

theorem hrest1 (c : Dev nD) : ∀ b, b ∉ Finset.univ.image (Pipeline.arrRef spec1) → tcOf (W3 m) c b = tcOf (W2 m) c b :=
  fun b hb => W3_of m c b fun h => hb (by
    rcases List.mem_cons.mp h with rfl | h
    · exact Finset.mem_image.mpr ⟨6, Finset.mem_univ _, rfl⟩
    · rcases List.mem_cons.mp h with rfl | h
      · exact Finset.mem_image.mpr ⟨7, Finset.mem_univ _, rfl⟩
      · exact absurd h (List.not_mem_nil))

/-! ## After the second host stretch: what region 2 is entered from -/

abbrev W4 (c : Dev nD) : Valuation τ sig (Elt F) := StableHlo.after hostOps2 (W3 m c)

end Cert.Kernel.Hand

end
-- ==== Proof.K.Reg2.lean ====
/-
  Region 2 of the decoder step: the output projection. One grid point j of 25 takes the resident row h (1 x 1024),
  the j-th block of 2048 rows of the projection matrix (50257 x 1024) and the j-th block of 2048 lanes of the bias row
  (1 x 50257), and stores, lane v of the block, the contraction of h with row v of the block plus the bias lane where
  j * 2048 + v < 50257, and a large negative constant elsewhere. 50257 = 24 * 2048 + 1105: the last block of each of
  the three moving windows overhangs its array, its transfers are cut to the 1105 rows (lanes) inside the array, and a
  cut fetch first overwrites the whole staging buffer with contents nothing names.

  This module is the region's half of the frame proof, at the buffer contents V the region is entered with: the
  windows' blocks (iblk2), what the body leaves in the result's buffer as a function of the three buffers it reads
  (out2_3), the body's triple over arbitrary buffer contents (sound_kernel2), the proof data (dat2) and the body
  obligation at every point, in two forms. The contraction is a field of the float instance taken on whole operands,
  so that a result lane reads only its own row of the right operand is a property an instance may or may not have
  (RowLocal2): with it the result's buffer is named on the lanes inside the array (body_obligation2); without it the
  result window is forgotten (body_obligation2_forget), which is all the frame of the region needs.
-/
import proofs.«425490_j31568009626350_3_alg».proof.Proof.Gen.Kernel.Launch
import proofs.«425490_j31568009626350_3_alg».proof.Proof.Gen.Kernel.Skeleton
import proofs.«425490_j31568009626350_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it: for the three moving windows the part
    of the block inside the array (all of it at points 0..23, the first 1105 rows or lanes at point 24). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each buffer whole -/

abbrev r2_0 : Rect S1x1024 := Rect.unit (s := S1x1024) ![0, 0] S1x1024.size inb_S1x1024_S1x1024_0_0
abbrev r2_1 : Rect S2048x1024 := Rect.unit (s := S2048x1024) ![0, 0] S2048x1024.size inb_S2048x1024_S2048x1024_0_0
abbrev r2_2 : Rect S1x2048 := Rect.unit (s := S1x2048) ![0, 0] S1x2048.size inb_S1x2048_S1x2048_0_0

/-! ## What the body leaves in the result's buffer -/

/-- The result's staging buffer after the body at grid coordinates i, from what the three input buffers hold: its
    one store, of the whole buffer, of the payload computed from the three whole loads. -/
def out2_3 (i : grid2.Coords) (x0 : Vec F S1x1024 .f32) (x1 : Vec F S2048x1024 .f32) (x2 : Vec F S1x2048 .f32) : Vec F S1x2048 .f32 :=
  View.canon [⟨r2_2, k2_pay1 i (View.ld x0 r2_0) (View.ld x1 r2_1) (View.ld x2 r2_2)⟩]

/-- The one store covers the buffer. -/
theorem cover2_3 (p0 : Vec F S1x2048 .f32) (y : S1x2048.Idx) :
    ∃ pc ∈ ([⟨r2_2, p0⟩] : List (View.Piece (Elt F) S1x2048 .f32)), y ∈ pc.1.set :=
  View.cover_of_tiled [⟨r2_2, p0⟩] S1x2048.size (by rfl) y

/-! ## The body's triple -/

set_option maxHeartbeats 1000000 in
/-- The kernel body on whole staging memrefs, the three inputs' at any contents x0, x1, x2 and the result's at
    anything, runs to the continuation holding the inputs' as they were and the result's at out2_3 of them. -/
theorem sound_kernel2 (c : Dev nD) (E : Set ℕ) (i : grid2.Coords)
    (arg1 : Memref sig .tc .vmem S1x1024 .f32) (harg1 : arg1.IsWhole) (arg2 : Memref sig .tc .vmem S2048x1024 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x1024 .f32) (x1 : Vec F S2048x1024 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out2_3 i x0 x1 x2)) -∗ K ⟨⟩))
      ⊢ wp frame (wpE (defs₀ (F := F)) Variants.none c none) E (cc2_out_matmul_kernel i arg1 harg1 arg2 harg2 arg3 harg3 arg4 harg4) K := by
  simp only [cc2_out_matmul_kernel_eq_skeleton]; unfold cc2_out_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The blocks as the buffers hold them -/

/-- The word that fills out, past the array's end, the contents the proof data names for a cut buffer: nothing reads
    it (every statement about a cut buffer is about its part inside the array). -/
abbrev zfill : Elt F .f32 := Scalar.ofBits .f32 0#32

/-- The matrix block's staging buffer at point t: the rows inside the array, zero words past them. -/
def blk2_1 (c : Dev nD) (t : Fin cfg2.N) : Vec F S2048x1024 .f32 :=
  win2_1.fill (grid2.coords t) (fun _ => zfill) (iblk2 V c 1 t)
/-- The bias block's likewise: the lanes inside the array, zero words past them. -/
def blk2_2 (c : Dev nD) (t : Fin cfg2.N) : Vec F S1x2048 .f32 :=
  win2_2.fill (grid2.coords t) (fun _ => zfill) (iblk2 V c 2 t)

/-! ## The pipeline's proof data -/

/-- The proof data of pipeline 2 on core c: the arrays as the region finds them; after the body at point t the
    resident row's buffer at the row, the two moving inputs' at their blocks filled out with zero words, the result's
    at out2_3 of those three; the invariant the scoped rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => blk2_1 V c t
    | ⟨2, _⟩ => blk2_2 V c t
    | ⟨3, _⟩ => out2_3 (grid2.coords t) (iblk2 V c 0 t) (blk2_1 V c t) (blk2_2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = blk2_1 V c t := by dsimp only [dat2]
theorem after2_2 (c : Dev nD) (t : Fin cfg2.N) : (dat2 V c).after 2 t = blk2_2 V c t := by dsimp only [dat2]
theorem after2_3 (c : Dev nD) (t : Fin cfg2.N) :
    (dat2 V c).after 3 t = out2_3 (grid2.coords t) (iblk2 V c 0 t) (blk2_1 V c t) (blk2_2 V c t) := by dsimp only [dat2]

/-! ## What the body finds -/

/-- The resident row's buffer holds the row at every point, fetched there (point 0) or not: the window is uncut,
    never idle, its block index never moves, and the body leaves the row in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The matrix block's buffer, fetched at every point: the block on the rows inside the array, d past them. -/
theorem before2_1 (c : Dev nD) (t : Fin cfg2.N) (d) :
    (dat2 V c).before 1 t d = win2_1.fill (grid2.coords t) d (iblk2 V c 1 t) := by
  rw [(dat2 V c).before_fetched 1 t (fetch2_1 t) d]; rfl
/-- The bias block's likewise. -/
theorem before2_2 (c : Dev nD) (t : Fin cfg2.N) (d) :
    (dat2 V c).before 2 t d = win2_2.fill (grid2.coords t) d (iblk2 V c 2 t) := by
  rw [(dat2 V c).before_fetched 2 t (fetch2_2 t) d]; rfl

/-! ## Row-locality of the contraction -/

/-- The contraction of this kernel — a row of 1024 against the 2048 rows of a block, onto an accumulator — read at
    result lane y depends on the right operand through its row y only. The float instance's contraction is a
    function of the whole operands, so this is a property of an instance: the exact one has it (the lane is the
    accumulator plus the sum of the products along the row); one that pins the matrix unit's bits need not. -/
def RowLocal2 (F : FTy → Type) [FloatOps F] : Prop :=
  ∀ (l : FVec F S1x1024 .bf16) (r r' : FVec F S2048x1024 .bf16) (acc : FVec F S1x2048 .f32) (y : S1x2048.Idx),
    (∀ k : S2048x1024.Idx, (k 0).val = (y 1).val → r k = r' k) →
      matmul dot_S1x1024_S2048x1024_S1x2048_1_1_0_0_n_n none l r acc y
        = matmul dot_S1x1024_S2048x1024_S1x2048_1_1_0_0_n_n none l r' acc y

/-- The payload at lane y reads the matrix block through row y and the bias block at lane y only: the rounding of
    the block and the select are lane-wise, the bias is added lane-wise, and the contraction is row-local. -/
theorem k2_pay1_congr (hloc : RowLocal2 F) (i : grid2.Coords) (v0 : Vec F S1x1024 .f32) (v3 v3' : Vec F S2048x1024 .f32)
    (v12 v12' : Vec F S1x2048 .f32) (y : S1x2048.Idx)
    (h3 : ∀ k : S2048x1024.Idx, (k 0).val = (y 1).val → v3 k = v3' k) (h12 : v12 y = v12' y) :
    k2_pay1 i v0 v3 v12 y = k2_pay1 i v0 v3' v12' y := by
  unfold k2_pay1
  dsimp only
  have hm := hloc (truncf FTy.bf16 (shapeCast S1x1024 v0 shapeCasts_S1x1024_S1x1024) bitsLt_bf16_f32)
    (truncf FTy.bf16 v3 bitsLt_bf16_f32) (truncf FTy.bf16 v3' bitsLt_bf16_f32) (constant S1x2048 FTy.f32 0x00000000#32) y
    (fun k hk => by unfold truncf; rw [h3 k hk])
  have hs : shapeCast S1x2048 v12 shapeCasts_S1x2048_S1x2048 y = shapeCast S1x2048 v12' shapeCasts_S1x2048_S1x2048 y := by
    rw [shapeCast_self, shapeCast_self]; exact h12
  rw [ValueIdx.select_apply, ValueIdx.select_apply]
  unfold addf
  rw [hm, hs]

/-- So does what the body leaves in the result's buffer: its one store is of the whole buffer, the three loads of
    the whole buffers. -/
theorem out2_3_congr (hloc : RowLocal2 F) (i : grid2.Coords) (x0 : Vec F S1x1024 .f32) (x1 x1' : Vec F S2048x1024 .f32)
    (x2 x2' : Vec F S1x2048 .f32) (y : S1x2048.Idx)
    (h1 : ∀ k : S2048x1024.Idx, (k 0).val = (y 1).val → x1 k = x1' k) (h2 : x2 y = x2' y) :
    out2_3 i x0 x1 x2 y = out2_3 i x0 x1' x2' y := by
  have hz : (![0, 0] : Fin 2 → Nat) = fun _ => 0 := funext fun a => by fin_cases a <;> rfl
  unfold out2_3
  rw [View.canon_unit_zero hz, View.canon_unit_zero hz]
  simp only [View.ld_unit_zero (S := S1x1024) hz, View.ld_unit_zero (S := S2048x1024) hz, View.ld_unit_zero (S := S1x2048) hz]
  exact k2_pay1_congr hloc i x0 x1 x1' x2 x2' y h1 h2

/-! ## The result's buffer on the lanes inside the array -/

/-- Two fillings of one block with the same leading part agree wherever the transfer moves. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- On the lanes inside the array, what the body leaves in the result's buffer does not depend on what fills out the
    matrix block's and the bias block's buffers past the array's end: lane v inside the array reads row v of the
    matrix block, which is inside the array too (the two windows are cut alike: block j's rows are the result's block
    j's lanes), all 1024 of its columns, and bias lane v. -/
theorem cut_out2_3 (hloc : RowLocal2 F) (i : grid2.Coords) (x0 : Vec F S1x1024 .f32)
    (d1 d1' : Vec F S2048x1024 .f32) (b1 : (win2_1.xblock i).Idx → Elt F .f32)
    (d2 d2' : Vec F S1x2048 .f32) (b2 : (win2_2.xblock i).Idx → Elt F .f32) :
    win2_3.cut i (out2_3 i x0 (win2_1.fill i d1 b1) (win2_2.fill i d2 b2))
      = win2_3.cut i (out2_3 i x0 (win2_1.fill i d1' b1) (win2_2.fill i d2' b2)) := by
  funext j
  show out2_3 i x0 _ _ (win2_3.xinj i j) = out2_3 i x0 _ _ (win2_3.xinj i j)
  refine out2_3_congr hloc i x0 _ _ _ _ (win2_3.xinj i j) (fun k hk => ?_) ?_
  · refine fill_eq_of_moved win2_1 i d1 d1' b1 ((win2_1.moved_iff i k).mpr fun a => ?_)
    match a with
    | ⟨0, _⟩ =>
      have h : (k 0).val < win2_1.xsize i 0 := by rw [hk]; exact (j 1).isLt
      exact h
    | ⟨1, _⟩ =>
      have h : (k 1).val < win2_1.xsize i 1 := (k 1).isLt
      exact h
  · refine fill_eq_of_moved win2_2 i d2 d2' b2 ((win2_2.moved_iff i _).mpr fun a => ?_)
    exact (j a).isLt

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the resident row's buffer at the row; each cut window's buffer stated on its part inside
    the array, anything past it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t))))
    ∗ (∃ d, owns (c : Thread nD τ) (st2_3 t) fullShare (win2_3.fill (grid2.coords t) d (win2_3.cut (grid2.coords t) ((dat2 V c).after 3 t)))))

/-- The body at any point, for an instance whose contraction is row-local: the inputs' buffers hold their blocks,
    the two cut ones filled out with contents nothing names, so the triple applies at those contents; the inputs'
    buffers come back as they were, which on the part inside the array is what the proof data names; the result's
    comes back at out2_3 of those contents, which on the lanes inside the array is out2_3 of the named ones. -/
theorem sound_body2 (hloc : RowLocal2 F) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; unfold blk2_1; rw [Window.cut_fill]; iexact H1
  isplitl [H2]
  · iexists d2; unfold blk2_2; rw [Window.cut_fill]; iexact H2
  · iexists out2_3 (grid2.coords t) (iblk2 V c 0 t) (win2_1.fill (grid2.coords t) d1 (iblk2 V c 1 t)) (win2_2.fill (grid2.coords t) d2 (iblk2 V c 2 t))
    unfold blk2_1 blk2_2
    have e := Window.fill_congr_cut win2_3 (grid2.coords t) (cut_out2_3 hloc (grid2.coords t) (iblk2 V c 0 t) d1 (fun _ => zfill) (iblk2 V c 1 t) d2 (fun _ => zfill) (iblk2 V c 2 t))
    change _ ⊢ owns (c : Thread nD τ) (st2_3 t) fullShare (win2_3.fill (grid2.coords t)
      (out2_3 (grid2.coords t) (iblk2 V c 0 t) (win2_1.fill (grid2.coords t) d1 (iblk2 V c 1 t)) (win2_2.fill (grid2.coords t) d2 (iblk2 V c 2 t)))
      (win2_3.cut (grid2.coords t)
        (out2_3 (grid2.coords t) (iblk2 V c 0 t) (win2_1.fill (grid2.coords t) (fun _ => zfill) (iblk2 V c 1 t)) (win2_2.fill (grid2.coords t) (fun _ => zfill) (iblk2 V c 2 t)))))
    exact Entails.of_eq (congrArg (owns (c : Thread nD τ) (st2_3 t) fullShare) e.symm)

/-- The library's body obligation, at every point, with the result's buffer named on the lanes inside the array. -/
theorem body_obligation2 (hloc : RowLocal2 F) (c : Dev nD) :
    BodyObligationLoose (dat2 (F := F) V c) (defs₀ (F := F)) Variants.none () Set.univ := fun t => by
  rw [bigSep_W2, bigSep_W2]
  exact sound_body2 V hloc c t

/-! ## The same with the result window forgotten, for any instance -/

/-- The result window, forgotten: what the body leaves in its buffer is stated nowhere. -/
def forgets2 : Fin cfg2.W → Bool := fun w => w.val == 3

/-- What the body is called with at point t when the result window is forgotten: its buffer at any contents, -/
def bodyPre2F (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ X, owns (c : Thread nD τ) (st2_3 t) fullShare X))

/-- and what it returns: the result's buffer at any contents again. -/
def bodyPost2F (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t))))
    ∗ (∃ X, owns (c : Thread nD τ) (st2_3 t) fullShare X))

/-- The body at any point, for any instance: as above, with nothing to show of the result's buffer. -/
theorem sound_body2F (c : Dev nD) (t : Fin cfg2.N) :
    bodyPre2F V c t ⊢ wp frame (wpE (defs₀ (F := F)) Variants.none c none) Set.univ (bodyAt2 t) (fun _ => bodyPost2F V c t) := by
  unfold bodyPre2F bodyPost2F bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; unfold blk2_1; rw [Window.cut_fill]; iexact H1
  isplitl [H2]
  · iexists d2; unfold blk2_2; rw [Window.cut_fill]; iexact H2
  · iexists _; iexact H3

/-- The library's body obligation with the result window forgotten, at every point, for any instance. -/
theorem body_obligation2_forget (c : Dev nD) :
    BodyObligationLoose (dat2 (F := F) V c) (defs₀ (F := F)) Variants.none () Set.univ forgets2 := fun t => by
  rw [bigSep_W2, bigSep_W2]
  exact sound_body2F V c t

end Cert.Kernel.Hand

end
-- ==== Proof.K.RunForget.lean ====
/-
  The frame of @main through relational proof data that forget the last kernel region's result window: every
  weakly fair execution terminates, nothing faults, and every argument array ends as launched. The first two
  regions are taken at their exact proof data read relationally; the third at its exact data with the result
  window forgotten, so that what it leaves in its result array is some contents, named nowhere; the last host
  stretch runs over those unknown contents, and the arguments are read off the last valuation, which no item writes.
-/
import proofs.«425490_j31568009626350_3_alg».proof.Proof.K.Fold
import proofs.«425490_j31568009626350_3_alg».proof.Proof.K.Reg2
import Idealize.ShloMosaic.Lib.Pipeline.Kit

set_option maxRecDepth 16384

noncomputable section

namespace Cert.Kernel.Hand.Forget

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's relational proof data, each from the exact data at its region's entry contents: the first two
    read as they are, the third with its result window forgotten. -/
def rdats : (p : Fin 3) → (c : Dev nD) → RDat τ (Elt F) Unit ℕ (UR sig nD τ) ℕ (Pipeline.pin (pcfgs (F := F)) adm p) c
  | ⟨0, _⟩ => fun c => (dat0 (tcOf (V1 m)) c).toR
  | ⟨1, _⟩ => fun c => (dat1 (tcOf (W2 m)) c).toR
  | ⟨2, _⟩ => fun c => (dat2 (tcOf (W4 m)) c).toRForget forgets2

/-- The exact data the relational family is read from. -/
def pdats : (p : Fin 3) → (c : Dev nD) → Dat τ (Elt F) Unit ℕ (UR sig nD τ) ℕ (Pipeline.pin (pcfgs (F := F)) adm p) c
  | ⟨0, _⟩ => fun c => dat0 (tcOf (V1 m)) c
  | ⟨1, _⟩ => fun c => dat1 (tcOf (W2 m)) c
  | ⟨2, _⟩ => fun c => dat2 (tcOf (W4 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- The contents after region 2: its result array at some contents X. -/
abbrev W5 (c : Dev nD) (X : Buf (Elt F) ((c : Thread nD τ).loc main_call0_v47)) : Valuation τ sig (Elt F) :=
  Function.update (W4 m c) main_call0_v47 X

/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## Region 2's arrays at its exit, for a result X -/

/-- Region 2's arrays when it is left: the three inputs as entered, the result at X. -/
def exit2 (c : Dev nD) (X : Buf (Elt F) ((c : Thread nD τ).loc main_call0_v47)) :
    (w : Fin cfg2.W) → Buf (Elt F) ((cfg2.win w).arr.view.loc (c.tc : Thread nD τ))
  | ⟨0, _⟩ => tcOf (W4 m) c (Pipeline.arrRef spec2 0)
  | ⟨1, _⟩ => tcOf (W4 m) c (Pipeline.arrRef spec2 1)
  | ⟨2, _⟩ => tcOf (W4 m) c (Pipeline.arrRef spec2 2)
  | ⟨3, _⟩ => X

/-- They are what the valuation with the result replaced holds at them, -/
theorem hF2 (c : Dev nD) (X : Buf (Elt F) ((c : Thread nD τ).loc main_call0_v47)) (w : Fin cfg2.W) :
    exit2 m c X w = W5 m c X (Pipeline.arrRef spec2 w) := by
  match w with
  | ⟨0, _⟩ =>
    show W4 m c (Proc.devRef .tc (Pipeline.arrRef spec2 0)) = Function.update (W4 m c) (Proc.devRef .tc main_call0_v47) X (Proc.devRef .tc (Pipeline.arrRef spec2 0))
    exact (Function.update_of_ne (StableHlo.devRef_ne_of_ne (by decide)) _ _).symm
  | ⟨1, _⟩ =>
    show W4 m c (Proc.devRef .tc (Pipeline.arrRef spec2 1)) = Function.update (W4 m c) (Proc.devRef .tc main_call0_v47) X (Proc.devRef .tc (Pipeline.arrRef spec2 1))
    exact (Function.update_of_ne (StableHlo.devRef_ne_of_ne (by decide)) _ _).symm
  | ⟨2, _⟩ =>
    show W4 m c (Proc.devRef .tc (Pipeline.arrRef spec2 2)) = Function.update (W4 m c) (Proc.devRef .tc main_call0_v47) X (Proc.devRef .tc (Pipeline.arrRef spec2 2))
    exact (Function.update_of_ne (StableHlo.devRef_ne_of_ne (by decide)) _ _).symm
  | ⟨3, _⟩ =>
    show X = Function.update (W4 m c) (Proc.devRef .tc main_call0_v47) X (Proc.devRef .tc main_call0_v47)
    exact (Function.update_self (β := fun b : DevRef τ sig => b.ty.Contents (Elt F)) (Proc.devRef .tc main_call0_v47) X (W4 m c)).symm

/-- and every buffer that is none of them is as the region found it. -/
theorem hrest2 (c : Dev nD) (X : Buf (Elt F) ((c : Thread nD τ).loc main_call0_v47)) :
    ∀ b, b ∉ Finset.univ.image (Pipeline.arrRef spec2) → W5 m c X b = tcOf (W4 m) c b := by
  intro b hb
  have hne : (Proc.devRef .tc b : DevRef τ sig) ≠ Proc.devRef .tc main_call0_v47 :=
    StableHlo.devRef_ne_of_ne fun e => hb (Finset.mem_image.mpr ⟨(3 : Fin cfg2.W), Finset.mem_univ _, e.symm⟩)
  exact Function.update_of_ne hne _ _

/-! ## The regions as segments -/

set_option backward.isDefEq.respectTransparency.types false in
/-- REGION 0 over the thread state: entered from every unscoped buffer at the contents after the first host stretch,
    left at those contents with its two output arrays at the fold of their write-backs. Its arrays are split out of
    the unscoped buffers at entry and put back at exit, where the relational "some contents they may hold" is the
    exact data's named contents; the generator register goes into the invariant and comes out; nothing is owed. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tcOf (V1 m)) c).toR
  hwaits := Pipeline.RDat.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (tcOf (V1 m) c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (tcOf (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcOf (V1 m) c) (tcOf (W2 m) c) ((pdats m 0 c).arrAt · cfg0.N) (hF0 m c) (hrest0 m c)
    rw [Pipeline.unscopedBufs_held] at hjoin
    rw [show (rdats m 0 c).arraysAt (Pipeline.pin (pcfgs (F := F)) adm 0).N = (pdats m 0 c).arrays ((pdats m 0 c).arrAt · cfg0.N)
      from (dat0 (tcOf (V1 m)) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- REGION 1 over the thread state, in the same way: entered from the contents region 0 leaves, left at those with
    its two output arrays at the fold of their write-backs. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcOf (W2 m)) c).toR
  hwaits := Pipeline.RDat.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (tcOf (W2 m) c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (tcOf (W2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcOf (W2 m) c) (tcOf (W3 m) c) ((pdats m 1 c).arrAt · cfg1.N) (hF1 m c) (hrest1 m c)
    rw [Pipeline.unscopedBufs_held] at hjoin
    rw [show (rdats m 1 c).arraysAt (Pipeline.pin (pcfgs (F := F)) adm 1).N = (pdats m 1 c).arrays ((pdats m 1 c).arrAt · cfg1.N)
      from (dat1 (tcOf (W2 m)) c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Input window 0's array is never written: whatever it may hold after any number of write-backs is what the
    region found in it. -/
theorem in2_0 (c : Dev nD) (n : ℕ) (G : Buf (Elt F) ((cfg2.win 0).arr.view.loc (c.tc : Thread nD τ)))
    (h : (rdats m 2 c).ArrAt 0 n G) : G = tcOf (W4 m) c (Pipeline.arrRef spec2 0) :=
  ((congrFun ((rdats m 2 c).ArrAt_in 0 rfl n) G).mp h).trans (A_eq2 (tcOf (W4 m)) c 0)

set_option backward.isDefEq.respectTransparency.types false in
/-- Input window 1's array is never written: whatever it may hold after any number of write-backs is what the
    region found in it. -/
theorem in2_1 (c : Dev nD) (n : ℕ) (G : Buf (Elt F) ((cfg2.win 1).arr.view.loc (c.tc : Thread nD τ)))
    (h : (rdats m 2 c).ArrAt 1 n G) : G = tcOf (W4 m) c (Pipeline.arrRef spec2 1) :=
  ((congrFun ((rdats m 2 c).ArrAt_in 1 rfl n) G).mp h).trans (A_eq2 (tcOf (W4 m)) c 1)

set_option backward.isDefEq.respectTransparency.types false in
/-- Input window 2's array is never written: whatever it may hold after any number of write-backs is what the
    region found in it. -/
theorem in2_2 (c : Dev nD) (n : ℕ) (G : Buf (Elt F) ((cfg2.win 2).arr.view.loc (c.tc : Thread nD τ)))
    (h : (rdats m 2 c).ArrAt 2 n G) : G = tcOf (W4 m) c (Pipeline.arrRef spec2 2) :=
  ((congrFun ((rdats m 2 c).ArrAt_in 2 rfl n) G).mp h).trans (A_eq2 (tcOf (W4 m)) c 2)

set_option backward.isDefEq.respectTransparency.types false in
/-- Region 2's exit: its arrays at some contents they may hold after every write-back — an input array at its entry
    contents, since it is never written; the result array at some X —, beside the unscoped rest, are every unscoped
    buffer at the entry valuation with the result replaced by X. -/
theorem reg2_exit (c : Dev nD) :
    iprop((rdats m 2 c).arraysAt (Pipeline.pin (pcfgs (F := F)) adm 2).N ∗ (rdats m 2 c).owesAt () (Fin.last (Pipeline.pin (pcfgs (F := F)) adm 2).N)
        ∗ (∃ r, prngReg c r) ∗ Pipeline.unscopedRest (Ix := Unit) (Name := ℕ) (U := UR sig nD τ) (Lvl := ℕ) spec2 c (tcOf (W4 m) c))
      ⊢ (|={Set.univ}=> iprop(∃ X, StableHlo.held (c : Thread nD τ) (Pipeline.ucRefs τ sig) (W5 m c X) ∗ R c) : sProp 𝕄) := by
    have hjoin := fun X => Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcOf (W4 m) c) (fun b => W5 m c X b) (exit2 m c X) (hF2 m c X) (hrest2 m c X)
    simp only [Pipeline.unscopedBufs_held] at hjoin
    unfold Pipeline.RDat.arraysAt
    rw [bigSep_W2]
    iintro ⟨⟨⟨%F0, %h0, H0⟩, ⟨%F1, %h1, H1⟩, ⟨%F2, %h2, H2⟩, ⟨%F3, -, H3⟩⟩, HO, HY, Hrest⟩
    -- an input array is never written: it holds its entry contents
    have e0 := in2_0 m c _ F0 h0
    have e1 := in2_1 m c _ F1 h1
    have e2 := in2_2 m c _ F2 h2
    subst e0 e1 e2
    imodintro
    iexists F3
    isplitl [H0 H1 H2 H3 Hrest]
    · iapply (hjoin F3)
      isplitr [Hrest]
      · unfold Pipeline.Dat.arrays
        rw [bigSep_W2]
        isplitl [H0]; · iexact H0
        isplitl [H1]; · iexact H1
        isplitl [H2]; · iexact H2
        iexact H3
      iexact Hrest
    isplitl [HY]; · iexact HY
    unfold Pipeline.RDat.owesAt Pipeline.owesWithin
    icases HO with ⟨%W, -, HO⟩; iexists W; iexact HO

set_option backward.isDefEq.respectTransparency.types false in
/-- REGION 2 over the thread state, its result window forgotten: entered from the contents after the second host
    stretch, left at those contents with the result array at SOME contents X. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2_forget (tcOf (W4 m)) c).toRForget
  hwaits := Pipeline.RDat.hwaits_of_owed_zero _ _ _ _ L lv 2 fun _ _ => rfl
  pre c := iprop(StableHlo.held (c : Thread nD τ) (Pipeline.ucRefs τ sig) (W4 m c) ∗ R c)
  post c := iprop(∃ X, StableHlo.held (c : Thread nD τ) (Pipeline.ucRefs τ sig) (W5 m c X) ∗ R c)
  X c := iprop(∃ r, prngReg c r)
  Y c := iprop(∃ r, prngReg c r)
  Z c := Pipeline.unscopedRest (Ix := Unit) (Name := ℕ) (U := UR sig nD τ) (Lvl := ℕ) spec2 c (tcOf (W4 m) c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (tcOf (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := reg2_exit m c

/-! ## The last host stretch, over the unknown result -/

set_option backward.isDefEq.respectTransparency.types false in
/-- The last host stretch as a segment, entered from the contents region 2 leaves for some result X and left at what
    the stretch's operations make of them, for that X: the straight-line rule at the valuation with X in the result array. -/
def seg5 : HostSeg (Name := ℕ) (U := UR sig nD τ) (pcfgs (F := F)) defs₀ 𝒱₀ L lv where
  prog := StableHlo.seq hostOps3
  pre c := iprop(∃ X, StableHlo.held (c : Thread nD τ) (Pipeline.ucRefs τ sig) (W5 m c X) ∗ R c)
  post c := iprop(∃ X, StableHlo.held (c : Thread nD τ) (Pipeline.ucRefs τ sig) (StableHlo.after hostOps3 (W5 m c X)) ∗ R c)
  run c {β} k K := by
    iintro ⟨Hk, Hbd, ⟨%X, Hh, HR⟩, -⟩
    have hseq := StableHlo.wp_seq (defs := Pipeline.defs (pcfgs (F := F)) defs₀) (Variants.lift 𝒱₀) none Set.univ c (Pipeline.ucRefs τ sig) k (K := K) hostOps3
      (fun op h => Pipeline.sub_ucRefs op ((List.forall_iff_forall_mem.mp hostOps3_sub) op h))
      (fun op h => (List.forall_iff_forall_mem.mp hostOps3_fresh) op h) (W5 m c X)
    iapply hseq $$ [Hbd Hh]
    · isplitl [Hbd] <;> iassumption
    iintro ⟨Hbd, Hh⟩
    iapply Hk
    isplitl [Hbd]; · iexact Hbd
    iexists X
    isplitl [Hh] <;> iassumption

/-! ## @main as segments, and the launch -/

/-- @main's six items in order: a host segment per stretch from its boundary's contents, a region per kernel call. -/
abbrev segs : List (Pipeline.RDat.Seg (pcfgs (F := F)) adm (rdats m) () defs₀ 𝒱₀ L lv) :=
  [ .host (hseg hostOps0 hostOps0_sub hostOps0_fresh (V0 m)),
    .region (reg0 m),
    .region (reg1 m),
    .host (hseg hostOps2 hostOps2_sub hostOps2_fresh (W3 m)),
    .region (reg2 m),
    .host (seg5 m) ]

/-- The last thread state without the dues: every unscoped buffer at the last contents, for some result of region 2,
    the generator register at some state. -/
abbrev Tₙ (c : Dev nD) : sProp 𝕄 :=
  iprop(∃ X, StableHlo.held (c : Thread nD τ) (Pipeline.ucRefs τ sig) (StableHlo.after hostOps3 (W5 m c X)) ∗ ∃ r, prngReg c r)

/-- No item writes an argument: read off the last valuation it is the launch's. -/
theorem last_arg (c : Dev nD) (X : Buf (Elt F) ((c : Thread nD τ).loc main_call0_v47)) (r : Ref sig .tc)
    (h5 : r ∉ hostOps3_W) (h4 : r ≠ main_call0_v47) (h3 : r ∉ hostOps2_W)
    (h2 : r ∉ ([main_call0_v17_0, main_call0_v17_1] : List (Ref sig .tc)))
    (h1 : r ∉ ([main_call0_v16_0, main_v0_2] : List (Ref sig .tc))) (h0 : r ∉ hostOps0_W) :
    StableHlo.after hostOps3 (W5 m c X) (Proc.devRef .tc r) = m ((c : Thread nD τ).loc r) :=
  (StableHlo.after_of_writes_sub hostOps3 _ hostOps3_writes h5).trans <|
    (Function.update_of_ne (StableHlo.devRef_ne_of_ne h4) _ _).trans <|
    (StableHlo.after_of_writes_sub hostOps2 _ hostOps2_writes h3).trans <|
    (W3_of m c r h2).trans <| (W2_of m c r h1).trans <| (V1_of m c r h0).trans rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE FRAME, at any float instance: from any memory with zero counters, every weakly fair execution of @main on the
    TensorCores terminates, nothing faulting, and every final memory holds each argument array as launched. The
    launch over the six segments; the thread states chain as stated (each item is entered from what the one before
    it leaves); the last thread state, for whatever result region 2 left, is read against the final state, and each
    argument's buffer is traced back through the items to the launch memory, none of them writing it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.RDat.θ_run_regions_kit_dev (pcfgs (F := F)) adm (rdats m) () cellOf_inj emb₁ defs₀ 𝒱₀ L lv m ρ main
    (fun _ => segs m)
    (fun c Q => by
      rewrite [main_chain c, Pipeline.RDat.Seg.run_eq_chain,
        show (segs m).map Pipeline.RDat.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, by
      show (seg5 m).post c ⊢ _
      unfold seg5
      iintro ⟨%X, Hh, Hp, HO⟩
      isplitl [Hh Hp]
      · iexists X; isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => by
      unfold Tₙ StableHlo.held
      iintro ⟨⟨%X, Hh, -⟩, HSI⟩
      ihave Hr := (pointsTo_read_all (Pipeline.ucRefs τ sig) (fun b => ((c : Thread nD τ).1, b)) (StableHlo.after hostOps3 (W5 m c X)) s') $$ [Hh HSI]
      · isplitl [Hh] <;> iassumption
      icases Hr with ⟨%h, HSI⟩
      imodintro
      isplitr
      · ipureintro
        exact ⟨(h _ (mem_uc main_arg0 (by decide))).trans (last_arg m c X main_arg0 (by decide) (by decide) (by decide) (by decide) (by decide) (by decide)),
          (h _ (mem_uc main_arg1 (by decide))).trans (last_arg m c X main_arg1 (by decide) (by decide) (by decide) (by decide) (by decide) (by decide)),
          (h _ (mem_uc main_arg2 (by decide))).trans (last_arg m c X main_arg2 (by decide) (by decide) (by decide) (by decide) (by decide) (by decide)),
          (h _ (mem_uc main_arg3 (by decide))).trans (last_arg m c X main_arg3 (by decide) (by decide) (by decide) (by decide) (by decide) (by decide)),
          (h _ (mem_uc main_arg4 (by decide))).trans (last_arg m c X main_arg4 (by decide) (by decide) (by decide) (by decide) (by decide) (by decide)),
          (h _ (mem_uc main_arg5 (by decide))).trans (last_arg m c X main_arg5 (by decide) (by decide) (by decide) (by decide) (by decide) (by decide)),
          (h _ (mem_uc main_arg6 (by decide))).trans (last_arg m c X main_arg6 (by decide) (by decide) (by decide) (by decide) (by decide) (by decide)),
          (h _ (mem_uc main_arg7 (by decide))).trans (last_arg m c X main_arg7 (by decide) (by decide) (by decide) (by decide) (by decide) (by decide)),
          (h _ (mem_uc main_arg8 (by decide))).trans (last_arg m c X main_arg8 (by decide) (by decide) (by decide) (by decide) (by decide) (by decide)),
          (h _ (mem_uc main_arg9 (by decide))).trans (last_arg m c X main_arg9 (by decide) (by decide) (by decide) (by decide) (by decide) (by decide)),
          (h _ (mem_uc main_arg10 (by decide))).trans (last_arg m c X main_arg10 (by decide) (by decide) (by decide) (by decide) (by decide) (by decide)),
          (h _ (mem_uc main_arg11 (by decide))).trans (last_arg m c X main_arg11 (by decide) (by decide) (by decide) (by decide) (by decide) (by decide))⟩
      · iexact HSI) (hQ := fun _ h => h)

end Cert.Kernel.Hand.Forget

end
-- ==== Proof.KI.Reg0.lean ====
/- The region half of the frame proof for pallas_call 0 (`cc0_attn_kernel`, one grid point, seven windows: five
   inputs and two outputs, each window the whole of its array), stated at a parameter `V`: the TensorCore's buffer
   contents when the region is entered. Each window's block at a point, what the body leaves in each output
   window's staging buffer as a function of the input blocks, the body's triple, the pipeline's proof data, and
   the body obligation at every point. -/
import proofs.«425490_j31568009626350_3_alg».proof.Proof.Gen.KernelIdeal.Launch
import proofs.«425490_j31568009626350_3_alg».proof.Proof.Gen.KernelIdeal.Skeleton
import proofs.«425490_j31568009626350_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of a thousand coordinates recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s (`hA`) and whose body leaves the block in place (`hafter`): an unfetched window's
    block index has not moved; the window is uncut and never idle. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S1x1024 := Rect.unit (s := S1x1024) ![0, 0] S1x1024.size inb_S1x1024_S1x1024_0_0
abbrev r0_1 : Rect S512x1024 := Rect.unit (s := S512x1024) ![0, 0] S512x1024.size inb_S512x1024_S512x1024_0_0
abbrev r0_2 : Rect S1024x2048 := Rect.unit (s := S1024x2048) ![0, 0] S1024x2048.size inb_S1024x2048_S1024x2048_0_0
abbrev r0_3 : Rect S1x512 := Rect.unit (s := S1x512) ![0, 0] S1x512.size inb_S1x512_S1x512_0_0

/-! ## What the body leaves in each output window's buffer -/

/-- Window 5's staging buffer after the body, from the input windows' blocks: its one store as a piece. -/
def out0_5 (x0 : Vec F S1x1024 .f32) (x1 : Vec F S512x1024 .f32) (x2 : Vec F S1x1024 .f32) (x3 : Vec F S1024x2048 .f32) (x4 : Vec F S1x1024 .f32) : Vec F S1x1024 .f32 :=
  View.canon [⟨r0_0, k0_pay3 (View.ld x0 r0_0) (View.ld x1 r0_1) (View.ld x2 r0_0) (View.ld x3 r0_2) (View.ld x4 r0_0)⟩]

/-- The one store tiles the buffer, so it covers it. -/
theorem cover0_5 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 6's staging buffer after the body, from the input windows' blocks: its one store as a piece. -/
def out0_6 (x0 : Vec F S1x1024 .f32) (x1 : Vec F S512x1024 .f32) : Vec F S1x512 .f32 :=
  View.canon [⟨r0_3, k0_pay2 (View.ld x0 r0_0) (View.ld x1 r0_1)⟩]

/-- The one store tiles the buffer, so it covers it. -/
theorem cover0_6 (p0 : Vec F S1x512 .f32) (y : S1x512.Idx) :
    ∃ pc ∈ ([⟨r0_3, p0⟩] : List (View.Piece (Elt F) S1x512 .f32)), y ∈ pc.1.set :=
  View.cover_of_tiled [⟨r0_3, p0⟩] S1x512.size (by rfl) y

/-! ## The body's triple -/

set_option maxHeartbeats 4000000 in
/-- The kernel body on whole staging memrefs, the inputs' at read contents `xW` and the outputs' at anything, runs to
    the continuation holding the inputs' as they were and each output's at `out0_W` of the inputs'. The body also
    reads each output buffer once before it stores to it; what it reads there is not used. -/
theorem sound_kernel0 (c : Dev nD) (E : Set ℕ) (i : grid0.Coords)
    (arg1 : Memref sig .tc .vmem S1x1024 .f32) (harg1 : arg1.IsWhole) (arg2 : Memref sig .tc .vmem S512x1024 .f32) (harg2 : arg2.IsWhole)
    (arg3 : Memref sig .tc .vmem S1x1024 .f32) (harg3 : arg3.IsWhole) (arg4 : Memref sig .tc .vmem S1024x2048 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x512 .f32) (harg7 : arg7.IsWhole)
    (x0 : Vec F S1x1024 .f32) (x1 : Vec F S512x1024 .f32) (x2 : Vec F S1x1024 .f32) (x3 : Vec F S1024x2048 .f32) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1)) -∗ K ⟨⟩))
      ⊢ wp frame (wpE (defs₀ (F := F)) Variants.none c none) E (cc0_attn_kernel i arg1 harg1 arg2 harg2 arg3 harg3 arg4 harg4 arg5 harg5 arg6 harg6 arg7 harg7) K := by
  simp only [cc0_attn_kernel_eq_skeleton]; unfold cc0_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- The region half of the frame proof for pallas_call 1 (the gate kernel, grid of 3 points), stated at a parameter
   `V` — the TensorCore's buffer contents when the region is entered. Per window its block at a point; per output
   window what the body's one store leaves in the staging buffer, as a function of the input blocks; the body's
   triple; the pipeline's proof data; and the body obligation at every point. -/
import proofs.«425490_j31568009626350_3_alg».proof.Proof.Gen.KernelIdeal.Launch
import proofs.«425490_j31568009626350_3_alg».proof.Proof.Gen.KernelIdeal.Skeleton
import proofs.«425490_j31568009626350_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for any proof
    data whose array is `V`'s and whose body leaves the block in place: where the window is not fetched its block
    index has not moved, so the block of the point before is this point's. The two resident windows (0 and 1) are
    fetched at the first point only; the four streamed ones (2 to 5) at every point; one statement covers both. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a row buffer of 1024 lanes, and the whole of a square weight block. -/
abbrev r1_0 : Rect S1x1024 := Rect.unit (s := S1x1024) ![0, 0] S1x1024.size inb_S1x1024_S1x1024_0_0
abbrev r1_1 : Rect S1024x1024 := Rect.unit (s := S1024x1024) ![0, 0] S1024x1024.size inb_S1024x1024_S1024x1024_0_0

/-! ## What the body leaves in each output window's buffer -/

/-- Window 6's staging buffer after the body, from the input windows' blocks: its one store, of the input-gate
    payload (the activation row against the input-weight block, plus the input-bias block). -/
def out1_6 (x0 : Vec F S1x1024 .f32) (x1 : Vec F S1x1024 .f32) (x2 : Vec F S1024x1024 .f32) (x3 : Vec F S1024x1024 .f32) (x4 : Vec F S1x1024 .f32) (x5 : Vec F S1x1024 .f32) : Vec F S1x1024 .f32 :=
  View.canon [⟨r1_0, k1_pay1 (View.ld x0 r1_0) (View.ld x2 r1_1) (View.ld x4 r1_0)⟩]

/-- Its store is of the whole buffer, so it covers it. -/
theorem cover1_6 (p0 : Vec F S1x1024 .f32) (y : S1x1024.Idx) :
    ∃ pc ∈ ([⟨r1_0, p0⟩] : List (View.Piece (Elt F) S1x1024 .f32)), y ∈ pc.1.set :=
  View.cover_of_tiled [⟨r1_0, p0⟩] S1x1024.size (by rfl) y

/-- Window 7's staging buffer after the body: its one store, of the hidden-gate payload (the hidden row against the
    hidden-weight block, plus the hidden-bias block). -/
def out1_7 (x0 : Vec F S1x1024 .f32) (x1 : Vec F S1x1024 .f32) (x2 : Vec F S1024x1024 .f32) (x3 : Vec F S1024x1024 .f32) (x4 : Vec F S1x1024 .f32) (x5 : Vec F S1x1024 .f32) : Vec F S1x1024 .f32 :=
  View.canon [⟨r1_0, k1_pay2 (View.ld x1 r1_0) (View.ld x3 r1_1) (View.ld x5 r1_0)⟩]

/-- Its store is of the whole buffer, so it covers it. -/
theorem cover1_7 (p0 : Vec F S1x1024 .f32) (y : S1x1024.Idx) :
    ∃ pc ∈ ([⟨r1_0, p0⟩] : List (View.Piece (Elt F) S1x1024 .f32)), y ∈ pc.1.set :=
  View.cover_of_tiled [⟨r1_0, p0⟩] S1x1024.size (by rfl) y

/-! ## The body's triple -/

set_option maxHeartbeats 1000000 in
/-- The kernel body on whole staging memrefs, the six inputs' at read contents `x0 … x5` and the two outputs' at
    anything, runs to the continuation holding the inputs' as they were and each output's at `out1_6`, `out1_7` of
    the inputs': the body is its sequence of loads and stores over the named payloads; each output buffer is read
    once before it is stored to, and that value is used nowhere. -/
theorem sound_kernel1 (c : Dev nD) (E : Set ℕ) (i : grid1.Coords)
    (arg1 : Memref sig .tc .vmem S1x1024 .f32) (harg1 : arg1.IsWhole) (arg2 : Memref sig .tc .vmem S1x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (x0 : Vec F S1x1024 .f32) (x1 : Vec F S1x1024 .f32) (x2 : Vec F S1024x1024 .f32) (x3 : Vec F S1024x1024 .f32) (x4 : Vec F S1x1024 .f32) (x5 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1_gate_kernel i arg1 harg1 arg2 harg2 arg3 harg3 arg4 harg4 arg5 harg5 arg6 harg6 arg7 harg7 arg8 harg8) K := by
  simp only [cc1_gate_kernel_eq_skeleton]; unfold cc1_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and each output's at `out1_6`, `out1_7` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's match reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's owed counters pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Fold.lean ====
/-
  The buffer contents between the items of @main, as far as they are determined whatever the float instance:
  the launch contents, the first host stretch, then what the first two kernel regions leave in their arrays
  (each output array at the fold of its write-backs, every other buffer untouched), then the second host stretch.
  Stated as the valuations the conditional frame is written over, with the regions' outputs named.
-/
import proofs.«425490_j31568009626350_3_alg».proof.Proof.Gen.KernelIdeal.Regions
import proofs.«425490_j31568009626350_3_alg».proof.Proof.KI.Reg0
import proofs.«425490_j31568009626350_3_alg».proof.Proof.KI.Reg1
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- A valuation read at the TensorCore's references: what a region's proof data take. -/
abbrev tcOf (W : Dev nD → Valuation τ sig (Elt F)) : (c : Dev nD) → (b : Ref sig .tc) → Buf (Elt F) ((c : Thread nD τ).loc b) :=
  fun c b => W c b

/-! ## After region 0 -/

/-- What region 0 leaves in a buffer: its arrays at the fold of their write-backs, any other buffer as entered. -/
def o2 (r : Ref sig .tc) (c : Dev nD) : Buf (Elt F) ((c : Thread nD τ).loc r) :=
  Pipeline.withArrays spec0 c (V1 m c) (fun w => (dat0 (tcOf (V1 m)) c).arrAt w cfg0.N) r

theorem o2_arr (c : Dev nD) (w : Fin cfg0.W) :
    o2 m (Pipeline.arrRef spec0 w) c = (dat0 (tcOf (V1 m)) c).arrAt w cfg0.N := by
  unfold o2; exact Pipeline.withArrays_arr spec0 launch0.win.arr_inj c _ _ w

/-- The contents after region 0: the two output arrays replaced. -/
abbrev W2 (c : Dev nD) : Valuation τ sig (Elt F) :=
  Function.update (Function.update (V1 m c) main_call0_v16_0 (o2 m main_call0_v16_0 c)) main_v0_2 (o2 m main_v0_2 c)

theorem W2_of (c : Dev nD) (r : Ref sig .tc) (h : r ∉ ([main_call0_v16_0, main_v0_2] : List (Ref sig .tc))) :
    W2 m c r = V1 m c r := by
  simp only [W2, Function.update_of_ne (StableHlo.devRef_ne_of_ne (List.ne_of_not_mem_cons h) : (Proc.devRef .tc r : DevRef τ sig) ≠ Proc.devRef .tc main_call0_v16_0), Function.update_of_ne (StableHlo.devRef_ne_of_ne (List.ne_of_not_mem_cons (List.not_mem_of_not_mem_cons h)) : (Proc.devRef .tc r : DevRef τ sig) ≠ Proc.devRef .tc main_v0_2)]

theorem W2_x (c : Dev nD) : W2 m c main_call0_v16_0 = o2 m main_call0_v16_0 c := by
  simp only [W2, Function.update_of_ne (StableHlo.devRef_ne_of_ne (by decide) : (Proc.devRef .tc main_call0_v16_0 : DevRef τ sig) ≠ Proc.devRef .tc main_v0_2), Function.update_self]

theorem W2_aw (c : Dev nD) : W2 m c main_v0_2 = o2 m main_v0_2 c := by
  simp only [W2, Function.update_self]

/-- Region 0's arrays after the region are what the valuation holds: the inputs as entered, the outputs at their
    write-backs' fold. -/
theorem hF0_0 (c : Dev nD) : (dat0 (tcOf (V1 m)) c).arrAt 0 cfg0.N = W2 m c main_call0_v11 := by
  rw [W2_of m c main_call0_v11 (by decide)]
  exact ((dat0 (tcOf (V1 m)) c).arrAt_in 0 rfl _).trans (A_eq0 (tcOf (V1 m)) c 0)

theorem hF0_1 (c : Dev nD) : (dat0 (tcOf (V1 m)) c).arrAt 1 cfg0.N = W2 m c main_call0_v12 := by
  rw [W2_of m c main_call0_v12 (by decide)]
  exact ((dat0 (tcOf (V1 m)) c).arrAt_in 1 rfl _).trans (A_eq0 (tcOf (V1 m)) c 1)

theorem hF0_2 (c : Dev nD) : (dat0 (tcOf (V1 m)) c).arrAt 2 cfg0.N = W2 m c main_call0_v10 := by
  rw [W2_of m c main_call0_v10 (by decide)]
  exact ((dat0 (tcOf (V1 m)) c).arrAt_in 2 rfl _).trans (A_eq0 (tcOf (V1 m)) c 2)

theorem hF0_3 (c : Dev nD) : (dat0 (tcOf (V1 m)) c).arrAt 3 cfg0.N = W2 m c main_arg4 := by
  rw [W2_of m c main_arg4 (by decide)]
  exact ((dat0 (tcOf (V1 m)) c).arrAt_in 3 rfl _).trans (A_eq0 (tcOf (V1 m)) c 3)

theorem hF0_4 (c : Dev nD) : (dat0 (tcOf (V1 m)) c).arrAt 4 cfg0.N = W2 m c main_call0_v13 := by
  rw [W2_of m c main_call0_v13 (by decide)]
  exact ((dat0 (tcOf (V1 m)) c).arrAt_in 4 rfl _).trans (A_eq0 (tcOf (V1 m)) c 4)

theorem hF0_5 (c : Dev nD) : (dat0 (tcOf (V1 m)) c).arrAt 5 cfg0.N = W2 m c main_call0_v16_0 := by
  rw [W2_x]; exact (o2_arr m c 5).symm

theorem hF0_6 (c : Dev nD) : (dat0 (tcOf (V1 m)) c).arrAt 6 cfg0.N = W2 m c main_v0_2 := by
  rw [W2_aw]; exact (o2_arr m c 6).symm

theorem hF0 (c : Dev nD) (w : Fin cfg0.W) :
    (dat0 (tcOf (V1 m)) c).arrAt w cfg0.N = tcOf (W2 m) c (Pipeline.arrRef spec0 w) := by
  match w with
  | ⟨0, _⟩ => exact hF0_0 m c
  | ⟨1, _⟩ => exact hF0_1 m c
  | ⟨2, _⟩ => exact hF0_2 m c
  | ⟨3, _⟩ => exact hF0_3 m c
  | ⟨4, _⟩ => exact hF0_4 m c
  | ⟨5, _⟩ => exact hF0_5 m c
  | ⟨6, _⟩ => exact hF0_6 m c

theorem hrest0 (c : Dev nD) : ∀ b, b ∉ Finset.univ.image (Pipeline.arrRef spec0) → tcOf (W2 m) c b = tcOf (V1 m) c b :=
  fun b hb => W2_of m c b fun h => hb (by
    rcases List.mem_cons.mp h with rfl | h
    · exact Finset.mem_image.mpr ⟨5, Finset.mem_univ _, rfl⟩
    · rcases List.mem_cons.mp h with rfl | h
      · exact Finset.mem_image.mpr ⟨6, Finset.mem_univ _, rfl⟩
      · exact absurd h (List.not_mem_nil))

/-! ## After region 1 -/

def o3 (r : Ref sig .tc) (c : Dev nD) : Buf (Elt F) ((c : Thread nD τ).loc r) :=
  Pipeline.withArrays spec1 c (W2 m c) (fun w => (dat1 (tcOf (W2 m)) c).arrAt w cfg1.N) r

theorem o3_arr (c : Dev nD) (w : Fin cfg1.W) :
    o3 m (Pipeline.arrRef spec1 w) c = (dat1 (tcOf (W2 m)) c).arrAt w cfg1.N := by
  unfold o3; exact Pipeline.withArrays_arr spec1 launch1.win.arr_inj c _ _ w

abbrev W3 (c : Dev nD) : Valuation τ sig (Elt F) :=
  Function.update (Function.update (W2 m c) main_call0_v17_0 (o3 m main_call0_v17_0 c)) main_call0_v17_1 (o3 m main_call0_v17_1 c)

theorem W3_of (c : Dev nD) (r : Ref sig .tc) (h : r ∉ ([main_call0_v17_0, main_call0_v17_1] : List (Ref sig .tc))) :
    W3 m c r = W2 m c r := by
  simp only [W3, Function.update_of_ne (StableHlo.devRef_ne_of_ne (List.ne_of_not_mem_cons h) : (Proc.devRef .tc r : DevRef τ sig) ≠ Proc.devRef .tc main_call0_v17_0), Function.update_of_ne (StableHlo.devRef_ne_of_ne (List.ne_of_not_mem_cons (List.not_mem_of_not_mem_cons h)) : (Proc.devRef .tc r : DevRef τ sig) ≠ Proc.devRef .tc main_call0_v17_1)]

theorem W3_gi (c : Dev nD) : W3 m c main_call0_v17_0 = o3 m main_call0_v17_0 c := by
  simp only [W3, Function.update_of_ne (StableHlo.devRef_ne_of_ne (by decide) : (Proc.devRef .tc main_call0_v17_0 : DevRef τ sig) ≠ Proc.devRef .tc main_call0_v17_1), Function.update_self]

theorem W3_gh (c : Dev nD) : W3 m c main_call0_v17_1 = o3 m main_call0_v17_1 c := by
  simp only [W3, Function.update_self]

theorem hF1_0 (c : Dev nD) : (dat1 (tcOf (W2 m)) c).arrAt 0 cfg1.N = W3 m c main_call0_v16_0 := by
  rw [W3_of m c main_call0_v16_0 (by decide)]
  exact ((dat1 (tcOf (W2 m)) c).arrAt_in 0 rfl _).trans (A_eq1 (tcOf (W2 m)) c 0)

theorem hF1_1 (c : Dev nD) : (dat1 (tcOf (W2 m)) c).arrAt 1 cfg1.N = W3 m c main_call0_v11 := by
  rw [W3_of m c main_call0_v11 (by decide)]
  exact ((dat1 (tcOf (W2 m)) c).arrAt_in 1 rfl _).trans (A_eq1 (tcOf (W2 m)) c 1)

theorem hF1_2 (c : Dev nD) : (dat1 (tcOf (W2 m)) c).arrAt 2 cfg1.N = W3 m c main_arg6 := by
  rw [W3_of m c main_arg6 (by decide)]
  exact ((dat1 (tcOf (W2 m)) c).arrAt_in 2 rfl _).trans (A_eq1 (tcOf (W2 m)) c 2)

theorem hF1_3 (c : Dev nD) : (dat1 (tcOf (W2 m)) c).arrAt 3 cfg1.N = W3 m c main_arg7 := by
  rw [W3_of m c main_arg7 (by decide)]
  exact ((dat1 (tcOf (W2 m)) c).arrAt_in 3 rfl _).trans (A_eq1 (tcOf (W2 m)) c 3)

theorem hF1_4 (c : Dev nD) : (dat1 (tcOf (W2 m)) c).arrAt 4 cfg1.N = W3 m c main_call0_v14 := by
  rw [W3_of m c main_call0_v14 (by decide)]
  exact ((dat1 (tcOf (W2 m)) c).arrAt_in 4 rfl _).trans (A_eq1 (tcOf (W2 m)) c 4)

theorem hF1_5 (c : Dev nD) : (dat1 (tcOf (W2 m)) c).arrAt 5 cfg1.N = W3 m c main_call0_v15 := by
  rw [W3_of m c main_call0_v15 (by decide)]
  exact ((dat1 (tcOf (W2 m)) c).arrAt_in 5 rfl _).trans (A_eq1 (tcOf (W2 m)) c 5)

theorem hF1_6 (c : Dev nD) : (dat1 (tcOf (W2 m)) c).arrAt 6 cfg1.N = W3 m c main_call0_v17_0 := by
  rw [W3_gi]; exact (o3_arr m c 6).symm

theorem hF1_7 (c : Dev nD) : (dat1 (tcOf (W2 m)) c).arrAt 7 cfg1.N = W3 m c main_call0_v17_1 := by
  rw [W3_gh]; exact (o3_arr m c 7).symm

theorem hF1 (c : Dev nD) (w : Fin cfg1.W) :
    (dat1 (tcOf (W2 m)) c).arrAt w cfg1.N = tcOf (W3 m) c (Pipeline.arrRef spec1 w) := by
  match w with
  | ⟨0, _⟩ => exact hF1_0 m c
  | ⟨1, _⟩ => exact hF1_1 m c
  | ⟨2, _⟩ => exact hF1_2 m c
  | ⟨3, _⟩ => exact hF1_3 m c
  | ⟨4, _⟩ => exact hF1_4 m c
  | ⟨5, _⟩ => exact hF1_5 m c
  | ⟨6, _⟩ => exact hF1_6 m c
  | ⟨7, _⟩ => exact hF1_7 m c

theorem hrest1 (c : Dev nD) : ∀ b, b ∉ Finset.univ.image (Pipeline.arrRef spec1) → tcOf (W3 m) c b = tcOf (W2 m) c b :=
  fun b hb => W3_of m c b fun h => hb (by
    rcases List.mem_cons.mp h with rfl | h
    · exact Finset.mem_image.mpr ⟨6, Finset.mem_univ _, rfl⟩
    · rcases List.mem_cons.mp h with rfl | h
      · exact Finset.mem_image.mpr ⟨7, Finset.mem_univ _, rfl⟩
      · exact absurd h (List.not_mem_nil))

/-! ## After the second host stretch: what region 2 is entered from -/

abbrev W4 (c : Dev nD) : Valuation τ sig (Elt F) := StableHlo.after hostOps2 (W3 m c)

end Cert.KernelIdeal.Hand

end
-- ==== Proof.KI.Reg2.lean ====
/-
  Region 2 of the decoder step: the output projection. One grid point j of 25 takes the resident row h (1 x 1024),
  the j-th block of 2048 rows of the projection matrix (50257 x 1024) and the j-th block of 2048 lanes of the bias row
  (1 x 50257), and stores, lane v of the block, the contraction of h with row v of the block plus the bias lane where
  j * 2048 + v < 50257, and a large negative constant elsewhere. 50257 = 24 * 2048 + 1105: the last block of each of
  the three moving windows overhangs its array, its transfers are cut to the 1105 rows (lanes) inside the array, and a
  cut fetch first overwrites the whole staging buffer with contents nothing names.

  This module is the region's half of the frame proof, at the buffer contents V the region is entered with: the
  windows' blocks (iblk2), what the body leaves in the result's buffer as a function of the three buffers it reads
  (out2_3), the body's triple over arbitrary buffer contents (sound_kernel2), the proof data (dat2) and the body
  obligation at every point, in two forms. The contraction is a field of the float instance taken on whole operands,
  so that a result lane reads only its own row of the right operand is a property an instance may or may not have
  (RowLocal2): with it the result's buffer is named on the lanes inside the array (body_obligation2); without it the
  result window is forgotten (body_obligation2_forget), which is all the frame of the region needs.
-/
import proofs.«425490_j31568009626350_3_alg».proof.Proof.Gen.KernelIdeal.Launch
import proofs.«425490_j31568009626350_3_alg».proof.Proof.Gen.KernelIdeal.Skeleton
import proofs.«425490_j31568009626350_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it: for the three moving windows the part
    of the block inside the array (all of it at points 0..23, the first 1105 rows or lanes at point 24). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each buffer whole -/

abbrev r2_0 : Rect S1x1024 := Rect.unit (s := S1x1024) ![0, 0] S1x1024.size inb_S1x1024_S1x1024_0_0
abbrev r2_1 : Rect S2048x1024 := Rect.unit (s := S2048x1024) ![0, 0] S2048x1024.size inb_S2048x1024_S2048x1024_0_0
abbrev r2_2 : Rect S1x2048 := Rect.unit (s := S1x2048) ![0, 0] S1x2048.size inb_S1x2048_S1x2048_0_0

/-! ## What the body leaves in the result's buffer -/

/-- The result's staging buffer after the body at grid coordinates i, from what the three input buffers hold: its
    one store, of the whole buffer, of the payload computed from the three whole loads. -/
def out2_3 (i : grid2.Coords) (x0 : Vec F S1x1024 .f32) (x1 : Vec F S2048x1024 .f32) (x2 : Vec F S1x2048 .f32) : Vec F S1x2048 .f32 :=
  View.canon [⟨r2_2, k2_pay1 i (View.ld x0 r2_0) (View.ld x1 r2_1) (View.ld x2 r2_2)⟩]

/-- The one store covers the buffer. -/
theorem cover2_3 (p0 : Vec F S1x2048 .f32) (y : S1x2048.Idx) :
    ∃ pc ∈ ([⟨r2_2, p0⟩] : List (View.Piece (Elt F) S1x2048 .f32)), y ∈ pc.1.set :=
  View.cover_of_tiled [⟨r2_2, p0⟩] S1x2048.size (by rfl) y

/-! ## The body's triple -/

set_option maxHeartbeats 1000000 in
/-- The kernel body on whole staging memrefs, the three inputs' at any contents x0, x1, x2 and the result's at
    anything, runs to the continuation holding the inputs' as they were and the result's at out2_3 of them. -/
theorem sound_kernel2 (c : Dev nD) (E : Set ℕ) (i : grid2.Coords)
    (arg1 : Memref sig .tc .vmem S1x1024 .f32) (harg1 : arg1.IsWhole) (arg2 : Memref sig .tc .vmem S2048x1024 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x1024 .f32) (x1 : Vec F S2048x1024 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out2_3 i x0 x1 x2)) -∗ K ⟨⟩))
      ⊢ wp frame (wpE (defs₀ (F := F)) Variants.none c none) E (cc2_out_matmul_kernel i arg1 harg1 arg2 harg2 arg3 harg3 arg4 harg4) K := by
  simp only [cc2_out_matmul_kernel_eq_skeleton]; unfold cc2_out_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The blocks as the buffers hold them -/

/-- The word that fills out, past the array's end, the contents the proof data names for a cut buffer: nothing reads
    it (every statement about a cut buffer is about its part inside the array). -/
abbrev zfill : Elt F .f32 := Scalar.ofBits .f32 0#32

/-- The matrix block's staging buffer at point t: the rows inside the array, zero words past them. -/
def blk2_1 (c : Dev nD) (t : Fin cfg2.N) : Vec F S2048x1024 .f32 :=
  win2_1.fill (grid2.coords t) (fun _ => zfill) (iblk2 V c 1 t)
/-- The bias block's likewise: the lanes inside the array, zero words past them. -/
def blk2_2 (c : Dev nD) (t : Fin cfg2.N) : Vec F S1x2048 .f32 :=
  win2_2.fill (grid2.coords t) (fun _ => zfill) (iblk2 V c 2 t)

/-! ## The pipeline's proof data -/

/-- The proof data of pipeline 2 on core c: the arrays as the region finds them; after the body at point t the
    resident row's buffer at the row, the two moving inputs' at their blocks filled out with zero words, the result's
    at out2_3 of those three; the invariant the scoped rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => blk2_1 V c t
    | ⟨2, _⟩ => blk2_2 V c t
    | ⟨3, _⟩ => out2_3 (grid2.coords t) (iblk2 V c 0 t) (blk2_1 V c t) (blk2_2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = blk2_1 V c t := by dsimp only [dat2]
theorem after2_2 (c : Dev nD) (t : Fin cfg2.N) : (dat2 V c).after 2 t = blk2_2 V c t := by dsimp only [dat2]
theorem after2_3 (c : Dev nD) (t : Fin cfg2.N) :
    (dat2 V c).after 3 t = out2_3 (grid2.coords t) (iblk2 V c 0 t) (blk2_1 V c t) (blk2_2 V c t) := by dsimp only [dat2]

/-! ## What the body finds -/

/-- The resident row's buffer holds the row at every point, fetched there (point 0) or not: the window is uncut,
    never idle, its block index never moves, and the body leaves the row in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The matrix block's buffer, fetched at every point: the block on the rows inside the array, d past them. -/
theorem before2_1 (c : Dev nD) (t : Fin cfg2.N) (d) :
    (dat2 V c).before 1 t d = win2_1.fill (grid2.coords t) d (iblk2 V c 1 t) := by
  rw [(dat2 V c).before_fetched 1 t (fetch2_1 t) d]; rfl
/-- The bias block's likewise. -/
theorem before2_2 (c : Dev nD) (t : Fin cfg2.N) (d) :
    (dat2 V c).before 2 t d = win2_2.fill (grid2.coords t) d (iblk2 V c 2 t) := by
  rw [(dat2 V c).before_fetched 2 t (fetch2_2 t) d]; rfl

/-! ## Row-locality of the contraction -/

/-- The contraction of this kernel — a row of 1024 against the 2048 rows of a block, onto an accumulator — read at
    result lane y depends on the right operand through its row y only. The float instance's contraction is a
    function of the whole operands, so this is a property of an instance: the exact one has it (the lane is the
    accumulator plus the sum of the products along the row); one that pins the matrix unit's bits need not. -/
def RowLocal2 (F : FTy → Type) [FloatOps F] : Prop :=
  ∀ (l : FVec F S1x1024 .bf16) (r r' : FVec F S2048x1024 .bf16) (acc : FVec F S1x2048 .f32) (y : S1x2048.Idx),
    (∀ k : S2048x1024.Idx, (k 0).val = (y 1).val → r k = r' k) →
      matmul dot_S1x1024_S2048x1024_S1x2048_1_1_0_0_n_n none l r acc y
        = matmul dot_S1x1024_S2048x1024_S1x2048_1_1_0_0_n_n none l r' acc y

/-- The payload at lane y reads the matrix block through row y and the bias block at lane y only: the rounding of
    the block and the select are lane-wise, the bias is added lane-wise, and the contraction is row-local. -/
theorem k2_pay1_congr (hloc : RowLocal2 F) (i : grid2.Coords) (v0 : Vec F S1x1024 .f32) (v3 v3' : Vec F S2048x1024 .f32)
    (v12 v12' : Vec F S1x2048 .f32) (y : S1x2048.Idx)
    (h3 : ∀ k : S2048x1024.Idx, (k 0).val = (y 1).val → v3 k = v3' k) (h12 : v12 y = v12' y) :
    k2_pay1 i v0 v3 v12 y = k2_pay1 i v0 v3' v12' y := by
  unfold k2_pay1
  dsimp only
  have hm := hloc (truncf FTy.bf16 (shapeCast S1x1024 v0 shapeCasts_S1x1024_S1x1024) bitsLt_bf16_f32)
    (truncf FTy.bf16 v3 bitsLt_bf16_f32) (truncf FTy.bf16 v3' bitsLt_bf16_f32) (constant S1x2048 FTy.f32 0x00000000#32) y
    (fun k hk => by unfold truncf; rw [h3 k hk])
  have hs : shapeCast S1x2048 v12 shapeCasts_S1x2048_S1x2048 y = shapeCast S1x2048 v12' shapeCasts_S1x2048_S1x2048 y := by
    rw [shapeCast_self, shapeCast_self]; exact h12
  rw [ValueIdx.select_apply, ValueIdx.select_apply]
  unfold addf
  rw [hm, hs]

/-- So does what the body leaves in the result's buffer: its one store is of the whole buffer, the three loads of
    the whole buffers. -/
theorem out2_3_congr (hloc : RowLocal2 F) (i : grid2.Coords) (x0 : Vec F S1x1024 .f32) (x1 x1' : Vec F S2048x1024 .f32)
    (x2 x2' : Vec F S1x2048 .f32) (y : S1x2048.Idx)
    (h1 : ∀ k : S2048x1024.Idx, (k 0).val = (y 1).val → x1 k = x1' k) (h2 : x2 y = x2' y) :
    out2_3 i x0 x1 x2 y = out2_3 i x0 x1' x2' y := by
  have hz : (![0, 0] : Fin 2 → Nat) = fun _ => 0 := funext fun a => by fin_cases a <;> rfl
  unfold out2_3
  rw [View.canon_unit_zero hz, View.canon_unit_zero hz]
  simp only [View.ld_unit_zero (S := S1x1024) hz, View.ld_unit_zero (S := S2048x1024) hz, View.ld_unit_zero (S := S1x2048) hz]
  exact k2_pay1_congr hloc i x0 x1 x1' x2 x2' y h1 h2

/-! ## The result's buffer on the lanes inside the array -/

/-- Two fillings of one block with the same leading part agree wherever the transfer moves. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- On the lanes inside the array, what the body leaves in the result's buffer does not depend on what fills out the
    matrix block's and the bias block's buffers past the array's end: lane v inside the array reads row v of the
    matrix block, which is inside the array too (the two windows are cut alike: block j's rows are the result's block
    j's lanes), all 1024 of its columns, and bias lane v. -/
theorem cut_out2_3 (hloc : RowLocal2 F) (i : grid2.Coords) (x0 : Vec F S1x1024 .f32)
    (d1 d1' : Vec F S2048x1024 .f32) (b1 : (win2_1.xblock i).Idx → Elt F .f32)
    (d2 d2' : Vec F S1x2048 .f32) (b2 : (win2_2.xblock i).Idx → Elt F .f32) :
    win2_3.cut i (out2_3 i x0 (win2_1.fill i d1 b1) (win2_2.fill i d2 b2))
      = win2_3.cut i (out2_3 i x0 (win2_1.fill i d1' b1) (win2_2.fill i d2' b2)) := by
  funext j
  show out2_3 i x0 _ _ (win2_3.xinj i j) = out2_3 i x0 _ _ (win2_3.xinj i j)
  refine out2_3_congr hloc i x0 _ _ _ _ (win2_3.xinj i j) (fun k hk => ?_) ?_
  · refine fill_eq_of_moved win2_1 i d1 d1' b1 ((win2_1.moved_iff i k).mpr fun a => ?_)
    match a with
    | ⟨0, _⟩ =>
      have h : (k 0).val < win2_1.xsize i 0 := by rw [hk]; exact (j 1).isLt
      exact h
    | ⟨1, _⟩ =>
      have h : (k 1).val < win2_1.xsize i 1 := (k 1).isLt
      exact h
  · refine fill_eq_of_moved win2_2 i d2 d2' b2 ((win2_2.moved_iff i _).mpr fun a => ?_)
    exact (j a).isLt

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the resident row's buffer at the row; each cut window's buffer stated on its part inside
    the array, anything past it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t))))
    ∗ (∃ d, owns (c : Thread nD τ) (st2_3 t) fullShare (win2_3.fill (grid2.coords t) d (win2_3.cut (grid2.coords t) ((dat2 V c).after 3 t)))))

/-- The body at any point, for an instance whose contraction is row-local: the inputs' buffers hold their blocks,
    the two cut ones filled out with contents nothing names, so the triple applies at those contents; the inputs'
    buffers come back as they were, which on the part inside the array is what the proof data names; the result's
    comes back at out2_3 of those contents, which on the lanes inside the array is out2_3 of the named ones. -/
theorem sound_body2 (hloc : RowLocal2 F) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; unfold blk2_1; rw [Window.cut_fill]; iexact H1
  isplitl [H2]
  · iexists d2; unfold blk2_2; rw [Window.cut_fill]; iexact H2
  · iexists out2_3 (grid2.coords t) (iblk2 V c 0 t) (win2_1.fill (grid2.coords t) d1 (iblk2 V c 1 t)) (win2_2.fill (grid2.coords t) d2 (iblk2 V c 2 t))
    unfold blk2_1 blk2_2
    have e := Window.fill_congr_cut win2_3 (grid2.coords t) (cut_out2_3 hloc (grid2.coords t) (iblk2 V c 0 t) d1 (fun _ => zfill) (iblk2 V c 1 t) d2 (fun _ => zfill) (iblk2 V c 2 t))
    change _ ⊢ owns (c : Thread nD τ) (st2_3 t) fullShare (win2_3.fill (grid2.coords t)
      (out2_3 (grid2.coords t) (iblk2 V c 0 t) (win2_1.fill (grid2.coords t) d1 (iblk2 V c 1 t)) (win2_2.fill (grid2.coords t) d2 (iblk2 V c 2 t)))
      (win2_3.cut (grid2.coords t)
        (out2_3 (grid2.coords t) (iblk2 V c 0 t) (win2_1.fill (grid2.coords t) (fun _ => zfill) (iblk2 V c 1 t)) (win2_2.fill (grid2.coords t) (fun _ => zfill) (iblk2 V c 2 t)))))
    exact Entails.of_eq (congrArg (owns (c : Thread nD τ) (st2_3 t) fullShare) e.symm)

/-- The library's body obligation, at every point, with the result's buffer named on the lanes inside the array. -/
theorem body_obligation2 (hloc : RowLocal2 F) (c : Dev nD) :
    BodyObligationLoose (dat2 (F := F) V c) (defs₀ (F := F)) Variants.none () Set.univ := fun t => by
  rw [bigSep_W2, bigSep_W2]
  exact sound_body2 V hloc c t

/-! ## The same with the result window forgotten, for any instance -/

/-- The result window, forgotten: what the body leaves in its buffer is stated nowhere. -/
def forgets2 : Fin cfg2.W → Bool := fun w => w.val == 3

/-- What the body is called with at point t when the result window is forgotten: its buffer at any contents, -/
def bodyPre2F (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ X, owns (c : Thread nD τ) (st2_3 t) fullShare X))

/-- and what it returns: the result's buffer at any contents again. -/
def bodyPost2F (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t))))
    ∗ (∃ X, owns (c : Thread nD τ) (st2_3 t) fullShare X))

/-- The body at any point, for any instance: as above, with nothing to show of the result's buffer. -/
theorem sound_body2F (c : Dev nD) (t : Fin cfg2.N) :
    bodyPre2F V c t ⊢ wp frame (wpE (defs₀ (F := F)) Variants.none c none) Set.univ (bodyAt2 t) (fun _ => bodyPost2F V c t) := by
  unfold bodyPre2F bodyPost2F bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; unfold blk2_1; rw [Window.cut_fill]; iexact H1
  isplitl [H2]
  · iexists d2; unfold blk2_2; rw [Window.cut_fill]; iexact H2
  · iexists _; iexact H3

/-- The library's body obligation with the result window forgotten, at every point, for any instance. -/
theorem body_obligation2_forget (c : Dev nD) :
    BodyObligationLoose (dat2 (F := F) V c) (defs₀ (F := F)) Variants.none () Set.univ forgets2 := fun t => by
  rw [bigSep_W2, bigSep_W2]
  exact sound_body2F V c t

end Cert.KernelIdeal.Hand

end
-- ==== Proof.KI.RunForget.lean ====
/-
  The frame of @main through relational proof data that forget the last kernel region's result window: every
  weakly fair execution terminates, nothing faults, and every argument array ends as launched. The first two
  regions are taken at their exact proof data read relationally; the third at its exact data with the result
  window forgotten, so that what it leaves in its result array is some contents, named nowhere; the last host
  stretch runs over those unknown contents, and the arguments are read off the last valuation, which no item writes.
-/
import proofs.«425490_j31568009626350_3_alg».proof.Proof.KI.Fold
import proofs.«425490_j31568009626350_3_alg».proof.Proof.KI.Reg2
import Idealize.ShloMosaic.Lib.Pipeline.Kit

set_option maxRecDepth 16384

noncomputable section

namespace Cert.KernelIdeal.Hand.Forget

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's relational proof data, each from the exact data at its region's entry contents: the first two
    read as they are, the third with its result window forgotten. -/
def rdats : (p : Fin 3) → (c : Dev nD) → RDat τ (Elt F) Unit ℕ (UR sig nD τ) ℕ (Pipeline.pin (pcfgs (F := F)) adm p) c
  | ⟨0, _⟩ => fun c => (dat0 (tcOf (V1 m)) c).toR
  | ⟨1, _⟩ => fun c => (dat1 (tcOf (W2 m)) c).toR
  | ⟨2, _⟩ => fun c => (dat2 (tcOf (W4 m)) c).toRForget forgets2

/-- The exact data the relational family is read from. -/
def pdats : (p : Fin 3) → (c : Dev nD) → Dat τ (Elt F) Unit ℕ (UR sig nD τ) ℕ (Pipeline.pin (pcfgs (F := F)) adm p) c
  | ⟨0, _⟩ => fun c => dat0 (tcOf (V1 m)) c
  | ⟨1, _⟩ => fun c => dat1 (tcOf (W2 m)) c
  | ⟨2, _⟩ => fun c => dat2 (tcOf (W4 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- The contents after region 2: its result array at some contents X. -/
abbrev W5 (c : Dev nD) (X : Buf (Elt F) ((c : Thread nD τ).loc main_call0_v47)) : Valuation τ sig (Elt F) :=
  Function.update (W4 m c) main_call0_v47 X

/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## Region 2's arrays at its exit, for a result X -/

/-- Region 2's arrays when it is left: the three inputs as entered, the result at X. -/
def exit2 (c : Dev nD) (X : Buf (Elt F) ((c : Thread nD τ).loc main_call0_v47)) :
    (w : Fin cfg2.W) → Buf (Elt F) ((cfg2.win w).arr.view.loc (c.tc : Thread nD τ))
  | ⟨0, _⟩ => tcOf (W4 m) c (Pipeline.arrRef spec2 0)
  | ⟨1, _⟩ => tcOf (W4 m) c (Pipeline.arrRef spec2 1)
  | ⟨2, _⟩ => tcOf (W4 m) c (Pipeline.arrRef spec2 2)
  | ⟨3, _⟩ => X

/-- They are what the valuation with the result replaced holds at them, -/
theorem hF2 (c : Dev nD) (X : Buf (Elt F) ((c : Thread nD τ).loc main_call0_v47)) (w : Fin cfg2.W) :
    exit2 m c X w = W5 m c X (Pipeline.arrRef spec2 w) := by
  match w with
  | ⟨0, _⟩ =>
    show W4 m c (Proc.devRef .tc (Pipeline.arrRef spec2 0)) = Function.update (W4 m c) (Proc.devRef .tc main_call0_v47) X (Proc.devRef .tc (Pipeline.arrRef spec2 0))
    exact (Function.update_of_ne (StableHlo.devRef_ne_of_ne (by decide)) _ _).symm
  | ⟨1, _⟩ =>
    show W4 m c (Proc.devRef .tc (Pipeline.arrRef spec2 1)) = Function.update (W4 m c) (Proc.devRef .tc main_call0_v47) X (Proc.devRef .tc (Pipeline.arrRef spec2 1))
    exact (Function.update_of_ne (StableHlo.devRef_ne_of_ne (by decide)) _ _).symm
  | ⟨2, _⟩ =>
    show W4 m c (Proc.devRef .tc (Pipeline.arrRef spec2 2)) = Function.update (W4 m c) (Proc.devRef .tc main_call0_v47) X (Proc.devRef .tc (Pipeline.arrRef spec2 2))
    exact (Function.update_of_ne (StableHlo.devRef_ne_of_ne (by decide)) _ _).symm
  | ⟨3, _⟩ =>
    show X = Function.update (W4 m c) (Proc.devRef .tc main_call0_v47) X (Proc.devRef .tc main_call0_v47)
    exact (Function.update_self (β := fun b : DevRef τ sig => b.ty.Contents (Elt F)) (Proc.devRef .tc main_call0_v47) X (W4 m c)).symm

/-- and every buffer that is none of them is as the region found it. -/
theorem hrest2 (c : Dev nD) (X : Buf (Elt F) ((c : Thread nD τ).loc main_call0_v47)) :
    ∀ b, b ∉ Finset.univ.image (Pipeline.arrRef spec2) → W5 m c X b = tcOf (W4 m) c b := by
  intro b hb
  have hne : (Proc.devRef .tc b : DevRef τ sig) ≠ Proc.devRef .tc main_call0_v47 :=
    StableHlo.devRef_ne_of_ne fun e => hb (Finset.mem_image.mpr ⟨(3 : Fin cfg2.W), Finset.mem_univ _, e.symm⟩)
  exact Function.update_of_ne hne _ _

/-! ## The regions as segments -/

set_option backward.isDefEq.respectTransparency.types false in
/-- REGION 0 over the thread state: entered from every unscoped buffer at the contents after the first host stretch,
    left at those contents with its two output arrays at the fold of their write-backs. Its arrays are split out of
    the unscoped buffers at entry and put back at exit, where the relational "some contents they may hold" is the
    exact data's named contents; the generator register goes into the invariant and comes out; nothing is owed. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tcOf (V1 m)) c).toR
  hwaits := Pipeline.RDat.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (tcOf (V1 m) c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (tcOf (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcOf (V1 m) c) (tcOf (W2 m) c) ((pdats m 0 c).arrAt · cfg0.N) (hF0 m c) (hrest0 m c)
    rw [Pipeline.unscopedBufs_held] at hjoin
    rw [show (rdats m 0 c).arraysAt (Pipeline.pin (pcfgs (F := F)) adm 0).N = (pdats m 0 c).arrays ((pdats m 0 c).arrAt · cfg0.N)
      from (dat0 (tcOf (V1 m)) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- REGION 1 over the thread state, in the same way: entered from the contents region 0 leaves, left at those with
    its two output arrays at the fold of their write-backs. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcOf (W2 m)) c).toR
  hwaits := Pipeline.RDat.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (tcOf (W2 m) c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (tcOf (W2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcOf (W2 m) c) (tcOf (W3 m) c) ((pdats m 1 c).arrAt · cfg1.N) (hF1 m c) (hrest1 m c)
    rw [Pipeline.unscopedBufs_held] at hjoin
    rw [show (rdats m 1 c).arraysAt (Pipeline.pin (pcfgs (F := F)) adm 1).N = (pdats m 1 c).arrays ((pdats m 1 c).arrAt · cfg1.N)
      from (dat1 (tcOf (W2 m)) c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Input window 0's array is never written: whatever it may hold after any number of write-backs is what the
    region found in it. -/
theorem in2_0 (c : Dev nD) (n : ℕ) (G : Buf (Elt F) ((cfg2.win 0).arr.view.loc (c.tc : Thread nD τ)))
    (h : (rdats m 2 c).ArrAt 0 n G) : G = tcOf (W4 m) c (Pipeline.arrRef spec2 0) :=
  ((congrFun ((rdats m 2 c).ArrAt_in 0 rfl n) G).mp h).trans (A_eq2 (tcOf (W4 m)) c 0)

set_option backward.isDefEq.respectTransparency.types false in
/-- Input window 1's array is never written: whatever it may hold after any number of write-backs is what the
    region found in it. -/
theorem in2_1 (c : Dev nD) (n : ℕ) (G : Buf (Elt F) ((cfg2.win 1).arr.view.loc (c.tc : Thread nD τ)))
    (h : (rdats m 2 c).ArrAt 1 n G) : G = tcOf (W4 m) c (Pipeline.arrRef spec2 1) :=
  ((congrFun ((rdats m 2 c).ArrAt_in 1 rfl n) G).mp h).trans (A_eq2 (tcOf (W4 m)) c 1)

set_option backward.isDefEq.respectTransparency.types false in
/-- Input window 2's array is never written: whatever it may hold after any number of write-backs is what the
    region found in it. -/
theorem in2_2 (c : Dev nD) (n : ℕ) (G : Buf (Elt F) ((cfg2.win 2).arr.view.loc (c.tc : Thread nD τ)))
    (h : (rdats m 2 c).ArrAt 2 n G) : G = tcOf (W4 m) c (Pipeline.arrRef spec2 2) :=
  ((congrFun ((rdats m 2 c).ArrAt_in 2 rfl n) G).mp h).trans (A_eq2 (tcOf (W4 m)) c 2)

set_option backward.isDefEq.respectTransparency.types false in
/-- Region 2's exit: its arrays at some contents they may hold after every write-back — an input array at its entry
    contents, since it is never written; the result array at some X —, beside the unscoped rest, are every unscoped
    buffer at the entry valuation with the result replaced by X. -/
theorem reg2_exit (c : Dev nD) :
    iprop((rdats m 2 c).arraysAt (Pipeline.pin (pcfgs (F := F)) adm 2).N ∗ (rdats m 2 c).owesAt () (Fin.last (Pipeline.pin (pcfgs (F := F)) adm 2).N)
        ∗ (∃ r, prngReg c r) ∗ Pipeline.unscopedRest (Ix := Unit) (Name := ℕ) (U := UR sig nD τ) (Lvl := ℕ) spec2 c (tcOf (W4 m) c))
      ⊢ (|={Set.univ}=> iprop(∃ X, StableHlo.held (c : Thread nD τ) (Pipeline.ucRefs τ sig) (W5 m c X) ∗ R c) : sProp 𝕄) := by
    have hjoin := fun X => Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcOf (W4 m) c) (fun b => W5 m c X b) (exit2 m c X) (hF2 m c X) (hrest2 m c X)
    simp only [Pipeline.unscopedBufs_held] at hjoin
    unfold Pipeline.RDat.arraysAt
    rw [bigSep_W2]
    iintro ⟨⟨⟨%F0, %h0, H0⟩, ⟨%F1, %h1, H1⟩, ⟨%F2, %h2, H2⟩, ⟨%F3, -, H3⟩⟩, HO, HY, Hrest⟩
    -- an input array is never written: it holds its entry contents
    have e0 := in2_0 m c _ F0 h0
    have e1 := in2_1 m c _ F1 h1
    have e2 := in2_2 m c _ F2 h2
    subst e0 e1 e2
    imodintro
    iexists F3
    isplitl [H0 H1 H2 H3 Hrest]
    · iapply (hjoin F3)
      isplitr [Hrest]
      · unfold Pipeline.Dat.arrays
        rw [bigSep_W2]
        isplitl [H0]; · iexact H0
        isplitl [H1]; · iexact H1
        isplitl [H2]; · iexact H2
        iexact H3
      iexact Hrest
    isplitl [HY]; · iexact HY
    unfold Pipeline.RDat.owesAt Pipeline.owesWithin
    icases HO with ⟨%W, -, HO⟩; iexists W; iexact HO

set_option backward.isDefEq.respectTransparency.types false in
/-- REGION 2 over the thread state, its result window forgotten: entered from the contents after the second host
    stretch, left at those contents with the result array at SOME contents X. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2_forget (tcOf (W4 m)) c).toRForget
  hwaits := Pipeline.RDat.hwaits_of_owed_zero _ _ _ _ L lv 2 fun _ _ => rfl
  pre c := iprop(StableHlo.held (c : Thread nD τ) (Pipeline.ucRefs τ sig) (W4 m c) ∗ R c)
  post c := iprop(∃ X, StableHlo.held (c : Thread nD τ) (Pipeline.ucRefs τ sig) (W5 m c X) ∗ R c)
  X c := iprop(∃ r, prngReg c r)
  Y c := iprop(∃ r, prngReg c r)
  Z c := Pipeline.unscopedRest (Ix := Unit) (Name := ℕ) (U := UR sig nD τ) (Lvl := ℕ) spec2 c (tcOf (W4 m) c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (tcOf (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := reg2_exit m c

/-! ## The last host stretch, over the unknown result -/

set_option backward.isDefEq.respectTransparency.types false in
/-- The last host stretch as a segment, entered from the contents region 2 leaves for some result X and left at what
    the stretch's operations make of them, for that X: the straight-line rule at the valuation with X in the result array. -/
def seg5 : HostSeg (Name := ℕ) (U := UR sig nD τ) (pcfgs (F := F)) defs₀ 𝒱₀ L lv where
  prog := StableHlo.seq hostOps3
  pre c := iprop(∃ X, StableHlo.held (c : Thread nD τ) (Pipeline.ucRefs τ sig) (W5 m c X) ∗ R c)
  post c := iprop(∃ X, StableHlo.held (c : Thread nD τ) (Pipeline.ucRefs τ sig) (StableHlo.after hostOps3 (W5 m c X)) ∗ R c)
  run c {β} k K := by
    iintro ⟨Hk, Hbd, ⟨%X, Hh, HR⟩, -⟩
    have hseq := StableHlo.wp_seq (defs := Pipeline.defs (pcfgs (F := F)) defs₀) (Variants.lift 𝒱₀) none Set.univ c (Pipeline.ucRefs τ sig) k (K := K) hostOps3
      (fun op h => Pipeline.sub_ucRefs op ((List.forall_iff_forall_mem.mp hostOps3_sub) op h))
      (fun op h => (List.forall_iff_forall_mem.mp hostOps3_fresh) op h) (W5 m c X)
    iapply hseq $$ [Hbd Hh]
    · isplitl [Hbd] <;> iassumption
    iintro ⟨Hbd, Hh⟩
    iapply Hk
    isplitl [Hbd]; · iexact Hbd
    iexists X
    isplitl [Hh] <;> iassumption

/-! ## @main as segments, and the launch -/

/-- @main's six items in order: a host segment per stretch from its boundary's contents, a region per kernel call. -/
abbrev segs : List (Pipeline.RDat.Seg (pcfgs (F := F)) adm (rdats m) () defs₀ 𝒱₀ L lv) :=
  [ .host (hseg hostOps0 hostOps0_sub hostOps0_fresh (V0 m)),
    .region (reg0 m),
    .region (reg1 m),
    .host (hseg hostOps2 hostOps2_sub hostOps2_fresh (W3 m)),
    .region (reg2 m),
    .host (seg5 m) ]

/-- The last thread state without the dues: every unscoped buffer at the last contents, for some result of region 2,
    the generator register at some state. -/
abbrev Tₙ (c : Dev nD) : sProp 𝕄 :=
  iprop(∃ X, StableHlo.held (c : Thread nD τ) (Pipeline.ucRefs τ sig) (StableHlo.after hostOps3 (W5 m c X)) ∗ ∃ r, prngReg c r)

/-- No item writes an argument: read off the last valuation it is the launch's. -/
theorem last_arg (c : Dev nD) (X : Buf (Elt F) ((c : Thread nD τ).loc main_call0_v47)) (r : Ref sig .tc)
    (h5 : r ∉ hostOps3_W) (h4 : r ≠ main_call0_v47) (h3 : r ∉ hostOps2_W)
    (h2 : r ∉ ([main_call0_v17_0, main_call0_v17_1] : List (Ref sig .tc)))
    (h1 : r ∉ ([main_call0_v16_0, main_v0_2] : List (Ref sig .tc))) (h0 : r ∉ hostOps0_W) :
    StableHlo.after hostOps3 (W5 m c X) (Proc.devRef .tc r) = m ((c : Thread nD τ).loc r) :=
  (StableHlo.after_of_writes_sub hostOps3 _ hostOps3_writes h5).trans <|
    (Function.update_of_ne (StableHlo.devRef_ne_of_ne h4) _ _).trans <|
    (StableHlo.after_of_writes_sub hostOps2 _ hostOps2_writes h3).trans <|
    (W3_of m c r h2).trans <| (W2_of m c r h1).trans <| (V1_of m c r h0).trans rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE FRAME, at any float instance: from any memory with zero counters, every weakly fair execution of @main on the
    TensorCores terminates, nothing faulting, and every final memory holds each argument array as launched. The
    launch over the six segments; the thread states chain as stated (each item is entered from what the one before
    it leaves); the last thread state, for whatever result region 2 left, is read against the final state, and each
    argument's buffer is traced back through the items to the launch memory, none of them writing it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.RDat.θ_run_regions_kit_dev (pcfgs (F := F)) adm (rdats m) () cellOf_inj emb₁ defs₀ 𝒱₀ L lv m ρ main
    (fun _ => segs m)
    (fun c Q => by
      rewrite [main_chain c, Pipeline.RDat.Seg.run_eq_chain,
        show (segs m).map Pipeline.RDat.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, by
      show (seg5 m).post c ⊢ _
      unfold seg5
      iintro ⟨%X, Hh, Hp, HO⟩
      isplitl [Hh Hp]
      · iexists X; isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => by
      unfold Tₙ StableHlo.held
      iintro ⟨⟨%X, Hh, -⟩, HSI⟩
      ihave Hr := (pointsTo_read_all (Pipeline.ucRefs τ sig) (fun b => ((c : Thread nD τ).1, b)) (StableHlo.after hostOps3 (W5 m c X)) s') $$ [Hh HSI]
      · isplitl [Hh] <;> iassumption
      icases Hr with ⟨%h, HSI⟩
      imodintro
      isplitr
      · ipureintro
        exact ⟨(h _ (mem_uc main_arg0 (by decide))).trans (last_arg m c X main_arg0 (by decide) (by decide) (by decide) (by decide) (by decide) (by decide)),
          (h _ (mem_uc main_arg1 (by decide))).trans (last_arg m c X main_arg1 (by decide) (by decide) (by decide) (by decide) (by decide) (by decide)),
          (h _ (mem_uc main_arg2 (by decide))).trans (last_arg m c X main_arg2 (by decide) (by decide) (by decide) (by decide) (by decide) (by decide)),
          (h _ (mem_uc main_arg3 (by decide))).trans (last_arg m c X main_arg3 (by decide) (by decide) (by decide) (by decide) (by decide) (by decide)),
          (h _ (mem_uc main_arg4 (by decide))).trans (last_arg m c X main_arg4 (by decide) (by decide) (by decide) (by decide) (by decide) (by decide)),
          (h _ (mem_uc main_arg5 (by decide))).trans (last_arg m c X main_arg5 (by decide) (by decide) (by decide) (by decide) (by decide) (by decide)),
          (h _ (mem_uc main_arg6 (by decide))).trans (last_arg m c X main_arg6 (by decide) (by decide) (by decide) (by decide) (by decide) (by decide)),
          (h _ (mem_uc main_arg7 (by decide))).trans (last_arg m c X main_arg7 (by decide) (by decide) (by decide) (by decide) (by decide) (by decide)),
          (h _ (mem_uc main_arg8 (by decide))).trans (last_arg m c X main_arg8 (by decide) (by decide) (by decide) (by decide) (by decide) (by decide)),
          (h _ (mem_uc main_arg9 (by decide))).trans (last_arg m c X main_arg9 (by decide) (by decide) (by decide) (by decide) (by decide) (by decide)),
          (h _ (mem_uc main_arg10 (by decide))).trans (last_arg m c X main_arg10 (by decide) (by decide) (by decide) (by decide) (by decide) (by decide)),
          (h _ (mem_uc main_arg11 (by decide))).trans (last_arg m c X main_arg11 (by decide) (by decide) (by decide) (by decide) (by decide) (by decide))⟩
      · iexact HSI) (hQ := fun _ h => h)

end Cert.KernelIdeal.Hand.Forget

end
-- ==== Proof.KI.Run.lean ====
/-
  The whole run of @main with every buffer's contents named: the three kernel regions as segments between the host
  stretches, each entered from every unscoped buffer held at the contents the items before it leave and left with its
  output arrays at the fold of their write-backs. Every weakly fair execution terminates and ends with every
  unscoped buffer at the last valuation. Region 2's output can be named only where a lane of its matrix product
  depends on its own weight row alone: that is the hypothesis `RowLocal2`.
-/
import proofs.«425490_j31568009626350_3_alg».proof.Proof.KI.RunCond
import proofs.«425490_j31568009626350_3_alg».proof.Proof.KI.Fold
import proofs.«425490_j31568009626350_3_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## After region 2 -/

/-- What region 2 leaves in a buffer: its arrays at the fold of their write-backs, any other buffer as entered. -/
def o5 (r : Ref sig .tc) (c : Dev nD) : Buf (Elt F) ((c : Thread nD τ).loc r) :=
  Pipeline.withArrays spec2 c (W4 m c) (fun w => (dat2 (tcOf (W4 m)) c).arrAt w cfg2.N) r

theorem o5_arr (c : Dev nD) (w : Fin cfg2.W) :
    o5 m (Pipeline.arrRef spec2 w) c = (dat2 (tcOf (W4 m)) c).arrAt w cfg2.N := by
  unfold o5; exact Pipeline.withArrays_arr spec2 launch2.win.arr_inj c _ _ w

/-- The contents after region 2: the logits array replaced. -/
abbrev W5 (c : Dev nD) : Valuation τ sig (Elt F) :=
  Function.update (W4 m c) main_call0_v47 (o5 m main_call0_v47 c)

theorem W5_of (c : Dev nD) (r : Ref sig .tc) (h : r ∉ ([main_call0_v47] : List (Ref sig .tc))) : W5 m c r = W4 m c r := by
  simp only [W5, Function.update_of_ne (StableHlo.devRef_ne_of_ne (List.ne_of_not_mem_cons h) : (Proc.devRef .tc r : DevRef τ sig) ≠ Proc.devRef .tc main_call0_v47)]

theorem W5_logits (c : Dev nD) : W5 m c main_call0_v47 = o5 m main_call0_v47 c := by
  simp only [W5, Function.update_self]

theorem hF2_0 (c : Dev nD) : (dat2 (tcOf (W4 m)) c).arrAt 0 cfg2.N = W5 m c main_call0_v45 := by
  rw [W5_of m c main_call0_v45 (by decide)]
  exact ((dat2 (tcOf (W4 m)) c).arrAt_in 0 rfl _).trans (A_eq2 (tcOf (W4 m)) c 0)

theorem hF2_1 (c : Dev nD) : (dat2 (tcOf (W4 m)) c).arrAt 1 cfg2.N = W5 m c main_arg10 := by
  rw [W5_of m c main_arg10 (by decide)]
  exact ((dat2 (tcOf (W4 m)) c).arrAt_in 1 rfl _).trans (A_eq2 (tcOf (W4 m)) c 1)

theorem hF2_2 (c : Dev nD) : (dat2 (tcOf (W4 m)) c).arrAt 2 cfg2.N = W5 m c main_call0_v46 := by
  rw [W5_of m c main_call0_v46 (by decide)]
  exact ((dat2 (tcOf (W4 m)) c).arrAt_in 2 rfl _).trans (A_eq2 (tcOf (W4 m)) c 2)

theorem hF2_3 (c : Dev nD) : (dat2 (tcOf (W4 m)) c).arrAt 3 cfg2.N = W5 m c main_call0_v47 := by
  rw [W5_logits]; exact (o5_arr m c 3).symm

theorem hF2 (c : Dev nD) (w : Fin cfg2.W) :
    (dat2 (tcOf (W4 m)) c).arrAt w cfg2.N = tcOf (W5 m) c (Pipeline.arrRef spec2 w) := by
  match w with
  | ⟨0, _⟩ => exact hF2_0 m c
  | ⟨1, _⟩ => exact hF2_1 m c
  | ⟨2, _⟩ => exact hF2_2 m c
  | ⟨3, _⟩ => exact hF2_3 m c

theorem hrest2 (c : Dev nD) : ∀ b, b ∉ Finset.univ.image (Pipeline.arrRef spec2) → tcOf (W5 m) c b = tcOf (W4 m) c b :=
  fun b hb => W5_of m c b fun h => hb (by
    rcases List.mem_cons.mp h with rfl | h
    · exact Finset.mem_image.mpr ⟨3, Finset.mem_univ _, rfl⟩
    · exact absurd h (List.not_mem_nil))

/-- The contents at the end: after the last host stretch. -/
abbrev W6 (c : Dev nD) : Valuation τ sig (Elt F) := StableHlo.after hostOps3 (W5 m c)

/-! ## The regions' outputs as the conditional frame's unknowns -/

/-- What the regions leave, indexed by the item after which it is read. -/
def outs : Outs (F := F) := fun J r c => match J with
  | 2 => o2 m r c
  | 3 => o3 m r c
  | _ => o5 m r c

theorem V2_eq (c : Dev nD) : V2 m (outs m) c = W2 m c := rfl
theorem V3_eq (c : Dev nD) : V3 m (outs m) c = W3 m c := rfl
theorem V4_eq (c : Dev nD) : V4 m (outs m) c = W4 m c := rfl
theorem V5_eq (c : Dev nD) : V5 m (outs m) c = W5 m c := rfl
theorem V6_eq (c : Dev nD) : V6 m (outs m) c = W6 m c := rfl

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (tcOf (V1 m)) c
  | ⟨1, _⟩ => fun c => dat1 (tcOf (W2 m)) c
  | ⟨2, _⟩ => fun c => dat2 (tcOf (W4 m)) c

abbrev noVar : Variants := Variants.none
/-- No core owes another anything: no level is assigned. -/
abbrev noLev : GSem nD τ sig → Finset Unit := fun _ => ∅
abbrev lev0 : GSem nD τ sig → Unit → ℕ := fun _ _ => 0
/-- Beside the buffers, through every item: the core's generator register at some state, and nothing owed. -/
abbrev rest (c : Dev nD) : sProp 𝕄 := iprop((∃ r, prngReg c r) ∗ ∃ W, owes (c : Thread nD τ) (0 : CellTallies nD τ sig Unit) W)

/-! ## The regions as segments -/

-- `iapply` of a library lemma stated over `pin pcs a p` unifies with the pinned configuration only when unification may
-- unfold plain definitions in a metavariable's type
set_option backward.isDefEq.respectTransparency.types false in
/-- Region 0 over the thread state: entered from every unscoped buffer held at `V1`, left with them at `W2`. Its arrays are
    split out of the unscoped buffers and put back at their final contents; the generator register passes through the
    invariant; nothing is owed; the kernel has no semaphore of its own. -/
def reg0 : Pipeline.RegionSeg (pcfgs (F := F)) adm (pdats m) () defs₀ noVar noLev lev0 0 where
  win := launch0.win.to₀
  block_pos := launch0.block_pos
  stage_whole := launch0.stage_whole
  K := PEmpty
  osem k := k.elim
  ho := Pipeline.OwnSemFacts.none _
  hbody c := (body_obligation0 (tcOf (V1 m)) c).loose
  hwaits := Pipeline.hwaits_of_owed_zero _ _ _ _ noLev lev0 0 fun _ _ => rfl
  pre c := iprop(StableHlo.held (c : Thread nD τ) (Pipeline.ucRefs τ sig) (V1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c (tcOf (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcOf (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcOf (V1 m) c) (tcOf (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer held at `W2`, left with them at `W3`. Its arrays are
    split out of the unscoped buffers and put back at their final contents; the generator register passes through the
    invariant; nothing is owed; the kernel has no semaphore of its own. -/
def reg1 : Pipeline.RegionSeg (pcfgs (F := F)) adm (pdats m) () defs₀ noVar noLev lev0 1 where
  win := launch1.win.to₀
  block_pos := launch1.block_pos
  stage_whole := launch1.stage_whole
  K := PEmpty
  osem k := k.elim
  ho := Pipeline.OwnSemFacts.none _
  hbody c := (body_obligation1 (tcOf (W2 m)) c).loose
  hwaits := Pipeline.hwaits_of_owed_zero _ _ _ _ noLev lev0 1 fun _ _ => rfl
  pre c := iprop(StableHlo.held (c : Thread nD τ) (Pipeline.ucRefs τ sig) (W2 m c) ∗ rest c)
  post c := iprop(StableHlo.held (c : Thread nD τ) (Pipeline.ucRefs τ sig) (W3 m c) ∗ rest c)
  X c := iprop(∃ r, prngReg c r)
  Y c := iprop(∃ r, prngReg c r)
  Z c := Pipeline.unscopedRest (Ix := Unit) (Name := ℕ) (U := UR sig nD τ) (Lvl := ℕ) spec1 c (tcOf (W2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (tcOf (W2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcOf (W2 m) c) (tcOf (W3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer held at `W4`, left with them at `W5`. Its arrays are
    split out of the unscoped buffers and put back at their final contents; the generator register passes through the
    invariant; nothing is owed; the kernel has no semaphore of its own. -/
def reg2 (hloc : RowLocal2 F) : Pipeline.RegionSeg (pcfgs (F := F)) adm (pdats m) () defs₀ noVar noLev lev0 2 where
  win := launch2.win.to₀
  block_pos := launch2.block_pos
  stage_whole := launch2.stage_whole
  K := PEmpty
  osem k := k.elim
  ho := Pipeline.OwnSemFacts.none _
  hbody c := body_obligation2 (tcOf (W4 m)) hloc c
  hwaits := Pipeline.hwaits_of_owed_zero _ _ _ _ noLev lev0 2 fun _ _ => rfl
  pre c := iprop(StableHlo.held (c : Thread nD τ) (Pipeline.ucRefs τ sig) (W4 m c) ∗ rest c)
  post c := iprop(StableHlo.held (c : Thread nD τ) (Pipeline.ucRefs τ sig) (W5 m c) ∗ rest c)
  X c := iprop(∃ r, prngReg c r)
  Y c := iprop(∃ r, prngReg c r)
  Z c := Pipeline.unscopedRest (Ix := Unit) (Name := ℕ) (U := UR sig nD τ) (Lvl := ℕ) spec2 c (tcOf (W4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcOf (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcOf (W4 m) c) (tcOf (W5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from `m` terminates, and every final memory holds every unscoped buffer at the
    last valuation `W6`. -/
theorem run_all (hloc : RowLocal2 F) :
    θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  run_cond m emb₁ () noVar noLev lev0 (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => rest c)
    (by
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ rest (F := F) c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄)
          ⊢ bigSep Finset.univ fun c : Dev nD => rest (F := F) c := bigSep_mono fun c _ => hcore c
      iintro ⟨H, -⟩
      imodintro
      iapply hmono
      iexact H)
    (fun c => by iintro ⟨-, HO⟩; iexact HO)
    (reg0 m) (fun c => .rfl) (fun c => .rfl)
    (reg1 m) (fun c => .rfl) (fun c => .rfl)
    (reg2 m hloc) (fun c => .rfl) (fun c => .rfl)

end Cert.KernelIdeal.Hand

end
-- ==== Proof.Spec.lean ====
/-
  The mathematics both programs compute, over the extended reals, with every array a function of its
  coordinates. One decoder step: attention scores of the hidden row against the encoder rows, their
  softmax (shifted by the largest score), the context row, and the three matrix-vector products with bias.
  The gates' recombination and the final log-softmax are the same elementwise chains in both programs and
  are never opened.
-/
import Idealize.ShloMosaic.Lib.ValueIdx
import Idealize.ShloMosaic.PureOps.Ideal
import Idealize.ShloMosaic.PureOps.Ideal.Laws

noncomputable section

namespace Cert.DecoderSpec

open Idealize.ShloMosaic Idealize.ShloMosaic.ValueIdx

/-- An extended-real matrix of literal extents, read at a pair of coordinates by `ix2`. -/
abbrev Mat (a b : Nat) : Type := (⟨2, ![a, b]⟩ : Shape).Idx → EReal

/-- The one-row `x` against row `n` of `W`, plus the bias: entry `n` of `x Wᵀ + b`. -/
def affine {K N : Nat} (x : Mat 1 K) (W : Mat N K) (b : Mat 1 N) (n : Fin N) : EReal :=
  (∑ k : Fin K, x (ix2 0 k) * W (ix2 n k)) + b (ix2 0 n)

/-- The attention score of encoder position `j`: the hidden row against encoder row `j`. -/
def score (h : Mat 1 1024) (enc : Mat 512 1024) (j : Fin 512) : EReal :=
  ∑ k : Fin 1024, h (ix2 0 k) * enc (ix2 j k)

/-- The largest score: the maximum folded from −∞ over the positions, taken once more against −∞. -/
def top (h : Mat 1 1024) (enc : Mat 512 1024) : EReal :=
  max (Ideal.ofBits .f32 0xFF800000#32)
    ((Finset.univ : Finset (Fin 512)).fold max (Ideal.ofBits .f32 0xFF800000#32) (score h enc))

/-- The exponential of a score shifted by the largest one. -/
def shifted (h : Mat 1 1024) (enc : Mat 512 1024) (j : Fin 512) : EReal :=
  Ideal.exp (score h enc j - top h enc)

/-- The softmax's denominator. -/
def mass (h : Mat 1 1024) (enc : Mat 512 1024) : EReal := ∑ j : Fin 512, shifted h enc j

/-- The attention weight of position `j`. -/
def weight (h : Mat 1 1024) (enc : Mat 512 1024) (j : Fin 512) : EReal :=
  Ideal.div (shifted h enc j) (mass h enc)

/-- The context row: the encoder rows averaged by the attention weights, at column `n`. -/
def context (h : Mat 1 1024) (enc : Mat 512 1024) (n : Fin 1024) : EReal :=
  ∑ j : Fin 512, weight h enc j * enc (ix2 j n)

/-- The attention weights and the context as one-row matrices. -/
def weightRow (h : Mat 1 1024) (enc : Mat 512 1024) : Mat 1 512 := fun i => weight h enc (i 1)
def contextRow (h : Mat 1 1024) (enc : Mat 512 1024) : Mat 1 1024 := fun i => context h enc (i 1)

/-- The rectified affine map: entry `n` of `max (x Wᵀ + b) 0`. -/
def reluAffine {K N : Nat} (x : Mat 1 K) (W : Mat N K) (b : Mat 1 N) (n : Fin N) : EReal :=
  max (affine x W b n) (Ideal.ofBits .f32 0x00000000#32)

end Cert.DecoderSpec

end
-- ==== Proof.KI.Val2.lean ====
/-
  What region 2 leaves in the result array, over the extended reals, index by index: entry n of the result row is the
  contraction of the resident row with row n of the projection matrix, plus bias entry n, for every n below 50257.

  The steps: the exact instance's contraction is row-local (a result lane is the accumulator plus the sum of the
  products along its own row of the right operand); the payload at a lane inside the array is that sum plus the bias
  lane (the rounding to the narrower format is the identity on the extended reals, the lane mask is set inside the
  array); each input block read at a coordinate is its array read at the block's offset plus the coordinate; so what
  a point writes back is the block of one whole-array function, and the 25 blocks cover the row.
-/
import proofs.«425490_j31568009626350_3_alg».proof.Proof.KI.Reg2
import proofs.«425490_j31568009626350_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

/-! ## The contraction at the exact instance -/

/-- The contraction's operand indices at result index j and contraction index q, coordinate by coordinate: the left
    operand at (j 0, q), the right operand at (j 1, q). -/
theorem lhs2_0 (j : S1x2048.Idx) (q : dot_S1x1024_S2048x1024_S1x2048_1_1_0_0_n_n.contr.Idx) :
    (dot_S1x1024_S2048x1024_S1x2048_1_1_0_0_n_n.lhsIdx j q 0).val = (j 0).val := by
  unfold DotDims.lhsIdx
  rw [dif_neg (show ¬(0 : Fin S1x1024.rank) ∈ dot_S1x1024_S2048x1024_S1x2048_1_1_0_0_n_n.lhsBatch by decide), dif_pos (show (0 : Fin S1x1024.rank) ∈ dot_S1x1024_S2048x1024_S1x2048_1_1_0_0_n_n.lhsNonContracting by decide)]
  rfl
theorem lhs2_1 (j : S1x2048.Idx) (q : dot_S1x1024_S2048x1024_S1x2048_1_1_0_0_n_n.contr.Idx) :
    (dot_S1x1024_S2048x1024_S1x2048_1_1_0_0_n_n.lhsIdx j q 1).val = (q ⟨0, by decide⟩).val :=
  dot_S1x1024_S2048x1024_S1x2048_1_1_0_0_n_n.lhsIdx_val_of_single rfl j q
theorem rhs2_0 (j : S1x2048.Idx) (q : dot_S1x1024_S2048x1024_S1x2048_1_1_0_0_n_n.contr.Idx) :
    (dot_S1x1024_S2048x1024_S1x2048_1_1_0_0_n_n.rhsIdx j q 0).val = (j 1).val := by
  unfold DotDims.rhsIdx
  rw [dif_neg (show ¬(0 : Fin S2048x1024.rank) ∈ dot_S1x1024_S2048x1024_S1x2048_1_1_0_0_n_n.rhsBatch by decide), dif_pos (show (0 : Fin S2048x1024.rank) ∈ dot_S1x1024_S2048x1024_S1x2048_1_1_0_0_n_n.rhsNonContracting by decide)]
  rfl
theorem rhs2_1 (j : S1x2048.Idx) (q : dot_S1x1024_S2048x1024_S1x2048_1_1_0_0_n_n.contr.Idx) :
    (dot_S1x1024_S2048x1024_S1x2048_1_1_0_0_n_n.rhsIdx j q 1).val = (q ⟨0, by decide⟩).val :=
  dot_S1x1024_S2048x1024_S1x2048_1_1_0_0_n_n.rhsIdx_val_of_single rfl j q

/-- On the extended reals the contraction is row-local: lane y is the accumulator there plus the sum over the
    contraction index of products that read the right operand in row y only. -/
theorem rowLocal2_ideal : RowLocal2 Ideal := by
  intro l r r' acc y h
  show FloatOps.matmul _ none l r acc y = FloatOps.matmul _ none l r' acc y
  rw [Ideal.matmul_apply, Ideal.matmul_apply]
  refine congrArg (acc y + ·) (Finset.sum_congr rfl fun q _ => ?_)
  rw [h _ (rhs2_0 y q)]

/-- The contraction onto the zero accumulator, read at lane v: the sum over the 1024 columns of the products of the
    row's entries with row v's. -/
theorem matmul2_apply (l : FVec Ideal S1x1024 .bf16) (r : FVec Ideal S2048x1024 .bf16) (v : Fin 2048) :
    matmul dot_S1x1024_S2048x1024_S1x2048_1_1_0_0_n_n none l r (constant S1x2048 .f32 0x00000000#32) (ix2 0 v)
      = ∑ k : Fin 1024, l (ix2 0 k) * r (ix2 v k) := by
  show FloatOps.matmul _ none l r (constant (F := Ideal) S1x2048 .f32 0x00000000#32) (ix2 0 v) = _
  rw [Ideal.matmul_constant_zero_apply, ← Equiv.sum_comp (ValueIdx.contrEquiv1 dot_S1x1024_S2048x1024_S1x2048_1_1_0_0_n_n 1024 rfl rfl).symm]
  refine Finset.sum_congr rfl fun k _ => ?_
  have hk := ValueIdx.contrEquiv1_symm_val dot_S1x1024_S2048x1024_S1x2048_1_1_0_0_n_n 1024 rfl rfl k
  have el : dot_S1x1024_S2048x1024_S1x2048_1_1_0_0_n_n.lhsIdx (ix2 0 v) ((ValueIdx.contrEquiv1 dot_S1x1024_S2048x1024_S1x2048_1_1_0_0_n_n 1024 rfl rfl).symm k) = ix2 0 k := funext fun a => Fin.ext (by
    match a with
    | ⟨0, _⟩ => exact lhs2_0 _ _
    | ⟨1, _⟩ => exact (lhs2_1 _ _).trans hk)
  have er : dot_S1x1024_S2048x1024_S1x2048_1_1_0_0_n_n.rhsIdx (ix2 0 v) ((ValueIdx.contrEquiv1 dot_S1x1024_S2048x1024_S1x2048_1_1_0_0_n_n 1024 rfl rfl).symm k) = ix2 v k := funext fun a => Fin.ext (by
    match a with
    | ⟨0, _⟩ => exact rhs2_0 _ _
    | ⟨1, _⟩ => exact (rhs2_1 _ _).trans hk)
  rw [el, er]

/-! ## The lane mask -/

/-- Lane v of block a lies inside the array exactly when a * 2048 + v < 50257; there the mask's comparison, on
    32-bit words read signed, says so: neither the product nor the sum wraps. -/
theorem lane_mask (a v : Nat) (ha : a < 25) (hv : v < 2048) (h : a * 2048 + v < 50257) :
    IntOp.cmpi .slt (IntOp.addi (Scalar.muli (BitVec.ofNat 32 a) 2048#32) (BitVec.ofNat 32 v)) 50257#32 = 1#1 := by
  unfold IntOp.cmpi IntOp.addi Scalar.muli IntOp.muli
  have hx : (BitVec.ofNat 32 a * 2048#32 + BitVec.ofNat 32 v).toNat = a * 2048 + v := by
    simp only [BitVec.toNat_add, BitVec.toNat_mul, BitVec.toNat_ofNat, Nat.reducePow, Nat.reduceMod]
    omega
  have hs : (BitVec.ofNat 32 a * 2048#32 + BitVec.ofNat 32 v).slt 50257#32 = true := by
    rw [BitVec.slt_eq_decide, decide_eq_true_eq, BitVec.toInt_eq_toNat_of_lt (by rw [hx]; omega), hx,
      show (50257#32 : BitVec 32).toInt = 50257 from by decide]
    omega
  simp only [hs]
  rfl

/-! ## The payload at a lane inside the array -/

/-- At a lane inside the array the payload is the contraction of the row with the block's row v plus the bias lane:
    the mask is set there, the shape casts are identities, and rounding to the narrower format is the identity on
    the extended reals. -/
theorem k2_pay1_apply (i : grid2.Coords) (v0 : Vec Ideal S1x1024 .f32) (v3 : Vec Ideal S2048x1024 .f32) (v12 : Vec Ideal S1x2048 .f32)
    (v : Fin 2048) (hin : (i 0).val * 2048 + v.val < 50257) :
    k2_pay1 i v0 v3 v12 (ix2 0 v) = (∑ k : Fin 1024, v0 (ix2 0 k) * v3 (ix2 v k)) + v12 (ix2 0 v) := by
  unfold k2_pay1
  dsimp only
  rw [ValueIdx.select_apply]
  have hm : cmpi .slt (addi (broadcast S1x2048 (Scalar.muli (BitVec.ofNat 32 (i 0).val) 2048#32)) (iota .tc S1x2048 32 [1] iota_S1x2048_d1_w32))
      (broadcast S1x2048 50257#32) (ix2 0 v) = 1#1 := by
    show IntOp.cmpi .slt (IntOp.addi (Scalar.muli (BitVec.ofNat 32 (i 0).val) 2048#32) (iota .tc S1x2048 32 [1] iota_S1x2048_d1_w32 (ix2 0 v))) 50257#32 = 1#1
    rw [iota_single_apply]
    exact lane_mask (i 0).val v.val (i 0).isLt v.isLt hin
  rw [hm, ValueIdx.select_one, ValueIdx.addf_apply, shapeCast_self, shapeCast_self, matmul2_apply]
  rfl

/-- So is what the body leaves in the result's buffer there. -/
theorem out2_3_apply (i : grid2.Coords) (x0 : Vec Ideal S1x1024 .f32) (x1 : Vec Ideal S2048x1024 .f32) (x2 : Vec Ideal S1x2048 .f32)
    (v : Fin 2048) (hin : (i 0).val * 2048 + v.val < 50257) :
    out2_3 i x0 x1 x2 (ix2 0 v) = (∑ k : Fin 1024, x0 (ix2 0 k) * x1 (ix2 v k)) + x2 (ix2 0 v) := by
  have hz : (![0, 0] : Fin 2 → Nat) = fun _ => 0 := funext fun a => by fin_cases a <;> rfl
  unfold out2_3
  rw [View.canon_unit_zero hz]
  simp only [View.ld_unit_zero (S := S1x1024) hz, View.ld_unit_zero (S := S2048x1024) hz, View.ld_unit_zero (S := S1x2048) hz]
  exact k2_pay1_apply i x0 x1 x2 v hin

/-! ## The arrays and the blocks -/

variable (V : (c : Dev nD) → (b : Ref sig .tc) → Buf (Elt Ideal) ((c : Thread nD τ).loc b))

/-- The three arrays the region reads, as it finds them, at their literal shapes: the resident row, the projection
    matrix, the bias row. -/
abbrev hrow (c : Dev nD) : Vec Ideal S1x1024 .f32 := V c main_call0_v45
abbrev wmat (c : Dev nD) : Vec Ideal S50257x1024 .f32 := V c main_arg10
abbrev bias (c : Dev nD) : Vec Ideal S1x50257 .f32 := V c main_call0_v46

/-- The whole result row as one function of the three arrays: entry n is the row against row n of the matrix, plus
    bias entry n. -/
def logits2 (h : Vec Ideal S1x1024 .f32) (W : Vec Ideal S50257x1024 .f32) (b : Vec Ideal S1x50257 .f32) : Vec Ideal S1x50257 .f32 :=
  fun i => (∑ k : Fin 1024, h (ix2 0 k) * W (ix2 (i 1) k)) + b (ix2 0 (i 1))

/-- The printed index maps and cuts, decided over the 25 points: the grid coordinate is the point; the resident
    window stays at block (0, 0); the matrix window is at block row t, the bias and result windows at block column t;
    each moving window's cut extent ends at the array's end, 50257, or at the block's, whichever comes first. -/
theorem idx_facts2 : ∀ t : Fin cfg2.N,
    (grid2.coords t 0).val = t.val
    ∧ win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_3.xsize (grid2.coords t) (0 : Fin 2) = 1
    ∧ t.val * 2048 + win2_3.xsize (grid2.coords t) (1 : Fin 2) = min (t.val * 2048 + 2048) 50257
    ∧ t.val * 2048 + win2_1.xsize (grid2.coords t) (0 : Fin 2) = min (t.val * 2048 + 2048) 50257
    ∧ t.val * 2048 + win2_2.xsize (grid2.coords t) (1 : Fin 2) = min (t.val * 2048 + 2048) 50257 :=
  (by decide +kernel : ∀ t : Fin grid2.N, _)

/-- The resident row's block read at a column is the row read there. -/
theorem iblk2_0_apply (c : Dev nD) (t : Fin cfg2.N) (k : Fin 1024) :
    (iblk2 V c 0 t : Vec Ideal S1x1024 .f32) (ix2 0 k) = hrow V c (ix2 0 k) := by
  obtain ⟨-, e00, e01, -⟩ := idx_facts2 t
  unfold iblk2
  rw [View.read_apply]
  show V c main_call0_v45 _ = V c main_call0_v45 _
  congr 1
  funext a
  apply Fin.ext
  match a with
  | ⟨0, _⟩ => show win2_0.index t 0 * 1 + 1 * 0 = 0; rw [e00]
  | ⟨1, _⟩ => show win2_0.index t 1 * 1024 + 1 * k.val = k.val; rw [e01]; omega

/-- The matrix block's buffer read at row v, column k, where block row t's row v is inside the array: the matrix at
    row t * 2048 + v, column k. -/
theorem blk2_1_apply (c : Dev nD) (t : Fin cfg2.N) (v : Fin 2048) (k : Fin 1024) (n : Fin 50257)
    (hn : n.val = t.val * 2048 + v.val) : blk2_1 V c t (ix2 v k) = wmat V c (ix2 n k) := by
  obtain ⟨-, -, -, e10, e11, -, -, -, -, -, -, x1, -⟩ := idx_facts2 t
  have hnlt : n.val < 50257 := n.isLt
  have hmv : win2_1.moved (grid2.coords t) (ix2 v k) = true := (win2_1.moved_iff _ _).mpr fun a => by
    match a with
    | ⟨0, _⟩ => show v.val < win2_1.xsize (grid2.coords t) (0 : Fin 2); omega
    | ⟨1, _⟩ => exact k.isLt
  unfold blk2_1 Window.fill
  rw [dif_pos hmv]
  unfold iblk2
  rw [View.read_apply]
  show V c main_arg10 _ = V c main_arg10 _
  congr 1
  funext a
  apply Fin.ext
  match a with
  | ⟨0, _⟩ => show win2_1.index t 0 * 2048 + 1 * v.val = n.val; rw [e10, hn]; omega
  | ⟨1, _⟩ => show win2_1.index t 1 * 1024 + 1 * k.val = k.val; rw [e11, Nat.zero_mul, Nat.zero_add, Nat.one_mul]

/-- The bias block's buffer read at lane v inside the array: the bias at lane t * 2048 + v. -/
theorem blk2_2_apply (c : Dev nD) (t : Fin cfg2.N) (v : Fin 2048) (n : Fin 50257)
    (hn : n.val = t.val * 2048 + v.val) : blk2_2 V c t (ix2 0 v) = bias V c (ix2 0 n) := by
  obtain ⟨-, -, -, -, -, e20, e21, -, -, -, -, -, x2⟩ := idx_facts2 t
  have hnlt : n.val < 50257 := n.isLt
  have hmv : win2_2.moved (grid2.coords t) (ix2 0 v) = true := (win2_2.moved_iff _ _).mpr fun a => by
    match a with
    | ⟨0, _⟩ => exact Nat.zero_lt_one
    | ⟨1, _⟩ => show v.val < win2_2.xsize (grid2.coords t) (1 : Fin 2); omega
  unfold blk2_2 Window.fill
  rw [dif_pos hmv]
  unfold iblk2
  rw [View.read_apply]
  show V c main_call0_v46 _ = V c main_call0_v46 _
  congr 1
  funext a
  apply Fin.ext
  match a with
  | ⟨0, _⟩ => show win2_2.index t 0 * 1 + 1 * 0 = 0; rw [e20]
  | ⟨1, _⟩ => show win2_2.index t 1 * 2048 + 1 * v.val = n.val; rw [e21, hn]; omega

/-! ## From the blocks to the array -/

/-- What point t writes back — the lanes inside the array of what the body left in the result's buffer — is block t
    of logits2 of the three arrays. -/
theorem flushed2_3_eq (c : Dev nD) (t : Fin cfg2.N) :
    (dat2 V c).flushed 3 t = ((cfg2.win 3).blk t).view.read (Elt Ideal) (logits2 (hrow V c) (wmat V c) (bias V c)) := by
  show win2_3.cut (grid2.coords t) ((dat2 V c).after 3 t) = _
  rw [after2_3]
  obtain ⟨eg, -, -, -, -, -, -, e30, e31, x30, x31, -, -⟩ := idx_facts2 t
  funext j
  have hj0 : (j 0).val < win2_3.xsize (grid2.coords t) (0 : Fin 2) := (j 0).isLt
  have hj1 : (j 1).val < win2_3.xsize (grid2.coords t) (1 : Fin 2) := (j 1).isLt
  have hv : (j 1).val < 2048 := by omega
  have hn : t.val * 2048 + (j 1).val < 50257 := by omega
  have ey : win2_3.xinj (grid2.coords t) j = ix2 0 ⟨(j 1).val, hv⟩ := funext fun a => Fin.ext (by
    match a with
    | ⟨0, _⟩ => show (j 0).val = 0; omega
    | ⟨1, _⟩ => rfl)
  have en : ((cfg2.win 3).blk t).view.emb j = ix2 0 ⟨t.val * 2048 + (j 1).val, hn⟩ := funext fun a => Fin.ext (by
    match a with
    | ⟨0, _⟩ => show win2_3.index t 0 * 1 + 1 * (j 0).val = 0; rw [e30]; omega
    | ⟨1, _⟩ => show win2_3.index t 1 * 2048 + 1 * (j 1).val = t.val * 2048 + (j 1).val; rw [e31]; omega)
  show out2_3 (grid2.coords t) (iblk2 V c 0 t) (blk2_1 V c t) (blk2_2 V c t) (win2_3.xinj (grid2.coords t) j)
    = logits2 (hrow V c) (wmat V c) (bias V c) (((cfg2.win 3).blk t).view.emb j)
  rw [ey, en, out2_3_apply (grid2.coords t) (iblk2 V c 0 t) (blk2_1 V c t) (blk2_2 V c t) ⟨(j 1).val, hv⟩ (by rw [eg]; exact hn)]
  show _ = (∑ k : Fin 1024, hrow V c (ix2 0 k) * wmat V c (ix2 ⟨t.val * 2048 + (j 1).val, hn⟩ k)) + bias V c (ix2 0 ⟨t.val * 2048 + (j 1).val, hn⟩)
  rw [blk2_2_apply V c t ⟨(j 1).val, hv⟩ ⟨t.val * 2048 + (j 1).val, hn⟩ rfl]
  refine congrArg (· + bias V c (ix2 0 ⟨t.val * 2048 + (j 1).val, hn⟩)) (Finset.sum_congr rfl fun k _ => ?_)
  rw [iblk2_0_apply V c t k, blk2_1_apply V c t ⟨(j 1).val, hv⟩ k ⟨t.val * 2048 + (j 1).val, hn⟩ rfl]

/-- An index of the result row is in point t's block iff each coordinate is in the block's cut range on its axis. -/
theorem mem_blk2_3 (t : Fin cfg2.N) (i : S1x50257.Idx) :
    i ∈ ((cfg2.win 3).blk t).view.set ↔ ∀ a : Fin 2, win2_3.index t a * S1x2048.size a ≤ (i a).val
      ∧ (i a).val < win2_3.index t a * S1x2048.size a + win2_3.xsize (grid2.coords t) a := by
  show i ∈ ((View.whole main_call0_v47).slice (win2_3.rect t)).set ↔ _
  rw [View.set_slice_whole, Rect.mem_set_unit]
  exact Iff.rfl

/-- Every entry of the result row is written back by the point whose block holds it: entry n by point n / 2048. -/
theorem covered2_3 (i : S1x50257.Idx) : ∃ t : Fin cfg2.N, (cfg2.win 3).flush t = true ∧ i ∈ ((cfg2.win 3).blk t).view.set := by
  have hi0 : (i 0).val < 1 := (i 0).isLt
  have hi1 : (i 1).val < 50257 := (i 1).isLt
  have hlt : (i 1).val / 2048 < cfg2.N := by rw [show cfg2.N = 25 from N_2]; omega
  refine ⟨⟨(i 1).val / 2048, hlt⟩, flush2_3 _, ?_⟩
  rw [mem_blk2_3]
  obtain ⟨-, -, -, -, -, -, -, e30, e31, x30, x31, -, -⟩ := idx_facts2 ⟨(i 1).val / 2048, hlt⟩
  have e31' : win2_3.index ⟨(i 1).val / 2048, hlt⟩ (1 : Fin 2) = (i 1).val / 2048 := e31
  have x31' : (i 1).val / 2048 * 2048 + win2_3.xsize (grid2.coords ⟨(i 1).val / 2048, hlt⟩) (1 : Fin 2)
      = min ((i 1).val / 2048 * 2048 + 2048) 50257 := x31
  intro a
  match a with
  | ⟨0, _⟩ =>
    show win2_3.index ⟨(i 1).val / 2048, hlt⟩ (0 : Fin 2) * 1 ≤ (i 0).val
      ∧ (i 0).val < win2_3.index ⟨(i 1).val / 2048, hlt⟩ (0 : Fin 2) * 1 + win2_3.xsize (grid2.coords ⟨(i 1).val / 2048, hlt⟩) (0 : Fin 2)
    rw [e30, x30]; omega
  | ⟨1, _⟩ =>
    show win2_3.index ⟨(i 1).val / 2048, hlt⟩ (1 : Fin 2) * 2048 ≤ (i 1).val
      ∧ (i 1).val < win2_3.index ⟨(i 1).val / 2048, hlt⟩ (1 : Fin 2) * 2048 + win2_3.xsize (grid2.coords ⟨(i 1).val / 2048, hlt⟩) (1 : Fin 2)
    rw [e31']
    clear e30 e31 x30 x31 e31'
    omega

/-- The result array after the region: the whole row is logits2 of the three arrays as the region finds them. -/
theorem final2_3_arr (c : Dev nD) : (dat2 (F := Ideal) V c).arrAt 3 cfg2.N = logits2 (hrow V c) (wmat V c) (bias V c) :=
  (dat2 V c).arrAt_eq_of_cover 3 (logits2 (hrow V c) (wmat V c) (bias V c)) (fun t _ => flushed2_3_eq V c t) covered2_3

/-- Entry n of the result row: the resident row against row n of the projection matrix, plus bias entry n. -/
theorem final2_3 (c : Dev nD) (n : Fin 50257) :
    (dat2 (F := Ideal) V c).arrAt 3 cfg2.N (ix2 0 n)
      = (∑ k : Fin 1024, hrow V c (ix2 0 k) * wmat V c (ix2 n k)) + bias V c (ix2 0 n) := by
  rw [final2_3_arr]
  rfl

/-- The same through the specification's name for it: the affine map of the resident row by the projection matrix
    and the bias row, at entry n. -/
theorem final2_3_affine (c : Dev nD) (n : Fin 50257) :
    (dat2 (F := Ideal) V c).arrAt 3 cfg2.N (ix2 0 n)
      = DecoderSpec.affine (K := 1024) (N := 50257) (hrow V c) (wmat V c) (bias V c) n :=
  final2_3 V c n

end Cert.KernelIdeal.Hand

end
-- ==== Proof.KI.Results.lean ====
/-
  The idealized kernel program's run with its results named: every weakly fair execution of @main terminates; the three
  result buffers end at the last valuation's contents and every argument array ends as launched. At the ideal
  instance a lane of a matrix product depends on its own weight row alone, so region 2's output is named too.
-/
import proofs.«425490_j31568009626350_3_alg».proof.Proof.KI.Run
import proofs.«425490_j31568009626350_3_alg».proof.Proof.KI.Val2

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- An unscoped TensorCore reference is among those held through the run. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run of the idealized kernel program: the results at the last valuation, the arguments as launched. -/
theorem kernel_run :
    θ_run (defs (F := Ideal)) (onTc (τ := τ) (main (F := Ideal))) ⟨m, fun _ => 0, ρ⟩ (fun r => ∀ c : Dev nD,
      r.2.mem ((c.tc : Thread nD τ).loc main_v0_0) = W6 m c main_v0_0
      ∧ r.2.mem ((c.tc : Thread nD τ).loc main_v0_1) = W6 m c main_v0_1
      ∧ r.2.mem ((c.tc : Thread nD τ).loc main_v0_2) = W6 m c main_v0_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono (fun r h c =>
    ⟨h c _ (mem_uc main_v0_0 (by decide)), h c _ (mem_uc main_v0_1 (by decide)), h c _ (mem_uc main_v0_2 (by decide)),
      (h c _ (mem_uc main_arg0 (by decide))).trans (V6_main_arg0 m (outs m) c),
      (h c _ (mem_uc main_arg1 (by decide))).trans (V6_main_arg1 m (outs m) c),
      (h c _ (mem_uc main_arg2 (by decide))).trans (V6_main_arg2 m (outs m) c),
      (h c _ (mem_uc main_arg3 (by decide))).trans (V6_main_arg3 m (outs m) c),
      (h c _ (mem_uc main_arg4 (by decide))).trans (V6_main_arg4 m (outs m) c),
      (h c _ (mem_uc main_arg5 (by decide))).trans (V6_main_arg5 m (outs m) c),
      (h c _ (mem_uc main_arg6 (by decide))).trans (V6_main_arg6 m (outs m) c),
      (h c _ (mem_uc main_arg7 (by decide))).trans (V6_main_arg7 m (outs m) c),
      (h c _ (mem_uc main_arg8 (by decide))).trans (V6_main_arg8 m (outs m) c),
      (h c _ (mem_uc main_arg9 (by decide))).trans (V6_main_arg9 m (outs m) c),
      (h c _ (mem_uc main_arg10 (by decide))).trans (V6_main_arg10 m (outs m) c),
      (h c _ (mem_uc main_arg11 (by decide))).trans (V6_main_arg11 m (outs m) c)⟩)
    (run_all m ρ rowLocal2_ideal)

end Cert.KernelIdeal.Hand

end
-- ==== Proof.KI.Val0.lean ====
/- What region 0 (`cc0_attn_kernel`) leaves in its two output arrays, at the ideal values. The canon of one
   covering store is its payload and a load of a whole buffer reads its contents, so each output window's staging
   buffer after the body is the payload of the input blocks; the grid has one point and every window is the whole
   of its array, so the final arrays are the payloads of the whole entry arrays. The payloads index by index:
   the attention payload is the softmax row of the scores of the hidden row against the encoder rows, and the
   combine payload is the rectified affine map of the embedding row joined to the context row. -/
import proofs.«425490_j31568009626350_3_alg».proof.Proof.KI.Reg0
import proofs.«425490_j31568009626350_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.DecoderSpec

/-! ## The staging buffers after the body are the payloads (any float instance) -/

section Blocks
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- One store through the whole buffer leaves its payload, and each load through a whole buffer reads its contents. -/
theorem out0_5_eq (x0 : Vec F S1x1024 .f32) (x1 : Vec F S512x1024 .f32) (x2 : Vec F S1x1024 .f32) (x3 : Vec F S1024x2048 .f32) (x4 : Vec F S1x1024 .f32) :
    out0_5 x0 x1 x2 x3 x4 = k0_pay3 x0 x1 x2 x3 x4 := by
  unfold out0_5
  rw [View.canon_unit_zero hz]
  simp only [View.ld_unit_zero (S := S1x1024) hz, View.ld_unit_zero (S := S512x1024) hz, View.ld_unit_zero (S := S1024x2048) hz]

theorem out0_6_eq (x0 : Vec F S1x1024 .f32) (x1 : Vec F S512x1024 .f32) : out0_6 x0 x1 = k0_pay2 x0 x1 := by
  unfold out0_6
  rw [View.canon_unit_zero hz]
  simp only [View.ld_unit_zero (S := S1x1024) hz, View.ld_unit_zero (S := S512x1024) hz]

/-! ## Every window's block at the one point is the whole of its array -/

/-- Each window's block offsets at the one point are zero. -/
theorem off0_0 : (fun a => win0_0.index t0_0 a * main_call0_v11.ty.shape.size a) = fun _ => 0 := funext fun a => by fin_cases a <;> decide +kernel
theorem off0_1 : (fun a => win0_1.index t0_0 a * main_call0_v12.ty.shape.size a) = fun _ => 0 := funext fun a => by fin_cases a <;> decide +kernel
theorem off0_2 : (fun a => win0_2.index t0_0 a * main_call0_v10.ty.shape.size a) = fun _ => 0 := funext fun a => by fin_cases a <;> decide +kernel
theorem off0_3 : (fun a => win0_3.index t0_0 a * main_arg4.ty.shape.size a) = fun _ => 0 := funext fun a => by fin_cases a <;> decide +kernel
theorem off0_4 : (fun a => win0_4.index t0_0 a * main_call0_v13.ty.shape.size a) = fun _ => 0 := funext fun a => by fin_cases a <;> decide +kernel
theorem off0_5 : (fun a => win0_5.index t0_0 a * main_call0_v16_0.ty.shape.size a) = fun _ => 0 := funext fun a => by fin_cases a <;> decide +kernel
theorem off0_6 : (fun a => win0_6.index t0_0 a * main_v0_2.ty.shape.size a) = fun _ => 0 := funext fun a => by fin_cases a <;> decide +kernel

/-- So each input block, read off the entry contents, is the whole entry array. -/
theorem iblk0_0_eq (c : Dev nD) : iblk0 V c 0 t0_0 = V c main_call0_v11 := by
  unfold iblk0
  exact Memref.read_access_unit_zero (Elt F) main_call0_v11 off0_0 (fun a => by rw [congrFun off0_0 a]; simp) (V c main_call0_v11)
theorem iblk0_1_eq (c : Dev nD) : iblk0 V c 1 t0_0 = V c main_call0_v12 := by
  unfold iblk0
  exact Memref.read_access_unit_zero (Elt F) main_call0_v12 off0_1 (fun a => by rw [congrFun off0_1 a]; simp) (V c main_call0_v12)
theorem iblk0_2_eq (c : Dev nD) : iblk0 V c 2 t0_0 = V c main_call0_v10 := by
  unfold iblk0
  exact Memref.read_access_unit_zero (Elt F) main_call0_v10 off0_2 (fun a => by rw [congrFun off0_2 a]; simp) (V c main_call0_v10)
theorem iblk0_3_eq (c : Dev nD) : iblk0 V c 3 t0_0 = V c main_arg4 := by
  unfold iblk0
  exact Memref.read_access_unit_zero (Elt F) main_arg4 off0_3 (fun a => by rw [congrFun off0_3 a]; simp) (V c main_arg4)
theorem iblk0_4_eq (c : Dev nD) : iblk0 V c 4 t0_0 = V c main_call0_v13 := by
  unfold iblk0
  exact Memref.read_access_unit_zero (Elt F) main_call0_v13 off0_4 (fun a => by rw [congrFun off0_4 a]; simp) (V c main_call0_v13)

/-! ## The final arrays -/

/-- What the one point writes back to window 5's array is the whole of the combine payload of the entry arrays. -/
theorem flushed0_5_eq (c : Dev nD) (t : Fin cfg0.N) (hf : (cfg0.win 5).flush t = true) :
    (dat0 V c).flushed 5 t = ((cfg0.win 5).blk t).view.read (Elt F)
      (k0_pay3 (V c main_call0_v11) (V c main_call0_v12) (V c main_call0_v10) (V c main_arg4) (V c main_call0_v13)) := by
  obtain rfl : t = t0_0 := fin_N0 t
  show (cfg0.win 5).cut (grid0.coords t0_0) ((dat0 V c).after 5 t0_0) = _
  rw [after0_5, out0_5_eq, iblk0_0_eq, iblk0_1_eq, iblk0_2_eq, iblk0_3_eq, iblk0_4_eq]
  exact (Memref.read_access_unit_zero (Elt F) main_call0_v16_0 off0_5 (fun a => by rw [congrFun off0_5 a]; simp) _).symm

/-- What the one point writes back to window 6's array is the whole of the attention payload of the entry arrays. -/
theorem flushed0_6_eq (c : Dev nD) (t : Fin cfg0.N) (hf : (cfg0.win 6).flush t = true) :
    (dat0 V c).flushed 6 t = ((cfg0.win 6).blk t).view.read (Elt F) (k0_pay2 (V c main_call0_v11) (V c main_call0_v12)) := by
  obtain rfl : t = t0_0 := fin_N0 t
  show (cfg0.win 6).cut (grid0.coords t0_0) ((dat0 V c).after 6 t0_0) = _
  rw [after0_6, out0_6_eq, iblk0_0_eq, iblk0_1_eq]
  exact (Memref.read_access_unit_zero (Elt F) main_v0_2 off0_6 (fun a => by rw [congrFun off0_6 a]; simp) _).symm

/-- The one point's block covers window 5's array. -/
theorem cover_blk0_5 (i : S1x1024.Idx) : i ∈ ((cfg0.win 5).blk t0_0).view.set := by
  show i ∈ ((View.whole main_call0_v16_0).slice (win0_5.rect t0_0)).set
  rw [View.set_slice_whole, Rect.mem_set_unit]
  intro a
  have h0 : (i 0 : Nat) < 1 := (i 0).isLt
  have h1 : (i 1 : Nat) < 1024 := (i 1).isLt
  match a with
  | ⟨0, _⟩ =>
    show win0_5.index t0_0 0 * win0_5.size 0 ≤ (i 0 : Nat) ∧ (i 0 : Nat) < win0_5.index t0_0 0 * win0_5.size 0 + win0_5.xsize (grid0.coords t0_0) 0
    rw [show win0_5.index t0_0 0 * win0_5.size 0 = 0 from by decide +kernel, show win0_5.xsize (grid0.coords t0_0) 0 = 1 from by decide +kernel]; omega
  | ⟨1, _⟩ =>
    show win0_5.index t0_0 1 * win0_5.size 1 ≤ (i 1 : Nat) ∧ (i 1 : Nat) < win0_5.index t0_0 1 * win0_5.size 1 + win0_5.xsize (grid0.coords t0_0) 1
    rw [show win0_5.index t0_0 1 * win0_5.size 1 = 0 from by decide +kernel, show win0_5.xsize (grid0.coords t0_0) 1 = 1024 from by decide +kernel]; omega

/-- The one point's block covers window 6's array. -/
theorem cover_blk0_6 (i : S1x512.Idx) : i ∈ ((cfg0.win 6).blk t0_0).view.set := by
  show i ∈ ((View.whole main_v0_2).slice (win0_6.rect t0_0)).set
  rw [View.set_slice_whole, Rect.mem_set_unit]
  intro a
  have h0 : (i 0 : Nat) < 1 := (i 0).isLt
  have h1 : (i 1 : Nat) < 512 := (i 1).isLt
  match a with
  | ⟨0, _⟩ =>
    show win0_6.index t0_0 0 * win0_6.size 0 ≤ (i 0 : Nat) ∧ (i 0 : Nat) < win0_6.index t0_0 0 * win0_6.size 0 + win0_6.xsize (grid0.coords t0_0) 0
    rw [show win0_6.index t0_0 0 * win0_6.size 0 = 0 from by decide +kernel, show win0_6.xsize (grid0.coords t0_0) 0 = 1 from by decide +kernel]; omega
  | ⟨1, _⟩ =>
    show win0_6.index t0_0 1 * win0_6.size 1 ≤ (i 1 : Nat) ∧ (i 1 : Nat) < win0_6.index t0_0 1 * win0_6.size 1 + win0_6.xsize (grid0.coords t0_0) 1
    rw [show win0_6.index t0_0 1 * win0_6.size 1 = 0 from by decide +kernel, show win0_6.xsize (grid0.coords t0_0) 1 = 512 from by decide +kernel]; omega

/-- Window 5's array after the region: the combine payload of the whole entry arrays. -/
theorem final0_5 (c : Dev nD) : (dat0 V c).arrAt 5 cfg0.N
    = k0_pay3 (V c main_call0_v11) (V c main_call0_v12) (V c main_call0_v10) (V c main_arg4) (V c main_call0_v13) :=
  (dat0 V c).arrAt_eq_of_cover 5 _ (flushed0_5_eq V c) fun i => ⟨t0_0, flush0_5 t0_0, cover_blk0_5 i⟩

/-- Window 6's array after the region: the attention payload of the whole entry arrays. -/
theorem final0_6 (c : Dev nD) : (dat0 V c).arrAt 6 cfg0.N = k0_pay2 (V c main_call0_v11) (V c main_call0_v12) :=
  (dat0 V c).arrAt_eq_of_cover 6 _ (flushed0_6_eq V c) fun i => ⟨t0_0, flush0_6 t0_0, cover_blk0_6 i⟩

end Blocks

/-! ## The payloads at the ideal values, index by index -/

/-- A one-row matrix against the rows of another (contracting the second axis of both), into the zero splat, read
    at column `n`: the sum over the contracted coordinate. -/
theorem matmul_rowT_apply {K N : Nat} {φ₁ φ₂ : FTy}
    (w : DotDims.WF ⟨2, ![1, K]⟩ ⟨2, ![N, K]⟩ ⟨2, ![1, N]⟩ [1] [1] [0] [0] [] [])
    (prec : Option ContractPrecision) (x : FVec Ideal ⟨2, ![1, K]⟩ φ₁) (W : FVec Ideal ⟨2, ![N, K]⟩ φ₂) (n : Fin N) :
    FloatOps.matmul (⟨[1], [1], [0], [0], [], [], w⟩ : DotDims _ _ _) prec x W (constant ⟨2, ![1, N]⟩ .f32 0x00000000#32) (ix2 0 n)
      = ∑ k : Fin K, x (ix2 0 k) * W (ix2 n k) := by
  rw [Ideal.matmul_constant_zero_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![1, K]⟩ ⟨2, ![N, K]⟩ ⟨2, ![1, N]⟩) K rfl rfl c
  have l2 : (⟨[1], [1], [0], [0], [], [], w⟩ : DotDims ⟨2, ![1, K]⟩ ⟨2, ![N, K]⟩ ⟨2, ![1, N]⟩).lhsIdx (ix2 0 n)
      ((contrEquiv1 _ K rfl rfl).symm c) = ix2 0 c := by
    funext ax; apply Fin.ext
    match ax with
    | ⟨0, _⟩ => simp [DotDims.lhsIdx] <;> rfl
    | ⟨1, _⟩ => simp [DotDims.lhsIdx]; exact c2
  have r2 : (⟨[1], [1], [0], [0], [], [], w⟩ : DotDims ⟨2, ![1, K]⟩ ⟨2, ![N, K]⟩ ⟨2, ![1, N]⟩).rhsIdx (ix2 0 n)
      ((contrEquiv1 _ K rfl rfl).symm c) = ix2 n c := by
    funext ax; apply Fin.ext
    match ax with
    | ⟨0, _⟩ => simp [DotDims.rhsIdx] <;> rfl
    | ⟨1, _⟩ => simp [DotDims.rhsIdx]; exact c2
  rw [l2, r2]

/-- A one-row matrix times a matrix (contracting the row's second axis with the matrix's first), into the zero
    splat, read at column `n`. -/
theorem matmul_row_apply {J N : Nat} {φ₁ φ₂ : FTy}
    (w : DotDims.WF ⟨2, ![1, J]⟩ ⟨2, ![J, N]⟩ ⟨2, ![1, N]⟩ [1] [0] [0] [1] [] [])
    (prec : Option ContractPrecision) (a : FVec Ideal ⟨2, ![1, J]⟩ φ₁) (B : FVec Ideal ⟨2, ![J, N]⟩ φ₂) (n : Fin N) :
    FloatOps.matmul (⟨[1], [0], [0], [1], [], [], w⟩ : DotDims _ _ _) prec a B (constant ⟨2, ![1, N]⟩ .f32 0x00000000#32) (ix2 0 n)
      = ∑ j : Fin J, a (ix2 0 j) * B (ix2 j n) := by
  rw [Ideal.matmul_constant_zero_apply,
    ← Equiv.sum_comp (contrEquiv1 (⟨[1], [0], [0], [1], [], [], w⟩ : DotDims _ _ _) J rfl rfl).symm]
  refine Finset.sum_congr rfl fun c _ => ?_
  have c2 := contrEquiv1_symm_val
    (⟨[1], [0], [0], [1], [], [], w⟩ : DotDims ⟨2, ![1, J]⟩ ⟨2, ![J, N]⟩ ⟨2, ![1, N]⟩) J rfl rfl c
  have l2 : (⟨[1], [0], [0], [1], [], [], w⟩ : DotDims ⟨2, ![1, J]⟩ ⟨2, ![J, N]⟩ ⟨2, ![1, N]⟩).lhsIdx (ix2 0 n)
      ((contrEquiv1 _ J rfl rfl).symm c) = ix2 0 c := by
    funext ax; apply Fin.ext
    match ax with
    | ⟨0, _⟩ => simp [DotDims.lhsIdx] <;> rfl
    | ⟨1, _⟩ => simp [DotDims.lhsIdx]; exact c2
  have r2 : (⟨[1], [0], [0], [1], [], [], w⟩ : DotDims ⟨2, ![1, J]⟩ ⟨2, ![J, N]⟩ ⟨2, ![1, N]⟩).rhsIdx (ix2 0 n)
      ((contrEquiv1 _ J rfl rfl).symm c) = ix2 c n := by
    funext ax; apply Fin.ext
    match ax with
    | ⟨0, _⟩ => simp [DotDims.rhsIdx]; exact c2
    | ⟨1, _⟩ => simp [DotDims.rhsIdx] <;> rfl
  rw [l2, r2]

section Pay2

/-- The reduced index of the one row, with coordinate `k` put back on the reduced axis, is `(0, k)`. -/
theorem lift_row (hr : S1x512.Reduces [1] S1) (k : Fin 512) : hr.lift (ix1 (0 : Fin 1)) k = ix2 (0 : Fin 1) k := by
  funext a; apply Fin.ext
  match a with
  | ⟨0, _⟩ => rfl
  | ⟨1, _⟩ => rfl

/-- The row's maximum, folded from −∞ and taken once more against −∞, broadcast back over the row. -/
theorem rowMax_apply (S : FVec Ideal S1x512 .f32) (hr : S1x512.Reduces [1] S1) (hc : S1.ShapeCasts S1x1) (hb : S1x1.Broadcasts S1x512)
    (hφ : FKind.Formats .f32) (hacc : (0xFF800000#32 : BitVec 32) = 0xFF800000#32) (j : Fin 512) :
    broadcastTo S1x512 (shapeCast S1x1 (maximumf (broadcast S1 (Scalar.ofBits .f32 0xFF800000#32 : Ideal .f32))
        (multiReduction .maximumf [1] S1 S 0xFF800000#32 hr hφ hacc)) hc) hb (ix2 (0 : Fin 1) j)
      = max (Ideal.ofBits .f32 0xFF800000#32)
          ((Finset.univ : Finset (Fin 512)).fold max (Ideal.ofBits .f32 0xFF800000#32) fun k => S (ix2 (0 : Fin 1) k)) := by
  rw [broadcastTo_apply _ hb (ix2 (0 : Fin 1) j) (ix2 (0 : Fin 1) (0 : Fin 1)) (fun ax => by
    match ax with
    | ⟨0, _⟩ => rfl
    | ⟨1, _⟩ => rfl)]
  rw [shapeCast_a_1a_apply _ hc (0 : Fin 1) (0 : Fin 1), maximumf_apply, broadcast_apply,
    Ideal.multiReduction_maximumf_single S _ hr hφ hacc (ix1 (0 : Fin 1))]
  congr 1
  exact Finset.fold_congr fun k _ => congrArg S (lift_row hr k)

/-- The same as an equation of rows: the broadcast row is constant. -/
theorem rowMax_eq (S : FVec Ideal S1x512 .f32) (hr : S1x512.Reduces [1] S1) (hc : S1.ShapeCasts S1x1) (hb : S1x1.Broadcasts S1x512)
    (hφ : FKind.Formats .f32) (hacc : (0xFF800000#32 : BitVec 32) = 0xFF800000#32) :
    broadcastTo S1x512 (shapeCast S1x1 (maximumf (broadcast S1 (Scalar.ofBits .f32 0xFF800000#32 : Ideal .f32))
        (multiReduction .maximumf [1] S1 S 0xFF800000#32 hr hφ hacc)) hc) hb
      = fun _ => max (Ideal.ofBits .f32 0xFF800000#32)
          ((Finset.univ : Finset (Fin 512)).fold max (Ideal.ofBits .f32 0xFF800000#32) fun k => S (ix2 (0 : Fin 1) k)) := by
  funext i
  obtain ⟨a, j, rfl⟩ : ∃ (a : Fin 1) (j : Fin 512), i = ix2 a j := ⟨i 0, i 1, eq_ix2 i⟩
  obtain rfl : a = 0 := Subsingleton.elim _ _
  exact rowMax_apply S hr hc hb hφ hacc j

/-- The row's sum, broadcast back over the row. -/
theorem rowSum_apply (E : FVec Ideal S1x512 .f32) (hr : S1x512.Reduces [1] S1) (hc : S1.ShapeCasts S1x1) (hb : S1x1.Broadcasts S1x512)
    (hφ : FKind.Formats .f32) (hacc : (0x00000000#32 : BitVec 32) = 0x00000000#32) (j : Fin 512) :
    broadcastTo S1x512 (shapeCast S1x1 (multiReduction .add [1] S1 E 0x00000000#32 hr hφ hacc) hc) hb (ix2 (0 : Fin 1) j)
      = ∑ k : Fin 512, E (ix2 (0 : Fin 1) k) := by
  rw [broadcastTo_apply _ hb (ix2 (0 : Fin 1) j) (ix2 (0 : Fin 1) (0 : Fin 1)) (fun ax => by
    match ax with
    | ⟨0, _⟩ => rfl
    | ⟨1, _⟩ => rfl)]
  rw [shapeCast_a_1a_apply _ hc (0 : Fin 1) (0 : Fin 1), Ideal.multiReduction_add_single E _ hr hφ hacc (ix1 (0 : Fin 1))]
  exact Finset.sum_congr rfl fun k _ => congrArg E (lift_row hr k)

/-- The scores row: the hidden row against each encoder row. -/
theorem scores_apply (h0 : Mat 1 1024) (enc : Mat 512 1024) (j : Fin 512) :
    (matmul dot_S1x1024_S512x1024_S1x512_1_1_0_0_n_n none (truncf .bf16 (h0 : FVec Ideal S1x1024 .f32) bitsLt_bf16_f32)
        (truncf .bf16 (enc : FVec Ideal S512x1024 .f32) bitsLt_bf16_f32) (constant S1x512 .f32 0x00000000#32) : FVec Ideal S1x512 .f32) (ix2 (0 : Fin 1) j)
      = score h0 enc j :=
  matmul_rowT_apply dot_S1x1024_S512x1024_S1x512_1_1_0_0_n_n_wf none _ _ j

/-- The attention payload is the softmax row of the scores. -/
theorem pay2_eq (h0 : Mat 1 1024) (enc : Mat 512 1024) : k0_pay2 (F := Ideal) h0 enc = weightRow h0 enc := by
  funext i
  obtain ⟨a, j, rfl⟩ : ∃ (a : Fin 1) (j : Fin 512), i = ix2 a j := ⟨i 0, i 1, eq_ix2 i⟩
  obtain rfl : a = 0 := Subsingleton.elim _ _
  unfold k0_pay2 k0_pay1
  simp only [shapeCast_self]
  rw [divf_apply, rowSum_apply, rowMax_eq]
  simp only [Idealize.ShloMosaic.exp, subf_apply, scores_apply]
  rfl

end Pay2

section Pay3

/-- The context row: the attention weights against the encoder's columns. -/
theorem ctx_eq (h0 : Mat 1 1024) (enc : Mat 512 1024) :
    (matmul dot_S1x512_S512x1024_S1x1024_1_0_0_1_n_n none (truncf .bf16 (k0_pay2 (F := Ideal) h0 enc) bitsLt_bf16_f32)
        (truncf .bf16 (enc : FVec Ideal S512x1024 .f32) bitsLt_bf16_f32) (constant S1x1024 .f32 0x00000000#32) : FVec Ideal S1x1024 .f32)
      = contextRow h0 enc := by
  funext i
  obtain ⟨a, n, rfl⟩ : ∃ (a : Fin 1) (n : Fin 1024), i = ix2 a n := ⟨i 0, i 1, eq_ix2 i⟩
  obtain rfl : a = 0 := Subsingleton.elim _ _
  refine (matmul_row_apply dot_S1x512_S512x1024_S1x1024_1_0_0_1_n_n_wf none _ _ n).trans ?_
  show ∑ j : Fin 512, k0_pay2 (F := Ideal) h0 enc (ix2 (0 : Fin 1) j) * enc (ix2 j n) = context h0 enc n
  rw [pay2_eq]
  rfl

/-- A row of 2048 against the combine weights, plus the bias, rectified: the rectified affine map at column `n`. -/
theorem combine_apply (X : FVec Ideal S1x2048 .f32) (acw : Mat 1024 2048) (acb : Mat 1 1024) (n : Fin 1024) :
    (maximumf (addf (matmul dot_S1x2048_S1024x2048_S1x1024_1_1_0_0_n_n none (truncf .bf16 X bitsLt_bf16_f32)
          (truncf .bf16 (acw : FVec Ideal S1024x2048 .f32) bitsLt_bf16_f32) (constant S1x1024 .f32 0x00000000#32)) (acb : FVec Ideal S1x1024 .f32))
        (broadcast S1x1024 (Scalar.ofBits .f32 0x00000000#32 : Ideal .f32)) : FVec Ideal S1x1024 .f32) (ix2 (0 : Fin 1) n)
      = reluAffine X acw acb n := by
  rw [maximumf_apply, addf_apply, broadcast_apply]
  refine congrArg (fun z => max (z + acb (ix2 (0 : Fin 1) n)) (Ideal.ofBits .f32 0x00000000#32)) ?_
  exact matmul_rowT_apply dot_S1x2048_S1024x2048_S1x1024_1_1_0_0_n_n_wf none _ _ n

/-- The combine payload: the rectified affine map of the embedding row joined to the context row. -/
theorem pay3_eq (h0 : Mat 1 1024) (enc : Mat 512 1024) (emb : Mat 1 1024) (acw : Mat 1024 2048) (acb : Mat 1 1024) :
    k0_pay3 (F := Ideal) h0 enc emb acw acb
      = fun i => reluAffine (concatenate S1x2048 1 [⟨S1x1024, emb⟩, ⟨S1x1024, contextRow h0 enc⟩] concatenates_S1x1024_S1x1024_S1x2048_d1) acw acb (i 1) := by
  funext i
  obtain ⟨a, n, rfl⟩ : ∃ (a : Fin 1) (n : Fin 1024), i = ix2 a n := ⟨i 0, i 1, eq_ix2 i⟩
  obtain rfl : a = 0 := Subsingleton.elim _ _
  unfold k0_pay3 k0_pay1
  dsimp only
  rw [shapeCast_self (emb : FVec Ideal S1x1024 .f32), shapeCast_self (enc : FVec Ideal S512x1024 .f32),
    shapeCast_self (acb : FVec Ideal S1x1024 .f32), ctx_eq]
  exact combine_apply _ acw acb n

end Pay3
end Cert.KernelIdeal.Hand
end
-- ==== Proof.KI.Val1.lean ====
/- What region 1's two output arrays hold after the region, over the extended reals, index by index: entry n of the
   input-gate row is the activation row against row n of the input weights plus the input bias at n, and likewise
   the hidden-gate row from the hidden row, the hidden weights and the hidden bias. The body's payload is read at an
   index (the matrix product as a sum over the contracted axis, the rounding casts gone); each input block is the
   entry array read where the output block's rectangle says; the three points' blocks cover the row. -/
import proofs.«425490_j31568009626350_3_alg».proof.Proof.KI.Reg1
import proofs.«425490_j31568009626350_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The gate product read at an index -/

theorem gateDot_lhs_0 (i : S1x1024.Idx) (q : dot_S1x1024_S1024x1024_S1x1024_1_1_0_0_n_n.contr.Idx) :
    (dot_S1x1024_S1024x1024_S1x1024_1_1_0_0_n_n.lhsIdx i q 0).val = (i 0).val := by
  unfold DotDims.lhsIdx
  rw [dif_neg (show ¬(0 : Fin S1x1024.rank) ∈ dot_S1x1024_S1024x1024_S1x1024_1_1_0_0_n_n.lhsBatch by decide), dif_pos (show (0 : Fin S1x1024.rank) ∈ dot_S1x1024_S1024x1024_S1x1024_1_1_0_0_n_n.lhsNonContracting by decide)]
  rfl
theorem gateDot_lhs_1 (i : S1x1024.Idx) (q : dot_S1x1024_S1024x1024_S1x1024_1_1_0_0_n_n.contr.Idx) :
    (dot_S1x1024_S1024x1024_S1x1024_1_1_0_0_n_n.lhsIdx i q 1).val = (q ⟨0, by decide⟩).val :=
  dot_S1x1024_S1024x1024_S1x1024_1_1_0_0_n_n.lhsIdx_val_of_single rfl i q
theorem gateDot_rhs_0 (i : S1x1024.Idx) (q : dot_S1x1024_S1024x1024_S1x1024_1_1_0_0_n_n.contr.Idx) :
    (dot_S1x1024_S1024x1024_S1x1024_1_1_0_0_n_n.rhsIdx i q 0).val = (i 1).val := by
  unfold DotDims.rhsIdx
  rw [dif_neg (show ¬(0 : Fin S1024x1024.rank) ∈ dot_S1x1024_S1024x1024_S1x1024_1_1_0_0_n_n.rhsBatch by decide), dif_pos (show (0 : Fin S1024x1024.rank) ∈ dot_S1x1024_S1024x1024_S1x1024_1_1_0_0_n_n.rhsNonContracting by decide)]
  rfl
theorem gateDot_rhs_1 (i : S1x1024.Idx) (q : dot_S1x1024_S1024x1024_S1x1024_1_1_0_0_n_n.contr.Idx) :
    (dot_S1x1024_S1024x1024_S1x1024_1_1_0_0_n_n.rhsIdx i q 1).val = (q ⟨0, by decide⟩).val :=
  dot_S1x1024_S1024x1024_S1x1024_1_1_0_0_n_n.rhsIdx_val_of_single rfl i q

/-- The row-by-block product into the zero splat, at column `q`: the row against row `q` of the block, both
    operands contracted along their second axis. -/
theorem gateDot_apply (a : FVec Ideal S1x1024 .bf16) (b : FVec Ideal S1024x1024 .bf16) (q : Fin 1024) :
    matmul dot_S1x1024_S1024x1024_S1x1024_1_1_0_0_n_n none a b (constant (F := Ideal) S1x1024 .f32 0x00000000#32) (ix2 0 q)
      = ∑ k : Fin 1024, a (ix2 0 k) * b (ix2 q k) := by
  simp only [matmul]
  rw [Ideal.matmul_constant_zero_apply, ← Equiv.sum_comp (contrEquiv1 dot_S1x1024_S1024x1024_S1x1024_1_1_0_0_n_n 1024 rfl rfl).symm]
  refine Finset.sum_congr rfl fun k _ => ?_
  have hk := contrEquiv1_symm_val dot_S1x1024_S1024x1024_S1x1024_1_1_0_0_n_n 1024 rfl rfl k
  have el : dot_S1x1024_S1024x1024_S1x1024_1_1_0_0_n_n.lhsIdx (ix2 0 q) ((contrEquiv1 dot_S1x1024_S1024x1024_S1x1024_1_1_0_0_n_n 1024 rfl rfl).symm k) = ix2 0 k := funext fun a => Fin.ext (by
    match a with
    | ⟨0, _⟩ => exact gateDot_lhs_0 _ _
    | ⟨1, _⟩ => exact (gateDot_lhs_1 _ _).trans hk)
  have er : dot_S1x1024_S1024x1024_S1x1024_1_1_0_0_n_n.rhsIdx (ix2 0 q) ((contrEquiv1 dot_S1x1024_S1024x1024_S1x1024_1_1_0_0_n_n 1024 rfl rfl).symm k) = ix2 q k := funext fun a => Fin.ext (by
    match a with
    | ⟨0, _⟩ => exact gateDot_rhs_0 _ _
    | ⟨1, _⟩ => exact (gateDot_rhs_1 _ _).trans hk)
  rw [el, er]

/-- The input-gate payload at column `q`: the casts are the identity on the extended reals, the product is the sum,
    the bias block is added. -/
theorem pay1_apply (x0 : Vec Ideal S1x1024 .f32) (x2 : Vec Ideal S1024x1024 .f32) (x4 : Vec Ideal S1x1024 .f32) (q : Fin 1024) :
    k1_pay1 x0 x2 x4 (ix2 0 q) = (∑ k : Fin 1024, x0 (ix2 0 k) * x2 (ix2 q k)) + x4 (ix2 0 q) := by
  unfold k1_pay1
  simp only [shapeCast_self]
  refine (addf_apply _ _ _).trans ?_
  refine congrArg (· + x4 (ix2 0 q)) ?_
  exact gateDot_apply _ _ q

/-- The hidden-gate payload at column `q`, likewise. -/
theorem pay2_apply (x1 : Vec Ideal S1x1024 .f32) (x3 : Vec Ideal S1024x1024 .f32) (x5 : Vec Ideal S1x1024 .f32) (q : Fin 1024) :
    k1_pay2 x1 x3 x5 (ix2 0 q) = (∑ k : Fin 1024, x1 (ix2 0 k) * x3 (ix2 q k)) + x5 (ix2 0 q) := by
  unfold k1_pay2
  simp only [shapeCast_self]
  refine (addf_apply _ _ _).trans ?_
  refine congrArg (· + x5 (ix2 0 q)) ?_
  exact gateDot_apply _ _ q

/-! ## The whole row as one function of the entry arrays -/

/-- Entry `i` of a gate row: the one-row `X` against row `i 1` of `W`, plus the bias there. -/
abbrev gateRow (X : S1x1024.Idx → EReal) (W : S3072x1024.Idx → EReal) (B : S1x3072.Idx → EReal) : S1x3072.Idx → EReal :=
  fun i => (∑ k : Fin 1024, X (ix2 0 k) * W (ix2 (i 1) k)) + B (ix2 0 (i 1))

/-- A payload's entry is the row's entry, given that the three loaded blocks are the arrays read at the matching
    coordinates: stated over variables of the literal types, instantiated at the windows' blocks afterwards. -/
theorem pay1_eq_gateRow (x0 : Vec Ideal S1x1024 .f32) (x2 : Vec Ideal S1024x1024 .f32) (x4 : Vec Ideal S1x1024 .f32)
    (X : S1x1024.Idx → EReal) (W : S3072x1024.Idx → EReal) (B : S1x3072.Idx → EReal) (q : Fin 1024) (i : S1x3072.Idx)
    (h0 : ∀ k : Fin 1024, x0 (ix2 0 k) = X (ix2 0 k))
    (h2 : ∀ k : Fin 1024, x2 (ix2 q k) = W (ix2 (i 1) k))
    (h4 : x4 (ix2 0 q) = B (ix2 0 (i 1))) :
    k1_pay1 x0 x2 x4 (ix2 0 q) = gateRow X W B i := by
  rw [pay1_apply, h4]
  exact congrArg (· + B (ix2 0 (i 1))) (Finset.sum_congr rfl fun k _ => by rw [h0 k, h2 k])

theorem pay2_eq_gateRow (x1 : Vec Ideal S1x1024 .f32) (x3 : Vec Ideal S1024x1024 .f32) (x5 : Vec Ideal S1x1024 .f32)
    (X : S1x1024.Idx → EReal) (W : S3072x1024.Idx → EReal) (B : S1x3072.Idx → EReal) (q : Fin 1024) (i : S1x3072.Idx)
    (h1 : ∀ k : Fin 1024, x1 (ix2 0 k) = X (ix2 0 k))
    (h3 : ∀ k : Fin 1024, x3 (ix2 q k) = W (ix2 (i 1) k))
    (h5 : x5 (ix2 0 q) = B (ix2 0 (i 1))) :
    k1_pay2 x1 x3 x5 (ix2 0 q) = gateRow X W B i := by
  rw [pay2_apply, h5]
  exact congrArg (· + B (ix2 0 (i 1))) (Finset.sum_congr rfl fun k _ => by rw [h1 k, h3 k])

/-- An index of a one-row block is its column under row 0. -/
theorem row_idx (j : S1x1024.Idx) : ∃ q : Fin 1024, j = ix2 0 q :=
  ⟨j 1, funext fun a => by
    match a with
    | ⟨0, _⟩ => exact Fin.ext (by have h : (j 0).val < 1 := (j 0).isLt; show (j 0).val = 0; omega)
    | ⟨1, _⟩ => rfl⟩

/-! ## The windows' blocks as the entry arrays read through their rectangles -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the three points: the resident rows sit at block (0, 0); a weight block's row index,
    a bias block's column index and an output block's column index are the point's own coordinate. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = t.val
    ∧ win1_5.index t (0 : Fin 2) = 0 ∧ win1_5.index t (1 : Fin 2) = t.val
    ∧ win1_6.index t (0 : Fin 2) = 0 ∧ win1_6.index t (1 : Fin 2) = t.val
    ∧ win1_7.index t (0 : Fin 2) = 0 ∧ win1_7.index t (1 : Fin 2) = t.val :=
  (by decide +kernel : ∀ t : Fin grid1.N, _)

/-- A block's entry is the array's entry at the block's offset plus the coordinate inside the block. -/
theorem iblk1_0_apply (c : Dev nD) (t : Fin cfg1.N) (x : S1x1024.Idx) (k : S1x1024.Idx)
    (hk0 : (k 0).val = (x 0).val) (hk1 : (k 1).val = (x 1).val) :
    (iblk1 V c 0 t : Vec Ideal S1x1024 .f32) x = (V c main_call0_v16_0 : S1x1024.Idx → Elt Ideal .f32) k := by
  obtain ⟨e00, e01, -⟩ := idx_facts1 t
  unfold iblk1
  rw [View.read_apply]
  show V c main_call0_v16_0 _ = V c main_call0_v16_0 _
  congr 1
  funext a
  apply Fin.ext
  match a with
  | ⟨0, _⟩ => show win1_0.index t 0 * 1 + 1 * (x 0).val = (k 0).val; rw [e00, hk0]; omega
  | ⟨1, _⟩ => show win1_0.index t 1 * 1024 + 1 * (x 1).val = (k 1).val; rw [e01, hk1]; omega

theorem iblk1_1_apply (c : Dev nD) (t : Fin cfg1.N) (x : S1x1024.Idx) (k : S1x1024.Idx)
    (hk0 : (k 0).val = (x 0).val) (hk1 : (k 1).val = (x 1).val) :
    (iblk1 V c 1 t : Vec Ideal S1x1024 .f32) x = (V c main_call0_v11 : S1x1024.Idx → Elt Ideal .f32) k := by
  obtain ⟨-, -, e10, e11, -⟩ := idx_facts1 t
  unfold iblk1
  rw [View.read_apply]
  show V c main_call0_v11 _ = V c main_call0_v11 _
  congr 1
  funext a
  apply Fin.ext
  match a with
  | ⟨0, _⟩ => show win1_1.index t 0 * 1 + 1 * (x 0).val = (k 0).val; rw [e10, hk0]; omega
  | ⟨1, _⟩ => show win1_1.index t 1 * 1024 + 1 * (x 1).val = (k 1).val; rw [e11, hk1]; omega

theorem iblk1_2_apply (c : Dev nD) (t : Fin cfg1.N) (x : S1024x1024.Idx) (k : S3072x1024.Idx)
    (hk0 : (k 0).val = t.val * 1024 + (x 0).val) (hk1 : (k 1).val = (x 1).val) :
    (iblk1 V c 2 t : Vec Ideal S1024x1024 .f32) x = (V c main_arg6 : S3072x1024.Idx → Elt Ideal .f32) k := by
  obtain ⟨-, -, -, -, e20, e21, -⟩ := idx_facts1 t
  unfold iblk1
  rw [View.read_apply]
  show V c main_arg6 _ = V c main_arg6 _
  congr 1
  funext a
  apply Fin.ext
  match a with
  | ⟨0, _⟩ => show win1_2.index t 0 * 1024 + 1 * (x 0).val = (k 0).val; rw [e20, hk0]; omega
  | ⟨1, _⟩ => show win1_2.index t 1 * 1024 + 1 * (x 1).val = (k 1).val; rw [e21, hk1]; omega

theorem iblk1_3_apply (c : Dev nD) (t : Fin cfg1.N) (x : S1024x1024.Idx) (k : S3072x1024.Idx)
    (hk0 : (k 0).val = t.val * 1024 + (x 0).val) (hk1 : (k 1).val = (x 1).val) :
    (iblk1 V c 3 t : Vec Ideal S1024x1024 .f32) x = (V c main_arg7 : S3072x1024.Idx → Elt Ideal .f32) k := by
  obtain ⟨-, -, -, -, -, -, e30, e31, -⟩ := idx_facts1 t
  unfold iblk1
  rw [View.read_apply]
  show V c main_arg7 _ = V c main_arg7 _
  congr 1
  funext a
  apply Fin.ext
  match a with
  | ⟨0, _⟩ => show win1_3.index t 0 * 1024 + 1 * (x 0).val = (k 0).val; rw [e30, hk0]; omega
  | ⟨1, _⟩ => show win1_3.index t 1 * 1024 + 1 * (x 1).val = (k 1).val; rw [e31, hk1]; omega

theorem iblk1_4_apply (c : Dev nD) (t : Fin cfg1.N) (x : S1x1024.Idx) (k : S1x3072.Idx)
    (hk0 : (k 0).val = (x 0).val) (hk1 : (k 1).val = t.val * 1024 + (x 1).val) :
    (iblk1 V c 4 t : Vec Ideal S1x1024 .f32) x = (V c main_call0_v14 : S1x3072.Idx → Elt Ideal .f32) k := by
  obtain ⟨-, -, -, -, -, -, -, -, e40, e41, -⟩ := idx_facts1 t
  unfold iblk1
  rw [View.read_apply]
  show V c main_call0_v14 _ = V c main_call0_v14 _
  congr 1
  funext a
  apply Fin.ext
  match a with
  | ⟨0, _⟩ => show win1_4.index t 0 * 1 + 1 * (x 0).val = (k 0).val; rw [e40, hk0]; omega
  | ⟨1, _⟩ => show win1_4.index t 1 * 1024 + 1 * (x 1).val = (k 1).val; rw [e41, hk1]; omega

theorem iblk1_5_apply (c : Dev nD) (t : Fin cfg1.N) (x : S1x1024.Idx) (k : S1x3072.Idx)
    (hk0 : (k 0).val = (x 0).val) (hk1 : (k 1).val = t.val * 1024 + (x 1).val) :
    (iblk1 V c 5 t : Vec Ideal S1x1024 .f32) x = (V c main_call0_v15 : S1x3072.Idx → Elt Ideal .f32) k := by
  obtain ⟨-, -, -, -, -, -, -, -, -, -, e50, e51, -⟩ := idx_facts1 t
  unfold iblk1
  rw [View.read_apply]
  show V c main_call0_v15 _ = V c main_call0_v15 _
  congr 1
  funext a
  apply Fin.ext
  match a with
  | ⟨0, _⟩ => show win1_5.index t 0 * 1 + 1 * (x 0).val = (k 0).val; rw [e50, hk0]; omega
  | ⟨1, _⟩ => show win1_5.index t 1 * 1024 + 1 * (x 1).val = (k 1).val; rw [e51, hk1]; omega

/-! ## What each point writes back -/

/-- What point `t` writes back to the input-gate row is block `t` of the whole row. -/
theorem flushed1_6_eq (c : Dev nD) (t : Fin cfg1.N) :
    (dat1 V c).flushed 6 t = ((cfg1.win 6).blk t).view.read (Elt Ideal) (gateRow (V c main_call0_v16_0) (V c main_arg6) (V c main_call0_v14)) := by
  show (cfg1.win 6).cut (grid1.coords t) ((dat1 V c).after 6 t) = _
  rw [after1_6]
  unfold out1_6
  rw [View.canon_unit_zero hz]
  simp only [View.ld_unit_zero (S := S1x1024) hz, View.ld_unit_zero (S := S1024x1024) hz]
  obtain ⟨-, -, -, -, -, -, -, -, -, -, -, -, e60, e61, -⟩ := idx_facts1 t
  refine funext fun (j : S1x1024.Idx) => ?_
  obtain ⟨q, rfl⟩ := row_idx j
  show k1_pay1 (iblk1 V c 0 t) (iblk1 V c 2 t) (iblk1 V c 4 t) (ix2 0 q)
    = gateRow (V c main_call0_v16_0) (V c main_arg6) (V c main_call0_v14) (((cfg1.win 6).blk t).view.emb (ix2 0 q))
  have hi1 : ((((cfg1.win 6).blk t).view.emb (ix2 0 q)) 1).val = t.val * 1024 + q.val := by
    show win1_6.index t 1 * 1024 + 1 * q.val = _; rw [e61]; omega
  refine pay1_eq_gateRow (iblk1 V c 0 t) (iblk1 V c 2 t) (iblk1 V c 4 t) _ _ _ q _ (fun k => ?_) (fun k => ?_) ?_
  · exact iblk1_0_apply V c t _ _ rfl rfl
  · exact iblk1_2_apply V c t _ _ hi1 rfl
  · exact iblk1_4_apply V c t _ _ rfl hi1

/-- What point `t` writes back to the hidden-gate row is block `t` of the whole row. -/
theorem flushed1_7_eq (c : Dev nD) (t : Fin cfg1.N) :
    (dat1 V c).flushed 7 t = ((cfg1.win 7).blk t).view.read (Elt Ideal) (gateRow (V c main_call0_v11) (V c main_arg7) (V c main_call0_v15)) := by
  show (cfg1.win 7).cut (grid1.coords t) ((dat1 V c).after 7 t) = _
  rw [after1_7]
  unfold out1_7
  rw [View.canon_unit_zero hz]
  simp only [View.ld_unit_zero (S := S1x1024) hz, View.ld_unit_zero (S := S1024x1024) hz]
  obtain ⟨-, -, -, -, -, -, -, -, -, -, -, -, -, -, e70, e71⟩ := idx_facts1 t
  refine funext fun (j : S1x1024.Idx) => ?_
  obtain ⟨q, rfl⟩ := row_idx j
  show k1_pay2 (iblk1 V c 1 t) (iblk1 V c 3 t) (iblk1 V c 5 t) (ix2 0 q)
    = gateRow (V c main_call0_v11) (V c main_arg7) (V c main_call0_v15) (((cfg1.win 7).blk t).view.emb (ix2 0 q))
  have hi1 : ((((cfg1.win 7).blk t).view.emb (ix2 0 q)) 1).val = t.val * 1024 + q.val := by
    show win1_7.index t 1 * 1024 + 1 * q.val = _; rw [e71]; omega
  refine pay2_eq_gateRow (iblk1 V c 1 t) (iblk1 V c 3 t) (iblk1 V c 5 t) _ _ _ q _ (fun k => ?_) (fun k => ?_) ?_
  · exact iblk1_1_apply V c t _ _ rfl rfl
  · exact iblk1_3_apply V c t _ _ hi1 rfl
  · exact iblk1_5_apply V c t _ _ rfl hi1

/-! ## The three blocks cover the row -/

/-- An index of the row is in point `t`'s block iff each coordinate is in the block's range on its axis. -/
theorem mem_blk1_6 (t : Fin cfg1.N) (i : S1x3072.Idx) :
    i ∈ ((cfg1.win 6).blk t).view.set ↔ ∀ a : Fin 2, win1_6.index t a * S1x1024.size a ≤ (i a).val ∧ (i a).val < win1_6.index t a * S1x1024.size a + S1x1024.size a := by
  show i ∈ ((View.whole main_call0_v17_0).slice (win1_6.rect t)).set ↔ _
  rw [View.set_slice_whole, Rect.mem_set_unit]
  exact Iff.rfl

theorem mem_blk1_7 (t : Fin cfg1.N) (i : S1x3072.Idx) :
    i ∈ ((cfg1.win 7).blk t).view.set ↔ ∀ a : Fin 2, win1_7.index t a * S1x1024.size a ≤ (i a).val ∧ (i a).val < win1_7.index t a * S1x1024.size a + S1x1024.size a := by
  show i ∈ ((View.whole main_call0_v17_1).slice (win1_7.rect t)).set ↔ _
  rw [View.set_slice_whole, Rect.mem_set_unit]
  exact Iff.rfl

/-- Column `n` lies in the block of point `n / 1024`. -/
theorem cover1_6_arr (i : S1x3072.Idx) : ∃ t : Fin cfg1.N, (cfg1.win 6).flush t = true ∧ i ∈ ((cfg1.win 6).blk t).view.set := by
  have hi0 : (i 0).val < 1 := (i 0).isLt
  have hi1 : (i 1).val < 3072 := (i 1).isLt
  have hN : cfg1.N = 3 := N_1
  let t : Fin cfg1.N := ⟨(i 1).val / 1024, by rw [hN]; omega⟩
  obtain ⟨-, -, -, -, -, -, -, -, -, -, -, -, e60, e61, -⟩ := idx_facts1 t
  refine ⟨t, flush1_6 t, ?_⟩
  rw [mem_blk1_6]
  intro a
  have ht : t.val = (i 1).val / 1024 := rfl
  match a with
  | ⟨0, _⟩ => show win1_6.index t (0 : Fin 2) * 1 ≤ (i 0).val ∧ (i 0).val < win1_6.index t (0 : Fin 2) * 1 + 1; rw [e60]; omega
  | ⟨1, _⟩ => show win1_6.index t (1 : Fin 2) * 1024 ≤ (i 1).val ∧ (i 1).val < win1_6.index t (1 : Fin 2) * 1024 + 1024; rw [e61, ht]; omega

theorem cover1_7_arr (i : S1x3072.Idx) : ∃ t : Fin cfg1.N, (cfg1.win 7).flush t = true ∧ i ∈ ((cfg1.win 7).blk t).view.set := by
  have hi0 : (i 0).val < 1 := (i 0).isLt
  have hi1 : (i 1).val < 3072 := (i 1).isLt
  have hN : cfg1.N = 3 := N_1
  let t : Fin cfg1.N := ⟨(i 1).val / 1024, by rw [hN]; omega⟩
  obtain ⟨-, -, -, -, -, -, -, -, -, -, -, -, -, -, e70, e71⟩ := idx_facts1 t
  refine ⟨t, flush1_7 t, ?_⟩
  rw [mem_blk1_7]
  intro a
  have ht : t.val = (i 1).val / 1024 := rfl
  match a with
  | ⟨0, _⟩ => show win1_7.index t (0 : Fin 2) * 1 ≤ (i 0).val ∧ (i 0).val < win1_7.index t (0 : Fin 2) * 1 + 1; rw [e70]; omega
  | ⟨1, _⟩ => show win1_7.index t (1 : Fin 2) * 1024 ≤ (i 1).val ∧ (i 1).val < win1_7.index t (1 : Fin 2) * 1024 + 1024; rw [e71, ht]; omega

/-! ## The arrays after the region -/

/-- The input-gate row after the region is the whole row as one function of the entry arrays. -/
theorem arr1_6 (c : Dev nD) : (dat1 V c).arrAt 6 cfg1.N = gateRow (V c main_call0_v16_0) (V c main_arg6) (V c main_call0_v14) :=
  (dat1 V c).arrAt_eq_of_cover 6 (gateRow (V c main_call0_v16_0) (V c main_arg6) (V c main_call0_v14)) (fun t _ => flushed1_6_eq V c t) cover1_6_arr

/-- The hidden-gate row after the region, likewise. -/
theorem arr1_7 (c : Dev nD) : (dat1 V c).arrAt 7 cfg1.N = gateRow (V c main_call0_v11) (V c main_arg7) (V c main_call0_v15) :=
  (dat1 V c).arrAt_eq_of_cover 7 (gateRow (V c main_call0_v11) (V c main_arg7) (V c main_call0_v15)) (fun t _ => flushed1_7_eq V c t) cover1_7_arr

/-- Entry `n` of the input-gate row: the activation row against row `n` of the input weights, plus the input bias. -/
theorem final1_6 (c : Dev nD) (n : Fin 3072) :
    (dat1 (F := Ideal) V c).arrAt 6 cfg1.N (ix2 0 n)
      = DecoderSpec.affine (K := 1024) (N := 3072) (V c main_call0_v16_0) (V c main_arg6) (V c main_call0_v14) n := by
  rw [arr1_6]
  rfl

/-- Entry `n` of the hidden-gate row: the hidden row against row `n` of the hidden weights, plus the hidden bias. -/
theorem final1_7 (c : Dev nD) (n : Fin 3072) :
    (dat1 (F := Ideal) V c).arrAt 7 cfg1.N (ix2 0 n)
      = DecoderSpec.affine (K := 1024) (N := 3072) (V c main_call0_v11) (V c main_arg7) (V c main_call0_v15) n := by
  rw [arr1_7]
  rfl

end Cert.KernelIdeal.Hand

end
-- ==== Proof.KI.Host0.lean ====
/- The first host stretch of @main and the token. What the stretch leaves in each buffer the first kernel region
   reads, as a term of the launch memory: reshapes of the hidden and encoder arrays, broadcasts of the three bias
   vectors, and the embedding row looked up at the token clipped to the vocabulary's range. Then the token: under
   the precondition the token word is nonnegative, and at a nonnegative token the lookup at the clipped token reads
   the row that the lookup at the token itself reads, because a dynamic slice clamps its start to the table's rows
   and the clip is within that clamp. -/
import proofs.«425490_j31568009626350_3_alg».proof.Proof.KI.Fold
import proofs.«425490_j31568009626350_3_alg».proof.Pre_finite_inputs
import Idealize.ShloMosaic.Lib.StableHlo.Run
import Idealize.ShloMosaic.Lib.Affine
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-! ## What the first host stretch leaves -/

theorem h0K (c : Dev nD) : V1 m c main_call0_v11 = shapeCast _ (m ((c.tc : Thread nD τ).loc main_arg1)) shapeCasts_S1x1x1024_S1x1024 := by
  show StableHlo.after hostOps0 (V0 m c) (Proc.devRef .tc main_call0_v11) = _
  after_results_simp <;> rfl

theorem encK (c : Dev nD) : V1 m c main_call0_v12 = shapeCast _ (m ((c.tc : Thread nD τ).loc main_arg2)) shapeCasts_S512x1x1024_S512x1024 := by
  show StableHlo.after hostOps0 (V0 m c) (Proc.devRef .tc main_call0_v12) = _
  after_results_simp <;> rfl

theorem acbK (c : Dev nD) : V1 m c main_call0_v13 = broadcastInDim S1x1024 ![1] bcast_S1024_S1x1024_1 (m ((c.tc : Thread nD τ).loc main_arg5)) := by
  show StableHlo.after hostOps0 (V0 m c) (Proc.devRef .tc main_call0_v13) = _
  after_results_simp <;> rfl

theorem bihK (c : Dev nD) : V1 m c main_call0_v14 = broadcastInDim S1x3072 ![1] bcast_S3072_S1x3072_1 (m ((c.tc : Thread nD τ).loc main_arg8)) := by
  show StableHlo.after hostOps0 (V0 m c) (Proc.devRef .tc main_call0_v14) = _
  after_results_simp <;> rfl

theorem bhhK (c : Dev nD) : V1 m c main_call0_v15 = broadcastInDim S1x3072 ![1] bcast_S3072_S1x3072_1 (m ((c.tc : Thread nD τ).loc main_arg9)) := by
  show StableHlo.after hostOps0 (V0 m c) (Proc.devRef .tc main_call0_v15) = _
  after_results_simp <;> rfl

theorem acwK (c : Dev nD) : V1 m c main_arg4 = m ((c.tc : Thread nD τ).loc main_arg4) := by
  show StableHlo.after hostOps0 (V0 m c) (Proc.devRef .tc main_arg4) = _
  after_results_simp <;> rfl

/-- The token word as a rank-0 word. -/
abbrev tokR (c : Dev nD) : (⟨S_, .i32⟩ : BufTy).Contents (Elt F) :=
  shapeCast S_ (m ((c.tc : Thread nD τ).loc main_arg0)) shapeCasts_S1_S_

/-- The token word clipped to the vocabulary's range, `min 50256 (max 0 tok)`, as a rank-0 word. -/
abbrev tokK (c : Dev nD) : (⟨S_, .i32⟩ : BufTy).Contents (Elt F) :=
  shapeCast S_ (minsi (broadcastInDim S1 ![] bcast_S_S1 (constantI S_ 32 50256#32))
    (maxsi (broadcastInDim S1 ![] bcast_S_S1 (constantI S_ 32 0#32)) (m ((c.tc : Thread nD τ).loc main_arg0)))) shapeCasts_S1_S_

/-- The row start of the embedding lookup at a token word `t`: `t + 50257` where `t < 0`, else `t`. -/
abbrev rowStart (t : (⟨S_, .i32⟩ : BufTy).Contents (Elt F)) : (⟨S_, .i32⟩ : BufTy).Contents (Elt F) :=
  select (cmpi .slt t (constantI S_ 32 0#32)) (addi t (constantI S_ 32 50257#32)) t

/-- The column start: the printed select over constants. -/
abbrev colStart : (⟨S_, .i32⟩ : BufTy).Contents (Elt F) :=
  select (cmpi .slt (constantI S_ 32 0#32) (constantI S_ 32 0#32)) (addi (constantI S_ 32 0#32) (constantI S_ 32 1024#32)) (constantI S_ 32 0#32)

/-- The embedding row looked up at token word `t`, as a one-row matrix. -/
abbrev embRow (c : Dev nD) (t : (⟨S_, .i32⟩ : BufTy).Contents (Elt F)) : (⟨S1x1024, .f32⟩ : BufTy).Contents (Elt F) :=
  broadcastInDim S1x1024 ![1] bcast_S1024_S1x1024_1 (shapeCast _ (Host.dynamicSlice S1x1024 (m ((c.tc : Thread nD τ).loc main_arg3))
    (fun k => ((![rowStart t, colStart] : Fin 2 → (⟨S_, .i32⟩ : BufTy).Contents (Elt F)) k (Shape.Idx.first h_S_)).toInt)
    sliceFits_S50257x1024_S1x1024) shapeCasts_S1x1024_S1024)

set_option maxHeartbeats 4000000 in
/-- The embedding operand of the first region: the row looked up at the clipped token. The two start words of the
    lookup are read one by one off the stretch's earlier operations. -/
theorem embK (c : Dev nD) : V1 m c main_call0_v10 = embRow m c (tokK m c) := by
  show StableHlo.after hostOps0 (V0 m c) (Proc.devRef .tc main_call0_v10) = _
  after_results_simp
  refine congrArg (fun S : Fin 2 → Int => (broadcastInDim S1x1024 ![1] bcast_S1024_S1x1024_1 (shapeCast _ (Host.dynamicSlice S1x1024 (m ((c.tc : Thread nD τ).loc main_arg3))
    S sliceFits_S50257x1024_S1x1024) shapeCasts_S1x1024_S1024) : (⟨S1x1024, .f32⟩ : BufTy).Contents (Elt F))) ?_
  funext k
  fin_cases k
  · simp only [Matrix.cons_val_zero', Matrix.cons_val_succ', Fin.zero_eta, Fin.mk_one, Matrix.cons_val_zero, Matrix.cons_val_one, Matrix.head_cons]
    after_results_simp <;> rfl
  · simp only [Matrix.cons_val_zero', Matrix.cons_val_succ', Fin.zero_eta, Fin.mk_one, Matrix.cons_val_zero, Matrix.cons_val_one, Matrix.head_cons]
    after_results_simp <;> rfl

/-! ## The token -/

section Token
open Idealize.ShloMosaic.ValueIdx

/-- The one-element vector has one index. -/
theorem idxS1 (k : S1.Idx) : k = ix1 (0 : Fin 1) := by
  funext d
  match d with
  | ⟨0, _⟩ => exact Subsingleton.elim (α := Fin 1) _ _

/-- At a nonnegative word the lookup's row start is the word itself. -/
theorem rowSel_nonneg (t : BitVec 32) (h : 0 ≤ t.toInt) :
    Scalar.select (IntOp.cmpi .slt t 0#32) (IntOp.addi t 50257#32) t = t := by
  unfold Scalar.select
  refine if_neg fun hc => ?_
  have hlt := IntOp.cmpi_slt.mp hc
  have h0 : (0#32 : BitVec 32).toInt = 0 := by decide
  omega

/-- The clipped word `min 50256 (max 0 t)` of a nonnegative word: its signed value is `min t 50256`. -/
theorem clip_toInt (t : BitVec 32) (h : 0 ≤ t.toInt) :
    (IntOp.minsi 50256#32 (IntOp.maxsi 0#32 t)).toInt = min t.toInt 50256 := by
  have h0 : (0#32 : BitVec 32).toInt = 0 := by decide
  have hM : (50256#32 : BitVec 32).toInt = 50256 := by decide
  have hmax : IntOp.maxsi 0#32 t = t := by
    unfold IntOp.maxsi
    rw [if_neg]
    rw [BitVec.slt_iff_toInt_lt]
    omega
  rw [hmax]
  unfold IntOp.minsi
  split
  · rename_i hlt
    rw [BitVec.slt_iff_toInt_lt] at hlt
    rw [hM]; omega
  · rename_i hlt
    rw [BitVec.slt_iff_toInt_lt] at hlt
    omega

/-- A dynamic slice depends on its start only through the clamped start. -/
theorem dynamicSlice_congr {α : Type} {s : Shape} (t : Shape) (x : s.Idx → α) (start start' : Fin s.rank → Int)
    (h : s.Slices (fun _ => 0) t)
    (hadj : ∀ a, min (max (start a) 0) ((s.size a - t.size (a.cast h.1.symm) : Nat) : Int)
      = min (max (start' a) 0) ((s.size a - t.size (a.cast h.1.symm) : Nat) : Int)) :
    Host.dynamicSlice t x start h = Host.dynamicSlice t x start' h := by
  funext j
  unfold Host.dynamicSlice extractStridedSlice
  refine congrArg x (funext fun a => Fin.ext ?_)
  show (min (max (start a) 0) ((s.size a - t.size (a.cast h.1.symm) : Nat) : Int)).toNat + _
    = (min (max (start' a) 0) ((s.size a - t.size (a.cast h.1.symm) : Nat) : Int)).toNat + _
  rw [hadj a]

/-- The token word read at the one index of its rank-0 form. -/
theorem tokR_apply (c : Dev nD) (ix : S_.Idx) :
    tokR m c ix = (m ((c.tc : Thread nD τ).loc main_arg0) : IVec S1 32) (ix1 (0 : Fin 1)) := by
  obtain ⟨K, hK⟩ : ∃ K : S1.Idx, tokR m c ix = (m ((c.tc : Thread nD τ).loc main_arg0) : IVec S1 32) K := ⟨_, rfl⟩
  rw [hK, idxS1 K]

/-- The clipped token word likewise. -/
theorem tokK_apply (c : Dev nD) (ix : S_.Idx) :
    tokK m c ix = IntOp.minsi 50256#32 (IntOp.maxsi 0#32 ((m ((c.tc : Thread nD τ).loc main_arg0) : IVec S1 32) (ix1 (0 : Fin 1)))) := by
  obtain ⟨K, hK⟩ : ∃ K : S1.Idx, tokK m c ix
      = IntOp.minsi 50256#32 (IntOp.maxsi 0#32 ((m ((c.tc : Thread nD τ).loc main_arg0) : IVec S1 32) K)) := ⟨_, rfl⟩
  rw [hK, idxS1 K]

/-- The row start read at an index: the select of the word's sign test. -/
theorem rowStart_apply (t : (⟨S_, .i32⟩ : BufTy).Contents (Elt F)) (ix : S_.Idx) :
    rowStart t ix = Scalar.select (IntOp.cmpi .slt (t ix) 0#32) (IntOp.addi (t ix) 50257#32) (t ix) := rfl

/-- Two lookups in the embedding table whose row starts agree after the clamp to the table's rows, with one
    column start, read the same block. -/
theorem dynamicSlice_row_congr (c : Dev nD) (R R' C : (⟨S_, .i32⟩ : BufTy).Contents (Elt F))
    (hrow : min (max (R (Shape.Idx.first h_S_)).toInt 0) ((50257 - 1 : Nat) : Int)
      = min (max (R' (Shape.Idx.first h_S_)).toInt 0) ((50257 - 1 : Nat) : Int)) :
    Host.dynamicSlice S1x1024 (m ((c.tc : Thread nD τ).loc main_arg3)) (fun k => ((![R, C] : Fin 2 → (⟨S_, .i32⟩ : BufTy).Contents (Elt F)) k (Shape.Idx.first h_S_)).toInt)
        sliceFits_S50257x1024_S1x1024
      = Host.dynamicSlice S1x1024 (m ((c.tc : Thread nD τ).loc main_arg3)) (fun k => ((![R', C] : Fin 2 → (⟨S_, .i32⟩ : BufTy).Contents (Elt F)) k (Shape.Idx.first h_S_)).toInt)
        sliceFits_S50257x1024_S1x1024 := by
  refine dynamicSlice_congr _ _ _ _ _ fun a => ?_
  match a with
  | ⟨0, _⟩ => exact hrow
  | ⟨1, _⟩ => rfl

/-- With a nonnegative token the lookup at the clipped token reads the row the lookup at the token itself reads:
    the slice's start is clamped to the table's rows, and the clip is within that clamp. -/
theorem gather_eq (c : Dev nD) (h : 0 ≤ ((m ((c.tc : Thread nD τ).loc main_arg0) : IVec S1 32) (ix1 (0 : Fin 1))).toInt) :
    embRow m c (tokK m c) = embRow m c (tokR m c) := by
  have hc := clip_toInt _ h
  have hrow : min (max (rowStart (tokK m c) (Shape.Idx.first h_S_)).toInt 0) ((50257 - 1 : Nat) : Int)
      = min (max (rowStart (tokR m c) (Shape.Idx.first h_S_)).toInt 0) ((50257 - 1 : Nat) : Int) := by
    rw [rowStart_apply, rowStart_apply, tokK_apply, tokR_apply, rowSel_nonneg _ h, rowSel_nonneg _ (by rw [hc]; omega), hc]
    omega
  show broadcastInDim S1x1024 ![1] bcast_S1024_S1x1024_1 (shapeCast _ (Host.dynamicSlice S1x1024 _ _ sliceFits_S50257x1024_S1x1024) shapeCasts_S1x1024_S1024)
    = broadcastInDim S1x1024 ![1] bcast_S1024_S1x1024_1 (shapeCast _ (Host.dynamicSlice S1x1024 _ _ sliceFits_S50257x1024_S1x1024) shapeCasts_S1x1024_S1024)
  rw [dynamicSlice_row_congr m c (rowStart (tokK m c)) (rowStart (tokR m c)) colStart hrow]

end Token

/-! ## The token is nonnegative under the precondition -/

section Pre
open Idealize.ShloMosaic.ValueIdx
variable [Cert.Pre_finite_inputs.Facts]

/-- The printed precondition's last conjunct is the token word's sign test. -/
theorem fn_tok_nonneg (a0 : IVec Cert.Pre_finite_inputs.S1 32) (a1 : FVec F Cert.Pre_finite_inputs.S1x1x1024 .f32)
    (a2 : FVec F Cert.Pre_finite_inputs.S512x1x1024 .f32) (a3 : FVec F Cert.Pre_finite_inputs.S50257x1024 .f32)
    (a4 : FVec F Cert.Pre_finite_inputs.S1024x2048 .f32) (a5 : FVec F Cert.Pre_finite_inputs.S1024 .f32)
    (a6 : FVec F Cert.Pre_finite_inputs.S3072x1024 .f32) (a7 : FVec F Cert.Pre_finite_inputs.S3072x1024 .f32)
    (a8 : FVec F Cert.Pre_finite_inputs.S3072 .f32) (a9 : FVec F Cert.Pre_finite_inputs.S3072 .f32)
    (a10 : FVec F Cert.Pre_finite_inputs.S50257x1024 .f32) (a11 : FVec F Cert.Pre_finite_inputs.S50257 .f32)
    (h : Cert.Pre_finite_inputs.fn (F := F) a0 a1 a2 a3 a4 a5 a6 a7 a8 a9 a10 a11 = fun _ => 1#1) :
    0 ≤ (a0 (ix1 (0 : Fin 1))).toInt := by
  have h0 := congrFun h ValueIdx.ix0
  change Cert.Pre_finite_inputs.fn_part3 (F := F) a0 _ _ _ ValueIdx.ix0 = 1#1 at h0
  unfold Cert.Pre_finite_inputs.fn_part3 at h0
  dsimp only at h0
  have h1 : IntOp.cmpi .sge (shapeCast Cert.Pre_finite_inputs.S_ a0 Cert.Pre_finite_inputs.Facts.shapeCasts_S1_S_ ValueIdx.ix0) 0#32 = 1#1 :=
    (IntOp.andi_eq_one.mp h0).2
  rw [IntOp.cmpi_sge] at h1
  obtain ⟨K, hK⟩ : ∃ K : S1.Idx, shapeCast Cert.Pre_finite_inputs.S_ a0 Cert.Pre_finite_inputs.Facts.shapeCasts_S1_S_ ValueIdx.ix0 = a0 K := ⟨_, rfl⟩
  rw [hK, idxS1 K] at h1
  have hz : (0#32 : BitVec 32).toInt = 0 := by decide
  omega

end Pre

/-! ## At the launch memory -/

section AtLaunch
open Idealize.ShloMosaic.ValueIdx
variable [Cert.Pre_finite_inputs.Facts]

/-- Under the printed precondition at the launch memory's argument arrays, the token word is nonnegative. -/
theorem tok_nonneg (c : Dev nD)
    (h : Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) = fun _ => 1#1) :
    0 ≤ ((m ((c.tc : Thread nD τ).loc main_arg0) : IVec S1 32) (ix1 (0 : Fin 1))).toInt :=
  fn_tok_nonneg _ _ _ _ _ _ _ _ _ _ _ _ h

/-- So under the precondition the first region's embedding operand is the row looked up at the token itself. -/
theorem gather_of_pre (c : Dev nD)
    (h : Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) = fun _ => 1#1) :
    V1 m c main_call0_v10 = embRow m c (tokR m c) :=
  (embK m c).trans (gather_eq m c (tok_nonneg m c h))

end AtLaunch

end Cert.KernelIdeal.Hand
end
-- ==== Proof.Chains.lean ====
/- The two elementwise chains both programs run on the host after the gate products, as functions of their operands
   over literal shapes: one step of the gated recurrent unit from the two gate rows and the hidden row, and the
   log-softmax along a row; with the two layout steps beside them (a bias vector as a one-row matrix, a row under a
   leading unit axis). Stated once, over the library's operations alone, so that each program's composed term is one
   of these applied to that program's operands. -/
import Idealize.ShloMosaic.PureOps

noncomputable section

namespace Cert.DecoderChains

open Idealize.ShloMosaic

variable {F : FTy → Type} [FloatOps F]

/-! ## The shapes and the facts the operations take -/

abbrev S_ : Shape := ⟨0, ![]⟩
abbrev S1 : Shape := ⟨1, ![1]⟩
abbrev S1x1 : Shape := ⟨2, ![1, 1]⟩
abbrev S1x1024 : Shape := ⟨2, ![1, 1024]⟩
abbrev S1x3072 : Shape := ⟨2, ![1, 3072]⟩
abbrev S50257 : Shape := ⟨1, ![50257]⟩
abbrev S1x50257 : Shape := ⟨2, ![1, 50257]⟩
abbrev S1x1x1024 : Shape := ⟨3, ![1, 1, 1024]⟩

theorem h_S_ : 0 < S_.numel := by decide
theorem bcast_S_S1 : S_.BroadcastsInDim S1 (![] : Fin 0 → Fin S1.rank) := by decide
theorem bcast_S_S1x1024 : S_.BroadcastsInDim S1x1024 (![] : Fin 0 → Fin S1x1024.rank) := by decide
theorem slices_S1x3072_S1x1024_0_0 : S1x3072.Slices ![0, 0] S1x1024 := by decide
theorem slices_S1x3072_S1x1024_0_1024 : S1x3072.Slices ![0, 1024] S1x1024 := by decide
theorem slices_S1x3072_S1x1024_0_2048 : S1x3072.Slices ![0, 2048] S1x1024 := by decide
theorem bcast_S50257_S1x50257_1 : S50257.BroadcastsInDim S1x50257 (![1] : Fin 1 → Fin S1x50257.rank) := by decide
theorem reducesTo_S1x50257_S1_d1 : S1x50257.ReducesTo [1] S1 := by decide
theorem bcast_S1_S1x1_0 : S1.BroadcastsInDim S1x1 (![0] : Fin 1 → Fin S1x1.rank) := by decide
theorem bcast_S1x1_S1x50257_0_1 : S1x1.BroadcastsInDim S1x50257 (![0, 1] : Fin 2 → Fin S1x50257.rank) := by decide
theorem bcast_S1x1024_S1x1x1024_1_2 : S1x1024.BroadcastsInDim S1x1x1024 (![1, 2] : Fin 2 → Fin S1x1x1024.rank) := by decide

/-! ## One step of the gated recurrent unit -/

/-- The row of ones. -/
def ones : FVec F S1x1024 .f32 :=
  broadcastInDim S1x1024 ![] bcast_S_S1x1024 (constant (F := F) S_ .f32 0x3F800000#32)

/-- The logistic function along a row as the host spells it: one over one plus the exponential of the negation. -/
def logisticRow (u : FVec F S1x1024 .f32) : FVec F S1x1024 .f32 :=
  Host.divf (ones (F := F)) (addf (ones (F := F)) (Host.exp (Host.negf u)))

/-- The three thirds of a gate row: the reset, update and candidate parts. -/
def resetPart (g : FVec F S1x3072 .f32) : FVec F S1x1024 .f32 :=
  extractStridedSlice S1x1024 ![0, 0] g slices_S1x3072_S1x1024_0_0
def updatePart (g : FVec F S1x3072 .f32) : FVec F S1x1024 .f32 :=
  extractStridedSlice S1x1024 ![0, 1024] g slices_S1x3072_S1x1024_0_1024
def candPart (g : FVec F S1x3072 .f32) : FVec F S1x1024 .f32 :=
  extractStridedSlice S1x1024 ![0, 2048] g slices_S1x3072_S1x1024_0_2048

/-- The new hidden row from the input-gate row `gi`, the hidden-gate row `gh` and the hidden row `h0`: with r and z the
    logistic of the summed reset and update parts and n the hyperbolic tangent of the input candidate plus r times the
    hidden candidate, (1 − z) · n + z · h0. -/
def gruStep (gi gh : FVec F S1x3072 .f32) (h0 : FVec F S1x1024 .f32) : FVec F S1x1024 .f32 :=
  addf
    (mulf (subf (ones (F := F)) (logisticRow (addf (updatePart gi) (updatePart gh))))
      (Host.tanh (addf (candPart gi) (mulf (logisticRow (addf (resetPart gi) (resetPart gh))) (candPart gh)))))
    (mulf (logisticRow (addf (updatePart gi) (updatePart gh))) h0)

/-! ## The log-softmax along a row -/

/-- A one-entry vector along the row. -/
def alongRow (v : FVec F S1 .f32) : FVec F S1x50257 .f32 :=
  broadcastInDim S1x50257 ![0, 1] bcast_S1x1_S1x50257_0_1 (broadcastInDim S1x1 ![0] bcast_S1_S1x1_0 v)

/-- The row less its largest entry (the maximum folded from −∞, taken once more against −∞). -/
def shiftedRow (z : FVec F S1x50257 .f32) : FVec F S1x50257 .f32 :=
  subf z (alongRow (maximumf (broadcastInDim S1 ![] bcast_S_S1 (constant (F := F) S_ .f32 0xFF800000#32))
    (Host.reduce FloatOps.maximumf z (constant (F := F) S_ .f32 0xFF800000#32) reducesTo_S1x50257_S1_d1 h_S_)))

/-- The log-softmax: the shifted row less the logarithm of the sum of its exponentials. -/
def logSoftmaxRow (z : FVec F S1x50257 .f32) : FVec F S1x50257 .f32 :=
  subf (shiftedRow z)
    (broadcastInDim S1x50257 ![0, 1] bcast_S1x1_S1x50257_0_1
      (Host.log (broadcastInDim S1x1 ![0] bcast_S1_S1x1_0
        (Host.reduceAdd (Host.exp (shiftedRow z)) (constant (F := F) S_ .f32 0x00000000#32) reducesTo_S1x50257_S1_d1 h_S_))))

/-! ## The two layout steps -/

/-- A bias vector as a one-row matrix. -/
def biasRow (b : FVec F S50257 .f32) : FVec F S1x50257 .f32 :=
  broadcastInDim S1x50257 ![1] bcast_S50257_S1x50257_1 b

/-- A row under a leading unit axis. -/
def underUnitAxis (h : FVec F S1x1024 .f32) : FVec F S1x1x1024 .f32 :=
  broadcastInDim S1x1x1024 ![1, 2] bcast_S1x1024_S1x1x1024_1_2 h

end Cert.DecoderChains

end
-- ==== Proof.KI.Host23.lean ====
/- The two stretches of host operations the program runs after its gate products, read as the shared chains: the
   stretch before the output product leaves one step of the gated recurrent unit in the new hidden row and the output
   bias as a one-row matrix; the tail leaves the log-softmax of the logits row and the new hidden row under a leading
   unit axis. For any contents the stretches find. -/
import proofs.«425490_j31568009626350_3_alg».proof.Proof.Gen.KernelIdeal.Regions
import proofs.«425490_j31568009626350_3_alg».proof.Proof.Chains
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo
open Cert.DecoderChains (gruStep logSoftmaxRow biasRow underUnitAxis)

variable {F : FTy → Type} [FloatOps F]

/-- The host stretch between the gate products and the output product leaves, in the new hidden row's buffer, one
    step of the gated recurrent unit of the two gate rows and the hidden row as the stretch finds them. -/
theorem gru_after (W : Valuation τ sig (Elt F)) :
    StableHlo.after (hostOps2 (F := F)) W (Proc.devRef .tc main_call0_v45)
      = gruStep (W (Proc.devRef .tc main_call0_v17_0)) (W (Proc.devRef .tc main_call0_v17_1)) (W (Proc.devRef .tc main_call0_v11)) := by
  dsimp only [hostOps2]
  after_results_simp
  rfl

/-- and, in the output bias row's buffer, the bias vector as a one-row matrix. -/
theorem ob2_after (W : Valuation τ sig (Elt F)) :
    StableHlo.after (hostOps2 (F := F)) W (Proc.devRef .tc main_call0_v46) = biasRow (W (Proc.devRef .tc main_arg11)) := by
  dsimp only [hostOps2]
  after_results_simp
  rfl

/-! The tail's operations are a called function's, stated over typed references: each value passes through its
    buffer's own contents type and back. The passages are removed by equations before the chain is compared, so that
    the two reductions over the long row are compared operand by operand and never unfolded. -/

/-- A value moved to its buffer's contents type and back is the value. -/
theorem ofBuf_toBuf {T : BufTy} (x : TRef sig T) (v : T.Contents (Elt F)) : x.ofBuf (x.toBuf v) = v := by
  obtain ⟨r, h, h1, h2⟩ := x
  subst h
  rfl

/-- At the literal references of the tail the lone passages are the identity. -/
theorem toBuf_out0 (v : FVec F S1x50257 .f32) :
    (TRef.of main_v0_0 : TRef sig ⟨S1x50257, .f32⟩).toBuf (Val := Elt F) v = v := rfl
theorem ofBuf_logits (w : (Proc.devRef (τ := τ) .tc main_call0_v47).ty.Contents (Elt F)) :
    (TRef.of main_call0_v47 : TRef sig ⟨S1x50257, .f32⟩).ofBuf (Val := Elt F) w = w := rfl

/-- The tail leaves, in the first result's buffer, the log-softmax of the logits row as the tail finds it, -/
theorem lsm_after (W : Valuation τ sig (Elt F)) :
    StableHlo.after (hostOps3 (F := F)) W (Proc.devRef .tc main_v0_0) = logSoftmaxRow (W (Proc.devRef .tc main_call0_v47)) := by
  dsimp only [hostOps3]
  after_results_simp
  simp only [ofBuf_toBuf, toBuf_out0, ofBuf_logits]
  rfl

/-- and, in the second result's buffer, the new hidden row under a leading unit axis. -/
theorem hnew_after (W : Valuation τ sig (Elt F)) :
    StableHlo.after (hostOps3 (F := F)) W (Proc.devRef .tc main_v0_1) = underUnitAxis (W (Proc.devRef .tc main_call0_v45)) := by
  dsimp only [hostOps3]
  after_results_simp
  rfl

end Cert.KernelIdeal.Hand

end
-- ==== Proof.RefSpec.lean ====
/- The reference's stages against the specification, over the extended reals: the attention weights and the context
   row are the specification's; the rectified combination, the two gate rows and the logits are each the one-row
   operand against the rows of a weight matrix plus a bias. Each host product is read as a sum over the contracted
   axis with the transposed operand read back through its transpose; the maximum over the positions is the fold of
   max from −∞; the sum over the positions starts from the zero word. -/
import proofs.«425490_j31568009626350_3_alg».proof.Proof.RefRead
import proofs.«425490_j31568009626350_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.ReferenceIdeal.RefSpec

open Cert.ReferenceIdeal.ReadP
open Cert.ReferenceIdeal Cert.ReferenceIdeal.Gen Cert.DecoderSpec Idealize.ShloMosaic Idealize.ShloMosaic.ValueIdx

/-! ## Indices of one-row matrices -/

/-- An index of a one-row matrix is its column under row 0. -/
theorem row512 (i : S1x512.Idx) : i = ix2 0 (i 1) := funext fun a => by
  match a with
  | ⟨0, _⟩ => exact Fin.ext (by have h : (i 0).val < 1 := (i 0).isLt; show (i 0).val = 0; omega)
  | ⟨1, _⟩ => rfl
theorem row1024 (i : S1x1024.Idx) : i = ix2 0 (i 1) := funext fun a => by
  match a with
  | ⟨0, _⟩ => exact Fin.ext (by have h : (i 0).val < 1 := (i 0).isLt; show (i 0).val = 0; omega)
  | ⟨1, _⟩ => rfl

/-! ## The attention scores and their softmax -/

/-- A score: the hidden row against an encoder row (the transposed operand read back through the transpose). -/
theorem ref_score (x1 : (⟨S1x1x1024, .f32⟩ : BufTy).Contents (Elt Ideal)) (x2 : (⟨S512x1x1024, .f32⟩ : BufTy).Contents (Elt Ideal)) (i : S1x512.Idx) :
    val_main_v13 (F := Ideal) x1 x2 i = score (val_main_v11 (F := Ideal) x1) (val_main_v10 (F := Ideal) x2) (i 1) := by
  rw [val_main_v13_apply]
  unfold score
  refine Finset.sum_congr rfl fun k _ => ?_
  rw [val_main_v12_apply]
  have e1 : lidx_main_v13 i k = ix2 0 k := funext fun a => by
    match a with
    | ⟨0, _⟩ => exact Fin.ext (by have h : (i 0).val < 1 := (i 0).isLt; show (i 0).val = 0; omega)
    | ⟨1, _⟩ => rfl
  have e2 : idx_main_v12 (ridx_main_v13 i k) = ix2 (i 1) k := funext fun a => by
    match a with
    | ⟨0, _⟩ => rfl
    | ⟨1, _⟩ => rfl
  rw [e1, e2]
  rfl

/-- The maximum over the positions, folded from −∞: the reduce over the one axis is the fold over its coordinates. -/
theorem ref_max (x1 : (⟨S1x1x1024, .f32⟩ : BufTy).Contents (Elt Ideal)) (x2 : (⟨S512x1x1024, .f32⟩ : BufTy).Contents (Elt Ideal)) (j : S1.Idx) :
    val_main_v14 (F := Ideal) x1 x2 j
      = (Finset.univ : Finset (Fin 512)).fold max (Ideal.ofBits .f32 0xFF800000#32) (score (val_main_v11 (F := Ideal) x1) (val_main_v10 (F := Ideal) x2)) := by
  unfold val_main_v14
  have h : S1x512.Reduces [1] S1 := by decide
  rw [Host.reduce_eq_fold_single FloatOps.maximumf _ _ reducesTo_S1x512_S1_d1 h h_S_]
  have hf : (val_main_v13 (F := Ideal) x1 x2 ∘ h.lift j) = fun k : Fin 512 => score (val_main_v11 (F := Ideal) x1) (val_main_v10 (F := Ideal) x2) k :=
    funext fun k => by
      show val_main_v13 (F := Ideal) x1 x2 (h.lift j k) = _
      rw [ref_score]
      rfl
  exact congrArg (fun f => Finset.fold max (Ideal.ofBits .f32 0xFF800000#32) f (Finset.univ : Finset (Fin 512))) hf

/-- The largest score, broadcast along the row. -/
theorem ref_top (x1 : (⟨S1x1x1024, .f32⟩ : BufTy).Contents (Elt Ideal)) (x2 : (⟨S512x1x1024, .f32⟩ : BufTy).Contents (Elt Ideal)) (i : S1x512.Idx) :
    val_main_v18 (F := Ideal) x1 x2 i = top (val_main_v11 (F := Ideal) x1) (val_main_v10 (F := Ideal) x2) := by
  rw [val_main_v18_apply, val_main_v17_apply, val_main_v16_apply, val_main_v15_apply, val_main_cst_6_apply, ref_max]
  rfl

/-- The exponential of a shifted score. -/
theorem ref_shifted (x1 : (⟨S1x1x1024, .f32⟩ : BufTy).Contents (Elt Ideal)) (x2 : (⟨S512x1x1024, .f32⟩ : BufTy).Contents (Elt Ideal)) (i : S1x512.Idx) :
    val_main_v20 (F := Ideal) x1 x2 i = shifted (val_main_v11 (F := Ideal) x1) (val_main_v10 (F := Ideal) x2) (i 1) := by
  rw [val_main_v20_apply, val_main_v19_apply, ref_score, ref_top]
  rfl

/-- The softmax's denominator, broadcast along the row: the sum from the zero word. -/
theorem ref_mass (x1 : (⟨S1x1x1024, .f32⟩ : BufTy).Contents (Elt Ideal)) (x2 : (⟨S512x1x1024, .f32⟩ : BufTy).Contents (Elt Ideal)) (i : S1x512.Idx) :
    val_main_v23 (F := Ideal) x1 x2 i = mass (val_main_v11 (F := Ideal) x1) (val_main_v10 (F := Ideal) x2) := by
  rw [val_main_v23_apply, val_main_v22_apply, val_main_v21_apply, val_main_cst_7_apply]
  show Ideal.ofBits .f32 0x00000000#32 + _ = _
  rw [Ideal.ofBits_zero_f32, zero_add]
  unfold mass
  refine Finset.sum_congr rfl fun k _ => ?_
  rw [ref_shifted]
  rfl

/-- (1) The attention weights. -/
theorem ref_weights (x1 : (⟨S1x1x1024, .f32⟩ : BufTy).Contents (Elt Ideal)) (x2 : (⟨S512x1x1024, .f32⟩ : BufTy).Contents (Elt Ideal)) :
    val_main_v24 (F := Ideal) x1 x2 = weightRow (val_main_v11 (F := Ideal) x1) (val_main_v10 (F := Ideal) x2) := by
  funext i
  rw [val_main_v24_apply, ref_shifted, ref_mass]
  rfl

/-- (2) The context row: the weights against the encoder's columns. -/
theorem ref_context (x1 : (⟨S1x1x1024, .f32⟩ : BufTy).Contents (Elt Ideal)) (x2 : (⟨S512x1x1024, .f32⟩ : BufTy).Contents (Elt Ideal)) :
    val_main_v25 (F := Ideal) x1 x2 = contextRow (val_main_v11 (F := Ideal) x1) (val_main_v10 (F := Ideal) x2) := by
  funext i
  rw [val_main_v25_apply, ref_weights]
  show _ = ∑ j : Fin 512, weight (val_main_v11 (F := Ideal) x1) (val_main_v10 (F := Ideal) x2) j * val_main_v10 (F := Ideal) x2 (ix2 j (i 1))
  refine Finset.sum_congr rfl fun k _ => ?_
  have e2 : ridx_main_v25 i k = ix2 k (i 1) := funext fun a => by
    match a with
    | ⟨0, _⟩ => rfl
    | ⟨1, _⟩ => rfl
  rw [e2]
  rfl

/-! ## The three matrix-vector products with bias -/

/-- (3) The rectified combination: the joined row against the combining weights, plus the bias, against zero. -/
theorem ref_x (x0 : (⟨S1, .i32⟩ : BufTy).Contents (Elt Ideal)) (x1 : (⟨S1x1x1024, .f32⟩ : BufTy).Contents (Elt Ideal)) (x2 : (⟨S512x1x1024, .f32⟩ : BufTy).Contents (Elt Ideal)) (x3 : (⟨S50257x1024, .f32⟩ : BufTy).Contents (Elt Ideal)) (x4 : (⟨S1024x2048, .f32⟩ : BufTy).Contents (Elt Ideal)) (x5 : (⟨S1024, .f32⟩ : BufTy).Contents (Elt Ideal)) :
    val_main_v31 (F := Ideal) x0 x1 x2 x3 x4 x5
      = fun i => reluAffine (K := 2048) (N := 1024)
          (concatenate S1x2048 1 [⟨S1x1024, val_main_v9 (F := Ideal) x0 x3⟩, ⟨S1x1024, val_main_v25 (F := Ideal) x1 x2⟩] concatenates_S1x1024_S1x1024_S1x2048_d1)
          x4 (val_main_v29 (F := Ideal) x5) (i 1) := by
  funext i
  rw [val_main_v31_apply, val_main_v30_apply, val_main_v28_apply, val_main_call0_v0_apply, val_main_call0_cst_apply]
  unfold val_main_v26
  generalize (concatenate S1x2048 1 [⟨S1x1024, val_main_v9 (F := Ideal) x0 x3⟩, ⟨S1x1024, val_main_v25 (F := Ideal) x1 x2⟩] concatenates_S1x1024_S1x1024_S1x2048_d1 : (⟨S1x2048, .f32⟩ : BufTy).Contents (Elt Ideal)) = y
  unfold reluAffine affine
  have hb : val_main_v29 (F := Ideal) x5 i = val_main_v29 (F := Ideal) x5 (ix2 0 (i 1)) := congrArg _ (row1024 i)
  rw [hb]
  refine congrArg (fun z => max (z + val_main_v29 (F := Ideal) x5 (ix2 0 (i 1))) (Ideal.ofBits .f32 0x00000000#32)) ?_
  refine Finset.sum_congr rfl fun k _ => ?_
  rw [val_main_v27_apply]
  have e1 : lidx_main_v28 i k = ix2 0 k := funext fun a => by
    match a with
    | ⟨0, _⟩ => exact Fin.ext (by have h : (i 0).val < 1 := (i 0).isLt; show (i 0).val = 0; omega)
    | ⟨1, _⟩ => rfl
  have e2 : idx_main_v27 (ridx_main_v28 i k) = ix2 (i 1) k := funext fun a => by
    match a with
    | ⟨0, _⟩ => rfl
    | ⟨1, _⟩ => rfl
  rw [e1, e2]
  rfl

/-- (4) The input gates: the rectified row against the input weights' rows, plus the input bias. -/
theorem ref_gi (x0 : (⟨S1, .i32⟩ : BufTy).Contents (Elt Ideal)) (x1 : (⟨S1x1x1024, .f32⟩ : BufTy).Contents (Elt Ideal)) (x2 : (⟨S512x1x1024, .f32⟩ : BufTy).Contents (Elt Ideal)) (x3 : (⟨S50257x1024, .f32⟩ : BufTy).Contents (Elt Ideal)) (x4 : (⟨S1024x2048, .f32⟩ : BufTy).Contents (Elt Ideal)) (x5 : (⟨S1024, .f32⟩ : BufTy).Contents (Elt Ideal)) (x6 : (⟨S3072x1024, .f32⟩ : BufTy).Contents (Elt Ideal)) (x8 : (⟨S3072, .f32⟩ : BufTy).Contents (Elt Ideal)) (n : Fin 3072) :
    val_main_v35 (F := Ideal) x0 x1 x2 x3 x4 x5 x6 x8 (ix2 0 n)
      = affine (K := 1024) (N := 3072) (val_main_v31 (F := Ideal) x0 x1 x2 x3 x4 x5) x6 (val_main_v34 (F := Ideal) x8) n := by
  rw [val_main_v35_apply, val_main_v33_apply]
  generalize val_main_v31 (F := Ideal) x0 x1 x2 x3 x4 x5 = y
  unfold affine
  refine congrArg (fun z => z + val_main_v34 (F := Ideal) x8 (ix2 0 n)) ?_
  refine Finset.sum_congr rfl fun k _ => ?_
  rw [val_main_v32_apply]
  have e1 : lidx_main_v33 (ix2 0 n) k = ix2 0 k := funext fun a => by
    match a with
    | ⟨0, _⟩ => rfl
    | ⟨1, _⟩ => rfl
  have e2 : idx_main_v32 (ridx_main_v33 (ix2 0 n) k) = ix2 n k := funext fun a => by
    match a with
    | ⟨0, _⟩ => rfl
    | ⟨1, _⟩ => rfl
  rw [e1, e2]

/-- (5) The hidden gates: the hidden row against the hidden weights' rows, plus the hidden bias. -/
theorem ref_gh (x1 : (⟨S1x1x1024, .f32⟩ : BufTy).Contents (Elt Ideal)) (x7 : (⟨S3072x1024, .f32⟩ : BufTy).Contents (Elt Ideal)) (x9 : (⟨S3072, .f32⟩ : BufTy).Contents (Elt Ideal)) (n : Fin 3072) :
    val_main_v39 (F := Ideal) x1 x7 x9 (ix2 0 n)
      = affine (K := 1024) (N := 3072) (val_main_v11 (F := Ideal) x1) x7 (val_main_v38 (F := Ideal) x9) n := by
  rw [val_main_v39_apply, val_main_v37_apply]
  generalize val_main_v11 (F := Ideal) x1 = y
  unfold affine
  refine congrArg (fun z => z + val_main_v38 (F := Ideal) x9 (ix2 0 n)) ?_
  refine Finset.sum_congr rfl fun k _ => ?_
  rw [val_main_v36_apply]
  have e1 : lidx_main_v37 (ix2 0 n) k = ix2 0 k := funext fun a => by
    match a with
    | ⟨0, _⟩ => rfl
    | ⟨1, _⟩ => rfl
  have e2 : idx_main_v36 (ridx_main_v37 (ix2 0 n) k) = ix2 n k := funext fun a => by
    match a with
    | ⟨0, _⟩ => rfl
    | ⟨1, _⟩ => rfl
  rw [e1, e2]

/-- (6) The logits: the new hidden row against the output weights' rows, plus the output bias. -/
theorem ref_logits (x0 : (⟨S1, .i32⟩ : BufTy).Contents (Elt Ideal)) (x1 : (⟨S1x1x1024, .f32⟩ : BufTy).Contents (Elt Ideal)) (x2 : (⟨S512x1x1024, .f32⟩ : BufTy).Contents (Elt Ideal)) (x3 : (⟨S50257x1024, .f32⟩ : BufTy).Contents (Elt Ideal)) (x4 : (⟨S1024x2048, .f32⟩ : BufTy).Contents (Elt Ideal)) (x5 : (⟨S1024, .f32⟩ : BufTy).Contents (Elt Ideal)) (x6 x7 : (⟨S3072x1024, .f32⟩ : BufTy).Contents (Elt Ideal)) (x8 x9 : (⟨S3072, .f32⟩ : BufTy).Contents (Elt Ideal)) (x10 : (⟨S50257x1024, .f32⟩ : BufTy).Contents (Elt Ideal)) (x11 : (⟨S50257, .f32⟩ : BufTy).Contents (Elt Ideal)) (n : Fin 50257) :
    val_main_v71 (F := Ideal) x0 x1 x2 x3 x4 x5 x6 x7 x8 x9 x10 x11 (ix2 0 n)
      = affine (K := 1024) (N := 50257) (val_main_v67 (F := Ideal) x0 x1 x2 x3 x4 x5 x6 x7 x8 x9) x10 (val_main_v70 (F := Ideal) x11) n := by
  rw [val_main_v71_apply, val_main_v69_apply]
  generalize val_main_v67 (F := Ideal) x0 x1 x2 x3 x4 x5 x6 x7 x8 x9 = y
  unfold affine
  refine congrArg (fun z => z + val_main_v70 (F := Ideal) x11 (ix2 0 n)) ?_
  refine Finset.sum_congr rfl fun k _ => ?_
  rw [val_main_v68_apply]
  have e1 : lidx_main_v69 (ix2 0 n) k = ix2 0 k := funext fun a => by
    match a with
    | ⟨0, _⟩ => rfl
    | ⟨1, _⟩ => rfl
  have e2 : idx_main_v68 (ridx_main_v69 (ix2 0 n) k) = ix2 n k := funext fun a => by
    match a with
    | ⟨0, _⟩ => rfl
    | ⟨1, _⟩ => rfl
  rw [e1, e2]

end Cert.ReferenceIdeal.RefSpec

end
-- ==== Proof.RefChains.lean ====
/- The reference's two host chains as the shared chains: its new hidden row is one step of the gated recurrent unit
   of its two gate rows and its hidden row; its first result is the log-softmax of its logits row; the output bias and
   the second result are the two layout steps. Each by unfolding the stages of the chain down to its operands. -/
import proofs.«425490_j31568009626350_3_alg».proof.Proof.RefRead
import proofs.«425490_j31568009626350_3_alg».proof.Proof.Chains

noncomputable section

namespace Cert.ReferenceIdeal.RefSpec

open Cert.ReferenceIdeal.ReadP
open Cert.ReferenceIdeal Cert.ReferenceIdeal.Gen Idealize.ShloMosaic
open Cert.DecoderChains (gruStep logSoftmaxRow biasRow underUnitAxis)

variable {F : FTy → Type} [FloatOps F]

/-- The new hidden row is one step of the gated recurrent unit of the two gate rows and the hidden row. -/
theorem ref_hnew (x0 : (⟨S1, .i32⟩ : BufTy).Contents (Elt F)) (x1 : (⟨S1x1x1024, .f32⟩ : BufTy).Contents (Elt F)) (x2 : (⟨S512x1x1024, .f32⟩ : BufTy).Contents (Elt F)) (x3 : (⟨S50257x1024, .f32⟩ : BufTy).Contents (Elt F)) (x4 : (⟨S1024x2048, .f32⟩ : BufTy).Contents (Elt F)) (x5 : (⟨S1024, .f32⟩ : BufTy).Contents (Elt F)) (x6 x7 : (⟨S3072x1024, .f32⟩ : BufTy).Contents (Elt F)) (x8 x9 : (⟨S3072, .f32⟩ : BufTy).Contents (Elt F)) :
    val_main_v67 (F := F) x0 x1 x2 x3 x4 x5 x6 x7 x8 x9
      = gruStep (val_main_v35 (F := F) x0 x1 x2 x3 x4 x5 x6 x8) (val_main_v39 (F := F) x1 x7 x9) (val_main_v11 (F := F) x1) := by
  unfold val_main_v67 val_main_v65 val_main_v66 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_cst_8 val_main_cst_9 val_main_cst_10 val_main_cst_11 val_main_cst_12
  generalize val_main_v35 (F := F) x0 x1 x2 x3 x4 x5 x6 x8 = gi
  generalize val_main_v39 (F := F) x1 x7 x9 = gh
  generalize val_main_v11 (F := F) x1 = h0
  rfl

/-- The output bias as a one-row matrix. -/
theorem ref_ob2 (x11 : (⟨S50257, .f32⟩ : BufTy).Contents (Elt F)) : val_main_v70 (F := F) x11 = biasRow x11 := by
  unfold val_main_v70
  rfl

/-- The first result is the log-softmax of the logits row. -/
theorem ref_logp (x0 : (⟨S1, .i32⟩ : BufTy).Contents (Elt F)) (x1 : (⟨S1x1x1024, .f32⟩ : BufTy).Contents (Elt F)) (x2 : (⟨S512x1x1024, .f32⟩ : BufTy).Contents (Elt F)) (x3 : (⟨S50257x1024, .f32⟩ : BufTy).Contents (Elt F)) (x4 : (⟨S1024x2048, .f32⟩ : BufTy).Contents (Elt F)) (x5 : (⟨S1024, .f32⟩ : BufTy).Contents (Elt F)) (x6 x7 : (⟨S3072x1024, .f32⟩ : BufTy).Contents (Elt F)) (x8 x9 : (⟨S3072, .f32⟩ : BufTy).Contents (Elt F)) (x10 : (⟨S50257x1024, .f32⟩ : BufTy).Contents (Elt F)) (x11 : (⟨S50257, .f32⟩ : BufTy).Contents (Elt F)) :
    val_main_v72 (F := F) x0 x1 x2 x3 x4 x5 x6 x7 x8 x9 x10 x11 = logSoftmaxRow (val_main_v71 (F := F) x0 x1 x2 x3 x4 x5 x6 x7 x8 x9 x10 x11) := by
  unfold val_main_v72 val_main_call1_v10 val_main_call1_v9 val_main_call1_v8 val_main_call1_v7 val_main_call1_v6 val_main_call1_v5 val_main_call1_v4 val_main_call1_v3 val_main_call1_v2 val_main_call1_v1 val_main_call1_v0 val_main_call1_cst val_main_call1_cst_0 val_main_call1_cst_1
  generalize val_main_v71 (F := F) x0 x1 x2 x3 x4 x5 x6 x7 x8 x9 x10 x11 = z
  rfl

/-- The second result is the new hidden row under a leading unit axis. -/
theorem ref_hout (x0 : (⟨S1, .i32⟩ : BufTy).Contents (Elt F)) (x1 : (⟨S1x1x1024, .f32⟩ : BufTy).Contents (Elt F)) (x2 : (⟨S512x1x1024, .f32⟩ : BufTy).Contents (Elt F)) (x3 : (⟨S50257x1024, .f32⟩ : BufTy).Contents (Elt F)) (x4 : (⟨S1024x2048, .f32⟩ : BufTy).Contents (Elt F)) (x5 : (⟨S1024, .f32⟩ : BufTy).Contents (Elt F)) (x6 x7 : (⟨S3072x1024, .f32⟩ : BufTy).Contents (Elt F)) (x8 x9 : (⟨S3072, .f32⟩ : BufTy).Contents (Elt F)) :
    val_main_v73 (F := F) x0 x1 x2 x3 x4 x5 x6 x7 x8 x9 = underUnitAxis (val_main_v67 (F := F) x0 x1 x2 x3 x4 x5 x6 x7 x8 x9) := by
  unfold val_main_v73
  generalize val_main_v67 (F := F) x0 x1 x2 x3 x4 x5 x6 x7 x8 x9 = h
  rfl

end Cert.ReferenceIdeal.RefSpec

end
-- ==== Proof.KI.Bridge.lean ====
/-
  The two idealized programs compute the same three results. Along @main, under the token being a valid row number:
  what the kernel program's first host stretch leaves are the reference's own first stages; region 0's two outputs are
  the reference's attention weights and rectified combination (both the specification's formulas); region 1's two
  outputs are the reference's gate pre-activations; the gate recombination is one chain on both sides; region 2's
  output is the reference's logits; the log-softmax is one chain on both sides.
-/
import proofs.«425490_j31568009626350_3_alg».proof.Defs
import proofs.«425490_j31568009626350_3_alg».proof.Proof.KI.Results
import proofs.«425490_j31568009626350_3_alg».proof.Proof.KI.Val0
import proofs.«425490_j31568009626350_3_alg».proof.Proof.KI.Val1
import proofs.«425490_j31568009626350_3_alg».proof.Proof.KI.Host0
import proofs.«425490_j31568009626350_3_alg».proof.Proof.KI.Host23
import proofs.«425490_j31568009626350_3_alg».proof.Proof.RefSpec
import proofs.«425490_j31568009626350_3_alg».proof.Proof.RefChains

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Cert.DecoderSpec Cert.DecoderChains
open Cert.ReferenceIdeal.ReadP (val_main_v9 val_main_v10 val_main_v11 val_main_v24 val_main_v25 val_main_v29 val_main_v31 val_main_v34 val_main_v35
  val_main_v38 val_main_v39 val_main_v67 val_main_v70 val_main_v71 val_main_v72 val_main_v73)
open Cert.ReferenceIdeal.RefSpec

variable (m : (ℓ : Loc nD τ sig) → Buf (Elt Ideal) ℓ) (c : Dev nD)

/-- The argument arrays on core `c`. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)
abbrev a11 := m ((c.tc : Thread nD τ).loc main_arg11)

/-! ## An argument array is untouched up to each item -/

theorem V1_arg0 : V1 m c main_arg0 = a0 m c := V1_of m c main_arg0 (by decide)
theorem W2_arg0 : W2 m c main_arg0 = a0 m c := (W2_of m c main_arg0 (by decide)).trans (V1_arg0 m c)
theorem W3_arg0 : W3 m c main_arg0 = a0 m c := (W3_of m c main_arg0 (by decide)).trans (W2_arg0 m c)
theorem W4_arg0 : W4 m c main_arg0 = a0 m c := (V4_of m (outs m) c main_arg0 (by decide)).trans (W3_arg0 m c)
theorem V1_arg1 : V1 m c main_arg1 = a1 m c := V1_of m c main_arg1 (by decide)
theorem W2_arg1 : W2 m c main_arg1 = a1 m c := (W2_of m c main_arg1 (by decide)).trans (V1_arg1 m c)
theorem W3_arg1 : W3 m c main_arg1 = a1 m c := (W3_of m c main_arg1 (by decide)).trans (W2_arg1 m c)
theorem W4_arg1 : W4 m c main_arg1 = a1 m c := (V4_of m (outs m) c main_arg1 (by decide)).trans (W3_arg1 m c)
theorem V1_arg2 : V1 m c main_arg2 = a2 m c := V1_of m c main_arg2 (by decide)
theorem W2_arg2 : W2 m c main_arg2 = a2 m c := (W2_of m c main_arg2 (by decide)).trans (V1_arg2 m c)
theorem W3_arg2 : W3 m c main_arg2 = a2 m c := (W3_of m c main_arg2 (by decide)).trans (W2_arg2 m c)
theorem W4_arg2 : W4 m c main_arg2 = a2 m c := (V4_of m (outs m) c main_arg2 (by decide)).trans (W3_arg2 m c)
theorem V1_arg3 : V1 m c main_arg3 = a3 m c := V1_of m c main_arg3 (by decide)
theorem W2_arg3 : W2 m c main_arg3 = a3 m c := (W2_of m c main_arg3 (by decide)).trans (V1_arg3 m c)
theorem W3_arg3 : W3 m c main_arg3 = a3 m c := (W3_of m c main_arg3 (by decide)).trans (W2_arg3 m c)
theorem W4_arg3 : W4 m c main_arg3 = a3 m c := (V4_of m (outs m) c main_arg3 (by decide)).trans (W3_arg3 m c)
theorem V1_arg4 : V1 m c main_arg4 = a4 m c := V1_of m c main_arg4 (by decide)
theorem W2_arg4 : W2 m c main_arg4 = a4 m c := (W2_of m c main_arg4 (by decide)).trans (V1_arg4 m c)
theorem W3_arg4 : W3 m c main_arg4 = a4 m c := (W3_of m c main_arg4 (by decide)).trans (W2_arg4 m c)
theorem W4_arg4 : W4 m c main_arg4 = a4 m c := (V4_of m (outs m) c main_arg4 (by decide)).trans (W3_arg4 m c)
theorem V1_arg5 : V1 m c main_arg5 = a5 m c := V1_of m c main_arg5 (by decide)
theorem W2_arg5 : W2 m c main_arg5 = a5 m c := (W2_of m c main_arg5 (by decide)).trans (V1_arg5 m c)
theorem W3_arg5 : W3 m c main_arg5 = a5 m c := (W3_of m c main_arg5 (by decide)).trans (W2_arg5 m c)
theorem W4_arg5 : W4 m c main_arg5 = a5 m c := (V4_of m (outs m) c main_arg5 (by decide)).trans (W3_arg5 m c)
theorem V1_arg6 : V1 m c main_arg6 = a6 m c := V1_of m c main_arg6 (by decide)
theorem W2_arg6 : W2 m c main_arg6 = a6 m c := (W2_of m c main_arg6 (by decide)).trans (V1_arg6 m c)
theorem W3_arg6 : W3 m c main_arg6 = a6 m c := (W3_of m c main_arg6 (by decide)).trans (W2_arg6 m c)
theorem W4_arg6 : W4 m c main_arg6 = a6 m c := (V4_of m (outs m) c main_arg6 (by decide)).trans (W3_arg6 m c)
theorem V1_arg7 : V1 m c main_arg7 = a7 m c := V1_of m c main_arg7 (by decide)
theorem W2_arg7 : W2 m c main_arg7 = a7 m c := (W2_of m c main_arg7 (by decide)).trans (V1_arg7 m c)
theorem W3_arg7 : W3 m c main_arg7 = a7 m c := (W3_of m c main_arg7 (by decide)).trans (W2_arg7 m c)
theorem W4_arg7 : W4 m c main_arg7 = a7 m c := (V4_of m (outs m) c main_arg7 (by decide)).trans (W3_arg7 m c)
theorem V1_arg8 : V1 m c main_arg8 = a8 m c := V1_of m c main_arg8 (by decide)
theorem W2_arg8 : W2 m c main_arg8 = a8 m c := (W2_of m c main_arg8 (by decide)).trans (V1_arg8 m c)
theorem W3_arg8 : W3 m c main_arg8 = a8 m c := (W3_of m c main_arg8 (by decide)).trans (W2_arg8 m c)
theorem W4_arg8 : W4 m c main_arg8 = a8 m c := (V4_of m (outs m) c main_arg8 (by decide)).trans (W3_arg8 m c)
theorem V1_arg9 : V1 m c main_arg9 = a9 m c := V1_of m c main_arg9 (by decide)
theorem W2_arg9 : W2 m c main_arg9 = a9 m c := (W2_of m c main_arg9 (by decide)).trans (V1_arg9 m c)
theorem W3_arg9 : W3 m c main_arg9 = a9 m c := (W3_of m c main_arg9 (by decide)).trans (W2_arg9 m c)
theorem W4_arg9 : W4 m c main_arg9 = a9 m c := (V4_of m (outs m) c main_arg9 (by decide)).trans (W3_arg9 m c)
theorem V1_arg10 : V1 m c main_arg10 = a10 m c := V1_of m c main_arg10 (by decide)
theorem W2_arg10 : W2 m c main_arg10 = a10 m c := (W2_of m c main_arg10 (by decide)).trans (V1_arg10 m c)
theorem W3_arg10 : W3 m c main_arg10 = a10 m c := (W3_of m c main_arg10 (by decide)).trans (W2_arg10 m c)
theorem W4_arg10 : W4 m c main_arg10 = a10 m c := (V4_of m (outs m) c main_arg10 (by decide)).trans (W3_arg10 m c)
theorem V1_arg11 : V1 m c main_arg11 = a11 m c := V1_of m c main_arg11 (by decide)
theorem W2_arg11 : W2 m c main_arg11 = a11 m c := (W2_of m c main_arg11 (by decide)).trans (V1_arg11 m c)
theorem W3_arg11 : W3 m c main_arg11 = a11 m c := (W3_of m c main_arg11 (by decide)).trans (W2_arg11 m c)
theorem W4_arg11 : W4 m c main_arg11 = a11 m c := (V4_of m (outs m) c main_arg11 (by decide)).trans (W3_arg11 m c)

/-! ## The first host stretch -/

theorem h0_eq : V1 m c main_call0_v11 = val_main_v11 (F := Ideal) (a1 m c) := h0K m c
theorem enc_eq : V1 m c main_call0_v12 = val_main_v10 (F := Ideal) (a2 m c) := encK m c
theorem acb_eq : V1 m c main_call0_v13 = val_main_v29 (F := Ideal) (a5 m c) := acbK m c
theorem bih_eq : V1 m c main_call0_v14 = val_main_v34 (F := Ideal) (a8 m c) := bihK m c
theorem bhh_eq : V1 m c main_call0_v15 = val_main_v38 (F := Ideal) (a9 m c) := bhhK m c

/-- The gathered embedding row is the reference's, the token being a valid row number. -/
theorem emb_eq (htok : 0 ≤ ((a0 m c : IVec S1 32) (ix1 0)).toInt) :
    V1 m c main_call0_v10 = val_main_v9 (F := Ideal) (a0 m c) (a3 m c) :=
  ((embK m c).trans (gather_eq m c htok)).trans rfl

/-! ## Region 0: the attention weights and the rectified combination -/

theorem weights_eq : W2 m c main_v0_2 = val_main_v24 (F := Ideal) (a1 m c) (a2 m c) :=
  calc W2 m c main_v0_2 = (dat0 (tcOf (V1 m)) c).arrAt 6 cfg0.N := (hF0_6 m c).symm
    _ = k0_pay2 (F := Ideal) (V1 m c main_call0_v11) (V1 m c main_call0_v12) := final0_6 (F := Ideal) (tcOf (V1 m)) c
    _ = k0_pay2 (F := Ideal) (val_main_v11 (F := Ideal) (a1 m c)) (val_main_v10 (F := Ideal) (a2 m c)) := by rw [h0_eq, enc_eq]
    _ = weightRow (val_main_v11 (F := Ideal) (a1 m c)) (val_main_v10 (F := Ideal) (a2 m c)) := pay2_eq _ _
    _ = val_main_v24 (F := Ideal) (a1 m c) (a2 m c) := (ref_weights _ _).symm

theorem x_eq (htok : 0 ≤ ((a0 m c : IVec S1 32) (ix1 0)).toInt) :
    W2 m c main_call0_v16_0 = val_main_v31 (F := Ideal) (a0 m c) (a1 m c) (a2 m c) (a3 m c) (a4 m c) (a5 m c) :=
  calc W2 m c main_call0_v16_0 = (dat0 (tcOf (V1 m)) c).arrAt 5 cfg0.N := (hF0_5 m c).symm
    _ = k0_pay3 (F := Ideal) (V1 m c main_call0_v11) (V1 m c main_call0_v12) (V1 m c main_call0_v10) (V1 m c main_arg4) (V1 m c main_call0_v13) :=
        final0_5 (F := Ideal) (tcOf (V1 m)) c
    _ = k0_pay3 (F := Ideal) (val_main_v11 (F := Ideal) (a1 m c)) (val_main_v10 (F := Ideal) (a2 m c)) (val_main_v9 (F := Ideal) (a0 m c) (a3 m c)) (a4 m c)
          (val_main_v29 (F := Ideal) (a5 m c)) := by rw [h0_eq, enc_eq, emb_eq m c htok, V1_arg4, acb_eq]
    _ = val_main_v31 (F := Ideal) (a0 m c) (a1 m c) (a2 m c) (a3 m c) (a4 m c) (a5 m c) := by rw [pay3_eq, ref_x, ref_context]

/-! ## Region 1: the gate pre-activations -/

theorem gi_eq (htok : 0 ≤ ((a0 m c : IVec S1 32) (ix1 0)).toInt) :
    W3 m c main_call0_v17_0 = val_main_v35 (F := Ideal) (a0 m c) (a1 m c) (a2 m c) (a3 m c) (a4 m c) (a5 m c) (a6 m c) (a8 m c) := by
  funext i
  obtain ⟨r, n, rfl⟩ : ∃ (r : Fin 1) (n : Fin 3072), i = ix2 r n := ⟨i 0, i 1, eq_ix2 i⟩
  obtain rfl : r = 0 := Subsingleton.elim _ _
  calc W3 m c main_call0_v17_0 (ix2 0 n) = (dat1 (tcOf (W2 m)) c).arrAt 6 cfg1.N (ix2 0 n) := congrFun (hF1_6 m c).symm _
    _ = affine (K := 1024) (N := 3072) (W2 m c main_call0_v16_0) (W2 m c main_arg6) (W2 m c main_call0_v14) n := final1_6 (tcOf (W2 m)) c n
    _ = affine (K := 1024) (N := 3072) (val_main_v31 (F := Ideal) (a0 m c) (a1 m c) (a2 m c) (a3 m c) (a4 m c) (a5 m c)) (a6 m c) (val_main_v34 (F := Ideal) (a8 m c)) n := by
        rw [x_eq m c htok, W2_arg6, W2_of m c main_call0_v14 (by decide), bih_eq]
    _ = val_main_v35 (F := Ideal) (a0 m c) (a1 m c) (a2 m c) (a3 m c) (a4 m c) (a5 m c) (a6 m c) (a8 m c) (ix2 0 n) := (ref_gi _ _ _ _ _ _ _ _ n).symm

theorem gh_eq : W3 m c main_call0_v17_1 = val_main_v39 (F := Ideal) (a1 m c) (a7 m c) (a9 m c) := by
  funext i
  obtain ⟨r, n, rfl⟩ : ∃ (r : Fin 1) (n : Fin 3072), i = ix2 r n := ⟨i 0, i 1, eq_ix2 i⟩
  obtain rfl : r = 0 := Subsingleton.elim _ _
  calc W3 m c main_call0_v17_1 (ix2 0 n) = (dat1 (tcOf (W2 m)) c).arrAt 7 cfg1.N (ix2 0 n) := congrFun (hF1_7 m c).symm _
    _ = affine (K := 1024) (N := 3072) (W2 m c main_call0_v11) (W2 m c main_arg7) (W2 m c main_call0_v15) n := final1_7 (tcOf (W2 m)) c n
    _ = affine (K := 1024) (N := 3072) (val_main_v11 (F := Ideal) (a1 m c)) (a7 m c) (val_main_v38 (F := Ideal) (a9 m c)) n := by
        rw [W2_of m c main_call0_v11 (by decide), h0_eq, W2_arg7, W2_of m c main_call0_v15 (by decide), bhh_eq]
    _ = val_main_v39 (F := Ideal) (a1 m c) (a7 m c) (a9 m c) (ix2 0 n) := (ref_gh _ _ _ n).symm

/-! ## The gate recombination: one chain on both sides -/

theorem hnew_eq (htok : 0 ≤ ((a0 m c : IVec S1 32) (ix1 0)).toInt) :
    W4 m c main_call0_v45 = val_main_v67 (F := Ideal) (a0 m c) (a1 m c) (a2 m c) (a3 m c) (a4 m c) (a5 m c) (a6 m c) (a7 m c) (a8 m c) (a9 m c) :=
  calc W4 m c main_call0_v45 = gruStep (F := Ideal) (W3 m c main_call0_v17_0) (W3 m c main_call0_v17_1) (W3 m c main_call0_v11) := gru_after (W3 m c)
    _ = gruStep (F := Ideal) (val_main_v35 (F := Ideal) (a0 m c) (a1 m c) (a2 m c) (a3 m c) (a4 m c) (a5 m c) (a6 m c) (a8 m c)) (val_main_v39 (F := Ideal) (a1 m c) (a7 m c) (a9 m c)) (val_main_v11 (F := Ideal) (a1 m c)) := by
        rw [gi_eq m c htok, gh_eq, W3_of m c main_call0_v11 (by decide), W2_of m c main_call0_v11 (by decide), h0_eq]
    _ = val_main_v67 (F := Ideal) (a0 m c) (a1 m c) (a2 m c) (a3 m c) (a4 m c) (a5 m c) (a6 m c) (a7 m c) (a8 m c) (a9 m c) := (ref_hnew _ _ _ _ _ _ _ _ _ _).symm

theorem ob2_eq : W4 m c main_call0_v46 = val_main_v70 (F := Ideal) (a11 m c) :=
  calc W4 m c main_call0_v46 = biasRow (F := Ideal) (W3 m c main_arg11) := ob2_after (W3 m c)
    _ = biasRow (F := Ideal) (a11 m c) := by rw [W3_arg11]
    _ = val_main_v70 (F := Ideal) (a11 m c) := (ref_ob2 _).symm

/-! ## Region 2: the logits -/

theorem logits_eq (htok : 0 ≤ ((a0 m c : IVec S1 32) (ix1 0)).toInt) :
    W5 m c main_call0_v47 = val_main_v71 (F := Ideal) (a0 m c) (a1 m c) (a2 m c) (a3 m c) (a4 m c) (a5 m c) (a6 m c) (a7 m c) (a8 m c) (a9 m c) (a10 m c) (a11 m c) := by
  funext i
  obtain ⟨r, n, rfl⟩ : ∃ (r : Fin 1) (n : Fin 50257), i = ix2 r n := ⟨i 0, i 1, eq_ix2 i⟩
  obtain rfl : r = 0 := Subsingleton.elim _ _
  calc W5 m c main_call0_v47 (ix2 0 n) = (dat2 (tcOf (W4 m)) c).arrAt 3 cfg2.N (ix2 0 n) := congrFun (hF2_3 m c).symm _
    _ = affine (K := 1024) (N := 50257) (W4 m c main_call0_v45) (W4 m c main_arg10) (W4 m c main_call0_v46) n := final2_3_affine (tcOf (W4 m)) c n
    _ = affine (K := 1024) (N := 50257) (val_main_v67 (F := Ideal) (a0 m c) (a1 m c) (a2 m c) (a3 m c) (a4 m c) (a5 m c) (a6 m c) (a7 m c) (a8 m c) (a9 m c)) (a10 m c) (val_main_v70 (F := Ideal) (a11 m c)) n := by
        rw [hnew_eq m c htok, W4_arg10, ob2_eq]
    _ = val_main_v71 (F := Ideal) (a0 m c) (a1 m c) (a2 m c) (a3 m c) (a4 m c) (a5 m c) (a6 m c) (a7 m c) (a8 m c) (a9 m c) (a10 m c) (a11 m c) (ix2 0 n) := (ref_logits _ _ _ _ _ _ _ _ _ _ _ _ n).symm

/-! ## The three results -/

theorem res0_eq (htok : 0 ≤ ((a0 m c : IVec S1 32) (ix1 0)).toInt) :
    W6 m c main_v0_0 = val_main_v72 (F := Ideal) (a0 m c) (a1 m c) (a2 m c) (a3 m c) (a4 m c) (a5 m c) (a6 m c) (a7 m c) (a8 m c) (a9 m c) (a10 m c) (a11 m c) :=
  calc W6 m c main_v0_0 = logSoftmaxRow (F := Ideal) (W5 m c main_call0_v47) := lsm_after (W5 m c)
    _ = logSoftmaxRow (F := Ideal) (val_main_v71 (F := Ideal) (a0 m c) (a1 m c) (a2 m c) (a3 m c) (a4 m c) (a5 m c) (a6 m c) (a7 m c) (a8 m c) (a9 m c) (a10 m c) (a11 m c)) := by rw [logits_eq m c htok]
    _ = val_main_v72 (F := Ideal) (a0 m c) (a1 m c) (a2 m c) (a3 m c) (a4 m c) (a5 m c) (a6 m c) (a7 m c) (a8 m c) (a9 m c) (a10 m c) (a11 m c) := (ref_logp _ _ _ _ _ _ _ _ _ _ _ _).symm

theorem res1_eq (htok : 0 ≤ ((a0 m c : IVec S1 32) (ix1 0)).toInt) :
    W6 m c main_v0_1 = val_main_v73 (F := Ideal) (a0 m c) (a1 m c) (a2 m c) (a3 m c) (a4 m c) (a5 m c) (a6 m c) (a7 m c) (a8 m c) (a9 m c) :=
  calc W6 m c main_v0_1 = underUnitAxis (F := Ideal) (W5 m c main_call0_v45) := hnew_after (W5 m c)
    _ = underUnitAxis (F := Ideal) (val_main_v67 (F := Ideal) (a0 m c) (a1 m c) (a2 m c) (a3 m c) (a4 m c) (a5 m c) (a6 m c) (a7 m c) (a8 m c) (a9 m c)) := by rw [W5_of m c main_call0_v45 (by decide), hnew_eq m c htok]
    _ = val_main_v73 (F := Ideal) (a0 m c) (a1 m c) (a2 m c) (a3 m c) (a4 m c) (a5 m c) (a6 m c) (a7 m c) (a8 m c) (a9 m c) := (ref_hout _ _ _ _ _ _ _ _ _ _).symm

theorem res2_eq : W6 m c main_v0_2 = val_main_v24 (F := Ideal) (a1 m c) (a2 m c) :=
  calc W6 m c main_v0_2 = W5 m c main_v0_2 := V6_of m (outs m) c main_v0_2 (by decide)
    _ = W4 m c main_v0_2 := W5_of m c main_v0_2 (by decide)
    _ = W3 m c main_v0_2 := V4_of m (outs m) c main_v0_2 (by decide)
    _ = W2 m c main_v0_2 := W3_of m c main_v0_2 (by decide)
    _ = val_main_v24 (F := Ideal) (a1 m c) (a2 m c) := weights_eq m c

end Cert.KernelIdeal.Hand

end
-- ==== Proof.RefRun.lean ====
/- The reference's @main run, read stretch by stretch. Its operation list is cut into seven stretches: the token,
   the embedded row and the reshaped encoder rows and hidden row; the attention weights and the context row; the
   joined row, the combining product and its rectification; the two gate rows; the gates' recombination into the new
   hidden row; the logits row; the log-softmax of the logits and the new hidden row under a unit axis. For any
   contents a stretch finds, each buffer a later stretch or the result reads is left at its stage, given that the
   buffers the stretch reads hold theirs, and every buffer it does not write is left as found. Chained through the
   seven stretches, the three results after the whole list are at their stages of the arguments' launch contents, and
   the run ends with the results there and the arguments unchanged. -/
import proofs.«425490_j31568009626350_3_alg».proof.Proof.RefOps
import proofs.«425490_j31568009626350_3_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-! ## The operation list cut into seven stretches -/

/-- Operations 1 to 19. -/
abbrev ops1 : List (HloOp τ sig (Elt F)) :=
  [ reshape main_arg0 main_v0 rfl shapeCasts_S1_S_,
    nullary main_c (constantI S_ 32 0#32),
    binary main_v0 main_c main_v1 (cmpi .slt : (⟨S_, .i32⟩ : BufTy).Contents (Elt F) → (⟨S_, .i32⟩ : BufTy).Contents (Elt F) → (⟨S_, .i1⟩ : BufTy).Contents (Elt F)),
    nullary main_c_0 (constantI S_ 32 50257#32),
    binary main_v0 main_c_0 main_v2 (addi : (⟨S_, .i32⟩ : BufTy).Contents (Elt F) → (⟨S_, .i32⟩ : BufTy).Contents (Elt F) → (⟨S_, .i32⟩ : BufTy).Contents (Elt F)),
    ternary main_v1 main_v2 main_v0 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v4 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 1024#32),
    binary main_c_3 main_c_4 main_v5 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v4 main_v5 main_c_5 main_v6 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg3 ![main_v3, main_v6] ⟨S_, .i32⟩ main_v7 ((fun x i => Host.dynamicSlice S1x1024 x (fun k => (i k (Shape.Idx.first h_S_)).toInt) sliceFits_S50257x1024_S1x1024) : (⟨S50257x1024, .f32⟩ : BufTy).Contents (Elt F) → (Fin 2 → (⟨S_, .i32⟩ : BufTy).Contents (Elt F)) → (⟨S1x1024, .f32⟩ : BufTy).Contents (Elt F)),
    reshape main_v7 main_v8 rfl shapeCasts_S1x1024_S1024,
    unary main_v8 main_v9 (broadcastInDim S1x1024 ![1] bcast_S1024_S1x1024_1 : (⟨S1024, .f32⟩ : BufTy).Contents (Elt F) → (⟨S1x1024, .f32⟩ : BufTy).Contents (Elt F)),
    reshape main_arg2 main_v10 rfl shapeCasts_S512x1x1024_S512x1024,
    reshape main_arg1 main_v11 rfl shapeCasts_S1x1x1024_S1x1024 ]

/-- Operations 20 to 36. -/
abbrev ops2 : List (HloOp τ sig (Elt F)) :=
  [ unary main_v10 main_v12 ((transpose S1024x512 [1, 0] · transposes_S512x1024_S1024x512_1_0) : (⟨S512x1024, .f32⟩ : BufTy).Contents (Elt F) → (⟨S1024x512, .f32⟩ : BufTy).Contents (Elt F)),
    binary main_v11 main_v12 main_v13 ((fun l r => Host.dotGeneral dot_S1x1024_S1024x512_S1x512_1_0_0_1_n_n none l r) : (⟨S1x1024, .f32⟩ : BufTy).Contents (Elt F) → (⟨S1024x512, .f32⟩ : BufTy).Contents (Elt F) → (⟨S1x512, .f32⟩ : BufTy).Contents (Elt F)),
    nullary main_cst (constant S_ .f32 0xFF800000#32),
    binary main_v13 main_cst main_v14 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    nullary main_cst_6 (constant S_ .f32 0xFF800000#32),
    unary main_cst_6 main_v15 (broadcastInDim S1 ![] bcast_S_S1 : (⟨S_, .f32⟩ : BufTy).Contents (Elt F) → (⟨S1, .f32⟩ : BufTy).Contents (Elt F)),
    binary main_v15 main_v14 main_v16 (maximumf : (⟨S1, .f32⟩ : BufTy).Contents (Elt F) → (⟨S1, .f32⟩ : BufTy).Contents (Elt F) → (⟨S1, .f32⟩ : BufTy).Contents (Elt F)),
    unary main_v16 main_v17 (broadcastInDim S1x1 ![0] bcast_S1_S1x1_0 : (⟨S1, .f32⟩ : BufTy).Contents (Elt F) → (⟨S1x1, .f32⟩ : BufTy).Contents (Elt F)),
    unary main_v17 main_v18 (broadcastInDim S1x512 ![0, 1] bcast_S1x1_S1x512_0_1 : (⟨S1x1, .f32⟩ : BufTy).Contents (Elt F) → (⟨S1x512, .f32⟩ : BufTy).Contents (Elt F)),
    binary main_v13 main_v18 main_v19 (subf : (⟨S1x512, .f32⟩ : BufTy).Contents (Elt F) → (⟨S1x512, .f32⟩ : BufTy).Contents (Elt F) → (⟨S1x512, .f32⟩ : BufTy).Contents (Elt F)),
    unary main_v19 main_v20 (Host.exp : (⟨S1x512, .f32⟩ : BufTy).Contents (Elt F) → (⟨S1x512, .f32⟩ : BufTy).Contents (Elt F)),
    nullary main_cst_7 (constant S_ .f32 0x00000000#32),
    binary main_v20 main_cst_7 main_v21 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    unary main_v21 main_v22 (broadcastInDim S1x1 ![0] bcast_S1_S1x1_0 : (⟨S1, .f32⟩ : BufTy).Contents (Elt F) → (⟨S1x1, .f32⟩ : BufTy).Contents (Elt F)),
    unary main_v22 main_v23 (broadcastInDim S1x512 ![0, 1] bcast_S1x1_S1x512_0_1 : (⟨S1x1, .f32⟩ : BufTy).Contents (Elt F) → (⟨S1x512, .f32⟩ : BufTy).Contents (Elt F)),
    binary main_v20 main_v23 main_v24 (Host.divf : (⟨S1x512, .f32⟩ : BufTy).Contents (Elt F) → (⟨S1x512, .f32⟩ : BufTy).Contents (Elt F) → (⟨S1x512, .f32⟩ : BufTy).Contents (Elt F)),
    binary main_v24 main_v10 main_v25 ((fun l r => Host.dotGeneral dot_S1x512_S512x1024_S1x1024_1_0_0_1_n_n none l r) : (⟨S1x512, .f32⟩ : BufTy).Contents (Elt F) → (⟨S512x1024, .f32⟩ : BufTy).Contents (Elt F) → (⟨S1x1024, .f32⟩ : BufTy).Contents (Elt F)) ]

/-- Operations 37 to 44. -/
abbrev ops3 : List (HloOp τ sig (Elt F)) :=
  [ binary main_v9 main_v25 main_v26 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v27 ((transpose S2048x1024 [1, 0] · transposes_S1024x2048_S2048x1024_1_0) : (⟨S1024x2048, .f32⟩ : BufTy).Contents (Elt F) → (⟨S2048x1024, .f32⟩ : BufTy).Contents (Elt F)),
    binary main_v26 main_v27 main_v28 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg5 main_v29 (broadcastInDim S1x1024 ![1] bcast_S1024_S1x1024_1 : (⟨S1024, .f32⟩ : BufTy).Contents (Elt F) → (⟨S1x1024, .f32⟩ : BufTy).Contents (Elt F)),
    binary main_v28 main_v29 main_v30 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v30) (TRef.of (T := ⟨S1x1024, .f32⟩) main_call0_v0) (TRef.of (T := ⟨S1x1024, .f32⟩) main_v31) maximumf ]

/-- Operations 45 to 52. -/
abbrev ops4 : List (HloOp τ sig (Elt F)) :=
  [ unary main_arg6 main_v32 ((transpose S1024x3072 [1, 0] · transposes_S3072x1024_S1024x3072_1_0) : (⟨S3072x1024, .f32⟩ : BufTy).Contents (Elt F) → (⟨S1024x3072, .f32⟩ : BufTy).Contents (Elt F)),
    binary main_v31 main_v32 main_v33 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg8 main_v34 (broadcastInDim S1x3072 ![1] bcast_S3072_S1x3072_1 : (⟨S3072, .f32⟩ : BufTy).Contents (Elt F) → (⟨S1x3072, .f32⟩ : BufTy).Contents (Elt F)),
    binary main_v33 main_v34 main_v35 (addf : (⟨S1x3072, .f32⟩ : BufTy).Contents (Elt F) → (⟨S1x3072, .f32⟩ : BufTy).Contents (Elt F) → (⟨S1x3072, .f32⟩ : BufTy).Contents (Elt F)),
    unary main_arg7 main_v36 ((transpose S1024x3072 [1, 0] · transposes_S3072x1024_S1024x3072_1_0) : (⟨S3072x1024, .f32⟩ : BufTy).Contents (Elt F) → (⟨S1024x3072, .f32⟩ : BufTy).Contents (Elt F)),
    binary main_v11 main_v36 main_v37 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg9 main_v38 (broadcastInDim S1x3072 ![1] bcast_S3072_S1x3072_1 : (⟨S3072, .f32⟩ : BufTy).Contents (Elt F) → (⟨S1x3072, .f32⟩ : BufTy).Contents (Elt F)),
    binary main_v37 main_v38 main_v39 (addf : (⟨S1x3072, .f32⟩ : BufTy).Contents (Elt F) → (⟨S1x3072, .f32⟩ : BufTy).Contents (Elt F) → (⟨S1x3072, .f32⟩ : BufTy).Contents (Elt F)) ]

/-- Operations 53 to 85. -/
abbrev ops5 : List (HloOp τ sig (Elt F)) :=
  [ unary main_v35 main_v40 ((extractStridedSlice S1x1024 ![0, 0] · slices_S1x3072_S1x1024_0_0) : (⟨S1x3072, .f32⟩ : BufTy).Contents (Elt F) → (⟨S1x1024, .f32⟩ : BufTy).Contents (Elt F)),
    unary main_v39 main_v41 ((extractStridedSlice S1x1024 ![0, 0] · slices_S1x3072_S1x1024_0_0) : (⟨S1x3072, .f32⟩ : BufTy).Contents (Elt F) → (⟨S1x1024, .f32⟩ : BufTy).Contents (Elt F)),
    binary main_v40 main_v41 main_v42 (addf : (⟨S1x1024, .f32⟩ : BufTy).Contents (Elt F) → (⟨S1x1024, .f32⟩ : BufTy).Contents (Elt F) → (⟨S1x1024, .f32⟩ : BufTy).Contents (Elt F)),
    unary main_v42 main_v43 (Host.negf : (⟨S1x1024, .f32⟩ : BufTy).Contents (Elt F) → (⟨S1x1024, .f32⟩ : BufTy).Contents (Elt F)),
    unary main_v43 main_v44 (Host.exp : (⟨S1x1024, .f32⟩ : BufTy).Contents (Elt F) → (⟨S1x1024, .f32⟩ : BufTy).Contents (Elt F)),
    nullary main_cst_8 (constant S_ .f32 0x3F800000#32),
    unary main_cst_8 main_v45 (broadcastInDim S1x1024 ![] bcast_S_S1x1024 : (⟨S_, .f32⟩ : BufTy).Contents (Elt F) → (⟨S1x1024, .f32⟩ : BufTy).Contents (Elt F)),
    binary main_v45 main_v44 main_v46 (addf : (⟨S1x1024, .f32⟩ : BufTy).Contents (Elt F) → (⟨S1x1024, .f32⟩ : BufTy).Contents (Elt F) → (⟨S1x1024, .f32⟩ : BufTy).Contents (Elt F)),
    nullary main_cst_9 (constant S_ .f32 0x3F800000#32),
    unary main_cst_9 main_v47 (broadcastInDim S1x1024 ![] bcast_S_S1x1024 : (⟨S_, .f32⟩ : BufTy).Contents (Elt F) → (⟨S1x1024, .f32⟩ : BufTy).Contents (Elt F)),
    binary main_v47 main_v46 main_v48 (Host.divf : (⟨S1x1024, .f32⟩ : BufTy).Contents (Elt F) → (⟨S1x1024, .f32⟩ : BufTy).Contents (Elt F) → (⟨S1x1024, .f32⟩ : BufTy).Contents (Elt F)),
    unary main_v35 main_v49 ((extractStridedSlice S1x1024 ![0, 1024] · slices_S1x3072_S1x1024_0_1024) : (⟨S1x3072, .f32⟩ : BufTy).Contents (Elt F) → (⟨S1x1024, .f32⟩ : BufTy).Contents (Elt F)),
    unary main_v39 main_v50 ((extractStridedSlice S1x1024 ![0, 1024] · slices_S1x3072_S1x1024_0_1024) : (⟨S1x3072, .f32⟩ : BufTy).Contents (Elt F) → (⟨S1x1024, .f32⟩ : BufTy).Contents (Elt F)),
    binary main_v49 main_v50 main_v51 (addf : (⟨S1x1024, .f32⟩ : BufTy).Contents (Elt F) → (⟨S1x1024, .f32⟩ : BufTy).Contents (Elt F) → (⟨S1x1024, .f32⟩ : BufTy).Contents (Elt F)),
    unary main_v51 main_v52 (Host.negf : (⟨S1x1024, .f32⟩ : BufTy).Contents (Elt F) → (⟨S1x1024, .f32⟩ : BufTy).Contents (Elt F)),
    unary main_v52 main_v53 (Host.exp : (⟨S1x1024, .f32⟩ : BufTy).Contents (Elt F) → (⟨S1x1024, .f32⟩ : BufTy).Contents (Elt F)),
    nullary main_cst_10 (constant S_ .f32 0x3F800000#32),
    unary main_cst_10 main_v54 (broadcastInDim S1x1024 ![] bcast_S_S1x1024 : (⟨S_, .f32⟩ : BufTy).Contents (Elt F) → (⟨S1x1024, .f32⟩ : BufTy).Contents (Elt F)),
    binary main_v54 main_v53 main_v55 (addf : (⟨S1x1024, .f32⟩ : BufTy).Contents (Elt F) → (⟨S1x1024, .f32⟩ : BufTy).Contents (Elt F) → (⟨S1x1024, .f32⟩ : BufTy).Contents (Elt F)),
    nullary main_cst_11 (constant S_ .f32 0x3F800000#32),
    unary main_cst_11 main_v56 (broadcastInDim S1x1024 ![] bcast_S_S1x1024 : (⟨S_, .f32⟩ : BufTy).Contents (Elt F) → (⟨S1x1024, .f32⟩ : BufTy).Contents (Elt F)),
    binary main_v56 main_v55 main_v57 (Host.divf : (⟨S1x1024, .f32⟩ : BufTy).Contents (Elt F) → (⟨S1x1024, .f32⟩ : BufTy).Contents (Elt F) → (⟨S1x1024, .f32⟩ : BufTy).Contents (Elt F)),
    unary main_v35 main_v58 ((extractStridedSlice S1x1024 ![0, 2048] · slices_S1x3072_S1x1024_0_2048) : (⟨S1x3072, .f32⟩ : BufTy).Contents (Elt F) → (⟨S1x1024, .f32⟩ : BufTy).Contents (Elt F)),
    unary main_v39 main_v59 ((extractStridedSlice S1x1024 ![0, 2048] · slices_S1x3072_S1x1024_0_2048) : (⟨S1x3072, .f32⟩ : BufTy).Contents (Elt F) → (⟨S1x1024, .f32⟩ : BufTy).Contents (Elt F)),
    binary main_v48 main_v59 main_v60 (mulf : (⟨S1x1024, .f32⟩ : BufTy).Contents (Elt F) → (⟨S1x1024, .f32⟩ : BufTy).Contents (Elt F) → (⟨S1x1024, .f32⟩ : BufTy).Contents (Elt F)),
    binary main_v58 main_v60 main_v61 (addf : (⟨S1x1024, .f32⟩ : BufTy).Contents (Elt F) → (⟨S1x1024, .f32⟩ : BufTy).Contents (Elt F) → (⟨S1x1024, .f32⟩ : BufTy).Contents (Elt F)),
    unary main_v61 main_v62 (Host.tanh : (⟨S1x1024, .f32⟩ : BufTy).Contents (Elt F) → (⟨S1x1024, .f32⟩ : BufTy).Contents (Elt F)),
    nullary main_cst_12 (constant S_ .f32 0x3F800000#32),
    unary main_cst_12 main_v63 (broadcastInDim S1x1024 ![] bcast_S_S1x1024 : (⟨S_, .f32⟩ : BufTy).Contents (Elt F) → (⟨S1x1024, .f32⟩ : BufTy).Contents (Elt F)),
    binary main_v63 main_v57 main_v64 (subf : (⟨S1x1024, .f32⟩ : BufTy).Contents (Elt F) → (⟨S1x1024, .f32⟩ : BufTy).Contents (Elt F) → (⟨S1x1024, .f32⟩ : BufTy).Contents (Elt F)),
    binary main_v64 main_v62 main_v65 (mulf : (⟨S1x1024, .f32⟩ : BufTy).Contents (Elt F) → (⟨S1x1024, .f32⟩ : BufTy).Contents (Elt F) → (⟨S1x1024, .f32⟩ : BufTy).Contents (Elt F)),
    binary main_v57 main_v11 main_v66 (mulf : (⟨S1x1024, .f32⟩ : BufTy).Contents (Elt F) → (⟨S1x1024, .f32⟩ : BufTy).Contents (Elt F) → (⟨S1x1024, .f32⟩ : BufTy).Contents (Elt F)),
    binary main_v65 main_v66 main_v67 (addf : (⟨S1x1024, .f32⟩ : BufTy).Contents (Elt F) → (⟨S1x1024, .f32⟩ : BufTy).Contents (Elt F) → (⟨S1x1024, .f32⟩ : BufTy).Contents (Elt F)) ]

/-- Operations 86 to 89. -/
abbrev ops6 : List (HloOp τ sig (Elt F)) :=
  [ unary main_arg10 main_v68 ((transpose S1024x50257 [1, 0] · transposes_S50257x1024_S1024x50257_1_0) : (⟨S50257x1024, .f32⟩ : BufTy).Contents (Elt F) → (⟨S1024x50257, .f32⟩ : BufTy).Contents (Elt F)),
    binary main_v67 main_v68 main_v69 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg11 main_v70 (broadcastInDim S1x50257 ![1] bcast_S50257_S1x50257_1 : (⟨S50257, .f32⟩ : BufTy).Contents (Elt F) → (⟨S1x50257, .f32⟩ : BufTy).Contents (Elt F)),
    binary main_v69 main_v70 main_v71 (addf : (⟨S1x50257, .f32⟩ : BufTy).Contents (Elt F) → (⟨S1x50257, .f32⟩ : BufTy).Contents (Elt F) → (⟨S1x50257, .f32⟩ : BufTy).Contents (Elt F)) ]

/-- Operations 90 to 105. -/
abbrev ops7 : List (HloOp τ sig (Elt F)) :=
  [ TRef.nullary (TRef.of (T := ⟨S_, .f32⟩) main_call1_cst) (constant S_ .f32 0xFF800000#32),
    TRef.binary (TRef.of (T := ⟨S1x50257, .f32⟩) main_v71) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v71) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v72) subf,
    unary main_v67 main_v73 (broadcastInDim S1x1x1024 ![1, 2] bcast_S1x1024_S1x1x1024_1_2 : (⟨S1x1024, .f32⟩ : BufTy).Contents (Elt F) → (⟨S1x1x1024, .f32⟩ : BufTy).Contents (Elt F)) ]

set_option maxRecDepth 8192 in
/-- The list is its stretches in order. -/
theorem ops_split : (ops : List (HloOp τ sig (Elt F))) = ops1 ++ (ops2 ++ (ops3 ++ (ops4 ++ (ops5 ++ (ops6 ++ ops7))))) := rfl

/-! ## What each stretch leaves, for any contents it finds: the buffers it writes at their stages, given that the
    buffers it reads hold theirs; the buffers it does not write as found -/

/-! ### Stretch 1: the token, the embedded row, the reshaped encoder rows and hidden row -/
/-- The embedded row depends on the two start indices through their values alone. -/
theorem embedded_congr (x : (⟨S50257x1024, .f32⟩ : BufTy).Contents (Elt F)) (ix ix' : Fin S50257x1024.rank → Int) (h : ix = ix') :
    broadcastInDim S1x1024 ![1] bcast_S1024_S1x1024_1 (shapeCast S1024 (Host.dynamicSlice S1x1024 x ix sliceFits_S50257x1024_S1x1024) shapeCasts_S1x1024_S1024)
      = broadcastInDim S1x1024 ![1] bcast_S1024_S1x1024_1 (shapeCast S1024 (Host.dynamicSlice S1x1024 x ix' sliceFits_S50257x1024_S1x1024) shapeCasts_S1x1024_S1024) := by
  rw [h]

theorem s1_v9 (W : Valuation τ sig (Elt F)) :
    after (ops1 (F := F)) W (Proc.devRef .tc main_v9) = ReadP.val_main_v9 (F := F) (W (Proc.devRef .tc main_arg0)) (W (Proc.devRef .tc main_arg3)) := by
  dsimp only [ops1]
  after_results_simp
  unfold ReadP.val_main_v9 ReadP.val_main_v8 ReadP.val_main_v7 ReadP.val_main_v6 ReadP.val_main_v5 ReadP.val_main_v4 ReadP.val_main_v3 ReadP.val_main_v2 ReadP.val_main_v1 ReadP.val_main_v0 ReadP.val_main_c ReadP.val_main_c_0 ReadP.val_main_c_1 ReadP.val_main_c_2 ReadP.val_main_c_3 ReadP.val_main_c_4 ReadP.val_main_c_5
  refine embedded_congr _ _ _ (funext fun (k : Fin 2) => ?_)
  fin_cases k <;> (try simp only [Matrix.cons_val_zero', Matrix.cons_val_succ', Fin.zero_eta, Fin.mk_one, Matrix.cons_val_zero, Matrix.cons_val_one, Matrix.head_cons]) <;> (try after_results_simp) <;> rfl
theorem s1_v10 (W : Valuation τ sig (Elt F)) :
    after (ops1 (F := F)) W (Proc.devRef .tc main_v10) = ReadP.val_main_v10 (F := F) (W (Proc.devRef .tc main_arg2)) := by
  dsimp only [ops1]
  after_results_simp
  rfl
theorem s1_v11 (W : Valuation τ sig (Elt F)) :
    after (ops1 (F := F)) W (Proc.devRef .tc main_v11) = ReadP.val_main_v11 (F := F) (W (Proc.devRef .tc main_arg1)) := by
  dsimp only [ops1]
  after_results_simp
  rfl
theorem s1_keep_arg4 (W : Valuation τ sig (Elt F)) : after (ops1 (F := F)) W (Proc.devRef .tc main_arg4) = W (Proc.devRef .tc main_arg4) := by
  dsimp only [ops1]
  after_results_simp
theorem s1_keep_arg5 (W : Valuation τ sig (Elt F)) : after (ops1 (F := F)) W (Proc.devRef .tc main_arg5) = W (Proc.devRef .tc main_arg5) := by
  dsimp only [ops1]
  after_results_simp
theorem s1_keep_arg6 (W : Valuation τ sig (Elt F)) : after (ops1 (F := F)) W (Proc.devRef .tc main_arg6) = W (Proc.devRef .tc main_arg6) := by
  dsimp only [ops1]
  after_results_simp
theorem s1_keep_arg7 (W : Valuation τ sig (Elt F)) : after (ops1 (F := F)) W (Proc.devRef .tc main_arg7) = W (Proc.devRef .tc main_arg7) := by
  dsimp only [ops1]
  after_results_simp
theorem s1_keep_arg8 (W : Valuation τ sig (Elt F)) : after (ops1 (F := F)) W (Proc.devRef .tc main_arg8) = W (Proc.devRef .tc main_arg8) := by
  dsimp only [ops1]
  after_results_simp
theorem s1_keep_arg9 (W : Valuation τ sig (Elt F)) : after (ops1 (F := F)) W (Proc.devRef .tc main_arg9) = W (Proc.devRef .tc main_arg9) := by
  dsimp only [ops1]
  after_results_simp
theorem s1_keep_arg10 (W : Valuation τ sig (Elt F)) : after (ops1 (F := F)) W (Proc.devRef .tc main_arg10) = W (Proc.devRef .tc main_arg10) := by
  dsimp only [ops1]
  after_results_simp
theorem s1_keep_arg11 (W : Valuation τ sig (Elt F)) : after (ops1 (F := F)) W (Proc.devRef .tc main_arg11) = W (Proc.devRef .tc main_arg11) := by
  dsimp only [ops1]
  after_results_simp

/-! ### Stretch 2: the attention weights and the context row -/
theorem s2_v24 (W : Valuation τ sig (Elt F)) (x1 : (⟨S1x1x1024, .f32⟩ : BufTy).Contents (Elt F)) (x2 : (⟨S512x1x1024, .f32⟩ : BufTy).Contents (Elt F))
    (h10 : W (Proc.devRef .tc main_v10) = ReadP.val_main_v10 (F := F) x2) (h11 : W (Proc.devRef .tc main_v11) = ReadP.val_main_v11 (F := F) x1) :
    after (ops2 (F := F)) W (Proc.devRef .tc main_v24) = ReadP.val_main_v24 (F := F) x1 x2 := by
  dsimp only [ops2]
  after_results_simp
  rw [h10, h11]
  unfold ReadP.val_main_v24 ReadP.val_main_v23 ReadP.val_main_v22 ReadP.val_main_v21 ReadP.val_main_v20 ReadP.val_main_v19 ReadP.val_main_v18 ReadP.val_main_v17 ReadP.val_main_v16 ReadP.val_main_v15 ReadP.val_main_v14 ReadP.val_main_v13 ReadP.val_main_v12 ReadP.val_main_cst ReadP.val_main_cst_6 ReadP.val_main_cst_7
  rfl
theorem s2_v25 (W : Valuation τ sig (Elt F)) (x1 : (⟨S1x1x1024, .f32⟩ : BufTy).Contents (Elt F)) (x2 : (⟨S512x1x1024, .f32⟩ : BufTy).Contents (Elt F))
    (h10 : W (Proc.devRef .tc main_v10) = ReadP.val_main_v10 (F := F) x2) (h11 : W (Proc.devRef .tc main_v11) = ReadP.val_main_v11 (F := F) x1) :
    after (ops2 (F := F)) W (Proc.devRef .tc main_v25) = ReadP.val_main_v25 (F := F) x1 x2 := by
  dsimp only [ops2]
  after_results_simp
  rw [h10, h11]
  unfold ReadP.val_main_v25 ReadP.val_main_v24 ReadP.val_main_v23 ReadP.val_main_v22 ReadP.val_main_v21 ReadP.val_main_v20 ReadP.val_main_v19 ReadP.val_main_v18 ReadP.val_main_v17 ReadP.val_main_v16 ReadP.val_main_v15 ReadP.val_main_v14 ReadP.val_main_v13 ReadP.val_main_v12 ReadP.val_main_cst ReadP.val_main_cst_6 ReadP.val_main_cst_7
  rfl
theorem s2_keep_v9 (W : Valuation τ sig (Elt F)) : after (ops2 (F := F)) W (Proc.devRef .tc main_v9) = W (Proc.devRef .tc main_v9) := by
  dsimp only [ops2]
  after_results_simp
theorem s2_keep_v11 (W : Valuation τ sig (Elt F)) : after (ops2 (F := F)) W (Proc.devRef .tc main_v11) = W (Proc.devRef .tc main_v11) := by
  dsimp only [ops2]
  after_results_simp
theorem s2_keep_arg4 (W : Valuation τ sig (Elt F)) : after (ops2 (F := F)) W (Proc.devRef .tc main_arg4) = W (Proc.devRef .tc main_arg4) := by
  dsimp only [ops2]
  after_results_simp
theorem s2_keep_arg5 (W : Valuation τ sig (Elt F)) : after (ops2 (F := F)) W (Proc.devRef .tc main_arg5) = W (Proc.devRef .tc main_arg5) := by
  dsimp only [ops2]
  after_results_simp
theorem s2_keep_arg6 (W : Valuation τ sig (Elt F)) : after (ops2 (F := F)) W (Proc.devRef .tc main_arg6) = W (Proc.devRef .tc main_arg6) := by
  dsimp only [ops2]
  after_results_simp
theorem s2_keep_arg7 (W : Valuation τ sig (Elt F)) : after (ops2 (F := F)) W (Proc.devRef .tc main_arg7) = W (Proc.devRef .tc main_arg7) := by
  dsimp only [ops2]
  after_results_simp
theorem s2_keep_arg8 (W : Valuation τ sig (Elt F)) : after (ops2 (F := F)) W (Proc.devRef .tc main_arg8) = W (Proc.devRef .tc main_arg8) := by
  dsimp only [ops2]
  after_results_simp
theorem s2_keep_arg9 (W : Valuation τ sig (Elt F)) : after (ops2 (F := F)) W (Proc.devRef .tc main_arg9) = W (Proc.devRef .tc main_arg9) := by
  dsimp only [ops2]
  after_results_simp
theorem s2_keep_arg10 (W : Valuation τ sig (Elt F)) : after (ops2 (F := F)) W (Proc.devRef .tc main_arg10) = W (Proc.devRef .tc main_arg10) := by
  dsimp only [ops2]
  after_results_simp
theorem s2_keep_arg11 (W : Valuation τ sig (Elt F)) : after (ops2 (F := F)) W (Proc.devRef .tc main_arg11) = W (Proc.devRef .tc main_arg11) := by
  dsimp only [ops2]
  after_results_simp

/-! ### Stretch 3: the joined row, the combining product and its rectification -/
/-- At the literal references of the rectifier's call the lone passages through a buffer's own contents type are the identity. -/
theorem ofBuf_v30 (w : (Proc.devRef (τ := τ) .tc main_v30).ty.Contents (Elt F)) : (TRef.of (T := ⟨S1x1024, .f32⟩) main_v30).ofBuf (Val := Elt F) w = w := rfl
theorem toBuf_v31 (v : (⟨S1x1024, .f32⟩ : BufTy).Contents (Elt F)) : (TRef.of (T := ⟨S1x1024, .f32⟩) main_v31).toBuf (Val := Elt F) v = v := rfl
/-- A value moved to its buffer's contents type and back is the value. -/
theorem ofBuf_toBuf {T : BufTy} (x : TRef sig T) (v : T.Contents (Elt F)) : x.ofBuf (x.toBuf v) = v := by
  obtain ⟨r, h, h1, h2⟩ := x
  subst h
  rfl
theorem s3_v31 (W : Valuation τ sig (Elt F)) (x0 : (⟨S1, .i32⟩ : BufTy).Contents (Elt F)) (x1 : (⟨S1x1x1024, .f32⟩ : BufTy).Contents (Elt F)) (x2 : (⟨S512x1x1024, .f32⟩ : BufTy).Contents (Elt F)) (x3 : (⟨S50257x1024, .f32⟩ : BufTy).Contents (Elt F))
    (h9 : W (Proc.devRef .tc main_v9) = ReadP.val_main_v9 (F := F) x0 x3) (h25 : W (Proc.devRef .tc main_v25) = ReadP.val_main_v25 (F := F) x1 x2) :
    after (ops3 (F := F)) W (Proc.devRef .tc main_v31) = ReadP.val_main_v31 (F := F) x0 x1 x2 x3 (W (Proc.devRef .tc main_arg4)) (W (Proc.devRef .tc main_arg5)) := by
  dsimp only [ops3]
  after_results_simp
  simp only [ofBuf_toBuf, ofBuf_v30, toBuf_v31]
  rw [h9, h25]
  unfold ReadP.val_main_v31 ReadP.val_main_v30 ReadP.val_main_v29 ReadP.val_main_v28 ReadP.val_main_v27 ReadP.val_main_v26 ReadP.val_main_call0_v0 ReadP.val_main_call0_cst
  rfl
theorem s3_keep_v24 (W : Valuation τ sig (Elt F)) : after (ops3 (F := F)) W (Proc.devRef .tc main_v24) = W (Proc.devRef .tc main_v24) := by
  dsimp only [ops3]
  after_results_simp
theorem s3_keep_v11 (W : Valuation τ sig (Elt F)) : after (ops3 (F := F)) W (Proc.devRef .tc main_v11) = W (Proc.devRef .tc main_v11) := by
  dsimp only [ops3]
  after_results_simp
theorem s3_keep_arg6 (W : Valuation τ sig (Elt F)) : after (ops3 (F := F)) W (Proc.devRef .tc main_arg6) = W (Proc.devRef .tc main_arg6) := by
  dsimp only [ops3]
  after_results_simp
theorem s3_keep_arg7 (W : Valuation τ sig (Elt F)) : after (ops3 (F := F)) W (Proc.devRef .tc main_arg7) = W (Proc.devRef .tc main_arg7) := by
  dsimp only [ops3]
  after_results_simp
theorem s3_keep_arg8 (W : Valuation τ sig (Elt F)) : after (ops3 (F := F)) W (Proc.devRef .tc main_arg8) = W (Proc.devRef .tc main_arg8) := by
  dsimp only [ops3]
  after_results_simp
theorem s3_keep_arg9 (W : Valuation τ sig (Elt F)) : after (ops3 (F := F)) W (Proc.devRef .tc main_arg9) = W (Proc.devRef .tc main_arg9) := by
  dsimp only [ops3]
  after_results_simp
theorem s3_keep_arg10 (W : Valuation τ sig (Elt F)) : after (ops3 (F := F)) W (Proc.devRef .tc main_arg10) = W (Proc.devRef .tc main_arg10) := by
  dsimp only [ops3]
  after_results_simp
theorem s3_keep_arg11 (W : Valuation τ sig (Elt F)) : after (ops3 (F := F)) W (Proc.devRef .tc main_arg11) = W (Proc.devRef .tc main_arg11) := by
  dsimp only [ops3]
  after_results_simp

/-! ### Stretch 4: the two gate rows -/
theorem s4_v35 (W : Valuation τ sig (Elt F)) (x0 : (⟨S1, .i32⟩ : BufTy).Contents (Elt F)) (x1 : (⟨S1x1x1024, .f32⟩ : BufTy).Contents (Elt F)) (x2 : (⟨S512x1x1024, .f32⟩ : BufTy).Contents (Elt F)) (x3 : (⟨S50257x1024, .f32⟩ : BufTy).Contents (Elt F)) (x4 : (⟨S1024x2048, .f32⟩ : BufTy).Contents (Elt F)) (x5 : (⟨S1024, .f32⟩ : BufTy).Contents (Elt F))
    (h31 : W (Proc.devRef .tc main_v31) = ReadP.val_main_v31 (F := F) x0 x1 x2 x3 x4 x5) :
    after (ops4 (F := F)) W (Proc.devRef .tc main_v35) = ReadP.val_main_v35 (F := F) x0 x1 x2 x3 x4 x5 (W (Proc.devRef .tc main_arg6)) (W (Proc.devRef .tc main_arg8)) := by
  dsimp only [ops4]
  after_results_simp
  rw [h31]
  unfold ReadP.val_main_v35 ReadP.val_main_v34 ReadP.val_main_v33 ReadP.val_main_v32
  rfl
theorem s4_v39 (W : Valuation τ sig (Elt F)) (x1 : (⟨S1x1x1024, .f32⟩ : BufTy).Contents (Elt F))
    (h11 : W (Proc.devRef .tc main_v11) = ReadP.val_main_v11 (F := F) x1) :
    after (ops4 (F := F)) W (Proc.devRef .tc main_v39) = ReadP.val_main_v39 (F := F) x1 (W (Proc.devRef .tc main_arg7)) (W (Proc.devRef .tc main_arg9)) := by
  dsimp only [ops4]
  after_results_simp
  rw [h11]
  unfold ReadP.val_main_v39 ReadP.val_main_v38 ReadP.val_main_v37 ReadP.val_main_v36
  rfl
theorem s4_keep_v24 (W : Valuation τ sig (Elt F)) : after (ops4 (F := F)) W (Proc.devRef .tc main_v24) = W (Proc.devRef .tc main_v24) := by
  dsimp only [ops4]
  after_results_simp
theorem s4_keep_v11 (W : Valuation τ sig (Elt F)) : after (ops4 (F := F)) W (Proc.devRef .tc main_v11) = W (Proc.devRef .tc main_v11) := by
  dsimp only [ops4]
  after_results_simp
theorem s4_keep_arg10 (W : Valuation τ sig (Elt F)) : after (ops4 (F := F)) W (Proc.devRef .tc main_arg10) = W (Proc.devRef .tc main_arg10) := by
  dsimp only [ops4]
  after_results_simp
theorem s4_keep_arg11 (W : Valuation τ sig (Elt F)) : after (ops4 (F := F)) W (Proc.devRef .tc main_arg11) = W (Proc.devRef .tc main_arg11) := by
  dsimp only [ops4]
  after_results_simp

/-! ### Stretch 5: the gates' recombination into the new hidden row -/
theorem s5_v67 (W : Valuation τ sig (Elt F)) (x0 : (⟨S1, .i32⟩ : BufTy).Contents (Elt F)) (x1 : (⟨S1x1x1024, .f32⟩ : BufTy).Contents (Elt F)) (x2 : (⟨S512x1x1024, .f32⟩ : BufTy).Contents (Elt F)) (x3 : (⟨S50257x1024, .f32⟩ : BufTy).Contents (Elt F)) (x4 : (⟨S1024x2048, .f32⟩ : BufTy).Contents (Elt F)) (x5 : (⟨S1024, .f32⟩ : BufTy).Contents (Elt F)) (x6 : (⟨S3072x1024, .f32⟩ : BufTy).Contents (Elt F)) (x7 : (⟨S3072x1024, .f32⟩ : BufTy).Contents (Elt F)) (x8 : (⟨S3072, .f32⟩ : BufTy).Contents (Elt F)) (x9 : (⟨S3072, .f32⟩ : BufTy).Contents (Elt F))
    (h35 : W (Proc.devRef .tc main_v35) = ReadP.val_main_v35 (F := F) x0 x1 x2 x3 x4 x5 x6 x8) (h39 : W (Proc.devRef .tc main_v39) = ReadP.val_main_v39 (F := F) x1 x7 x9)
    (h11 : W (Proc.devRef .tc main_v11) = ReadP.val_main_v11 (F := F) x1) :
    after (ops5 (F := F)) W (Proc.devRef .tc main_v67) = ReadP.val_main_v67 (F := F) x0 x1 x2 x3 x4 x5 x6 x7 x8 x9 := by
  dsimp only [ops5]
  after_results_simp
  rw [h35, h39, h11]
  unfold ReadP.val_main_v67 ReadP.val_main_v65 ReadP.val_main_v66 ReadP.val_main_v64 ReadP.val_main_v63 ReadP.val_main_v62 ReadP.val_main_v61 ReadP.val_main_v60 ReadP.val_main_v59 ReadP.val_main_v58 ReadP.val_main_v57 ReadP.val_main_v56 ReadP.val_main_v55 ReadP.val_main_v54 ReadP.val_main_v53 ReadP.val_main_v52 ReadP.val_main_v51 ReadP.val_main_v50 ReadP.val_main_v49 ReadP.val_main_v48 ReadP.val_main_v47 ReadP.val_main_v46 ReadP.val_main_v45 ReadP.val_main_v44 ReadP.val_main_v43 ReadP.val_main_v42 ReadP.val_main_v41 ReadP.val_main_v40 ReadP.val_main_cst_8 ReadP.val_main_cst_9 ReadP.val_main_cst_10 ReadP.val_main_cst_11 ReadP.val_main_cst_12
  rfl
theorem s5_keep_v24 (W : Valuation τ sig (Elt F)) : after (ops5 (F := F)) W (Proc.devRef .tc main_v24) = W (Proc.devRef .tc main_v24) := by
  dsimp only [ops5]
  after_results_simp
theorem s5_keep_arg10 (W : Valuation τ sig (Elt F)) : after (ops5 (F := F)) W (Proc.devRef .tc main_arg10) = W (Proc.devRef .tc main_arg10) := by
  dsimp only [ops5]
  after_results_simp
theorem s5_keep_arg11 (W : Valuation τ sig (Elt F)) : after (ops5 (F := F)) W (Proc.devRef .tc main_arg11) = W (Proc.devRef .tc main_arg11) := by
  dsimp only [ops5]
  after_results_simp

/-! ### Stretch 6: the logits row -/
theorem s6_v71 (W : Valuation τ sig (Elt F)) (x0 : (⟨S1, .i32⟩ : BufTy).Contents (Elt F)) (x1 : (⟨S1x1x1024, .f32⟩ : BufTy).Contents (Elt F)) (x2 : (⟨S512x1x1024, .f32⟩ : BufTy).Contents (Elt F)) (x3 : (⟨S50257x1024, .f32⟩ : BufTy).Contents (Elt F)) (x4 : (⟨S1024x2048, .f32⟩ : BufTy).Contents (Elt F)) (x5 : (⟨S1024, .f32⟩ : BufTy).Contents (Elt F)) (x6 : (⟨S3072x1024, .f32⟩ : BufTy).Contents (Elt F)) (x7 : (⟨S3072x1024, .f32⟩ : BufTy).Contents (Elt F)) (x8 : (⟨S3072, .f32⟩ : BufTy).Contents (Elt F)) (x9 : (⟨S3072, .f32⟩ : BufTy).Contents (Elt F))
    (h67 : W (Proc.devRef .tc main_v67) = ReadP.val_main_v67 (F := F) x0 x1 x2 x3 x4 x5 x6 x7 x8 x9) :
    after (ops6 (F := F)) W (Proc.devRef .tc main_v71) = ReadP.val_main_v71 (F := F) x0 x1 x2 x3 x4 x5 x6 x7 x8 x9 (W (Proc.devRef .tc main_arg10)) (W (Proc.devRef .tc main_arg11)) := by
  dsimp only [ops6]
  after_results_simp
  rw [h67]
  unfold ReadP.val_main_v71 ReadP.val_main_v70 ReadP.val_main_v69 ReadP.val_main_v68
  rfl
theorem s6_keep_v24 (W : Valuation τ sig (Elt F)) : after (ops6 (F := F)) W (Proc.devRef .tc main_v24) = W (Proc.devRef .tc main_v24) := by
  dsimp only [ops6]
  after_results_simp
theorem s6_keep_v67 (W : Valuation τ sig (Elt F)) : after (ops6 (F := F)) W (Proc.devRef .tc main_v67) = W (Proc.devRef .tc main_v67) := by
  dsimp only [ops6]
  after_results_simp

/-! ### Stretch 7: the log-softmax of the logits row, and the new hidden row under a unit axis -/
theorem ofBuf_v71 (w : (Proc.devRef (τ := τ) .tc main_v71).ty.Contents (Elt F)) : (TRef.of (T := ⟨S1x50257, .f32⟩) main_v71).ofBuf (Val := Elt F) w = w := rfl
theorem toBuf_v72 (v : (⟨S1x50257, .f32⟩ : BufTy).Contents (Elt F)) : (TRef.of (T := ⟨S1x50257, .f32⟩) main_v72).toBuf (Val := Elt F) v = v := rfl
theorem s7_v72 (W : Valuation τ sig (Elt F)) (x0 : (⟨S1, .i32⟩ : BufTy).Contents (Elt F)) (x1 : (⟨S1x1x1024, .f32⟩ : BufTy).Contents (Elt F)) (x2 : (⟨S512x1x1024, .f32⟩ : BufTy).Contents (Elt F)) (x3 : (⟨S50257x1024, .f32⟩ : BufTy).Contents (Elt F)) (x4 : (⟨S1024x2048, .f32⟩ : BufTy).Contents (Elt F)) (x5 : (⟨S1024, .f32⟩ : BufTy).Contents (Elt F)) (x6 : (⟨S3072x1024, .f32⟩ : BufTy).Contents (Elt F)) (x7 : (⟨S3072x1024, .f32⟩ : BufTy).Contents (Elt F)) (x8 : (⟨S3072, .f32⟩ : BufTy).Contents (Elt F)) (x9 : (⟨S3072, .f32⟩ : BufTy).Contents (Elt F)) (x10 : (⟨S50257x1024, .f32⟩ : BufTy).Contents (Elt F)) (x11 : (⟨S50257, .f32⟩ : BufTy).Contents (Elt F))
    (h71 : W (Proc.devRef .tc main_v71) = ReadP.val_main_v71 (F := F) x0 x1 x2 x3 x4 x5 x6 x7 x8 x9 x10 x11) :
    after (ops7 (F := F)) W (Proc.devRef .tc main_v72) = ReadP.val_main_v72 (F := F) x0 x1 x2 x3 x4 x5 x6 x7 x8 x9 x10 x11 := by
  dsimp only [ops7]
  after_results_simp
  simp only [ofBuf_toBuf, ofBuf_v71, toBuf_v72]
  rw [h71]
  unfold ReadP.val_main_v72 ReadP.val_main_call1_v10 ReadP.val_main_call1_v9 ReadP.val_main_call1_v8 ReadP.val_main_call1_v7 ReadP.val_main_call1_v6 ReadP.val_main_call1_v5 ReadP.val_main_call1_v4 ReadP.val_main_call1_v3 ReadP.val_main_call1_v2 ReadP.val_main_call1_v1 ReadP.val_main_call1_v0 ReadP.val_main_call1_cst ReadP.val_main_call1_cst_0 ReadP.val_main_call1_cst_1
  generalize ReadP.val_main_v71 (F := F) x0 x1 x2 x3 x4 x5 x6 x7 x8 x9 x10 x11 = z
  rfl
theorem s7_v73 (W : Valuation τ sig (Elt F)) (x0 : (⟨S1, .i32⟩ : BufTy).Contents (Elt F)) (x1 : (⟨S1x1x1024, .f32⟩ : BufTy).Contents (Elt F)) (x2 : (⟨S512x1x1024, .f32⟩ : BufTy).Contents (Elt F)) (x3 : (⟨S50257x1024, .f32⟩ : BufTy).Contents (Elt F)) (x4 : (⟨S1024x2048, .f32⟩ : BufTy).Contents (Elt F)) (x5 : (⟨S1024, .f32⟩ : BufTy).Contents (Elt F)) (x6 : (⟨S3072x1024, .f32⟩ : BufTy).Contents (Elt F)) (x7 : (⟨S3072x1024, .f32⟩ : BufTy).Contents (Elt F)) (x8 : (⟨S3072, .f32⟩ : BufTy).Contents (Elt F)) (x9 : (⟨S3072, .f32⟩ : BufTy).Contents (Elt F))
    (h67 : W (Proc.devRef .tc main_v67) = ReadP.val_main_v67 (F := F) x0 x1 x2 x3 x4 x5 x6 x7 x8 x9) :
    after (ops7 (F := F)) W (Proc.devRef .tc main_v73) = ReadP.val_main_v73 (F := F) x0 x1 x2 x3 x4 x5 x6 x7 x8 x9 := by
  dsimp only [ops7]
  after_results_simp
  rw [h67]
  unfold ReadP.val_main_v73
  rfl
theorem s7_keep_v24 (W : Valuation τ sig (Elt F)) : after (ops7 (F := F)) W (Proc.devRef .tc main_v24) = W (Proc.devRef .tc main_v24) := by
  dsimp only [ops7]
  after_results_simp

/-! ## The whole list -/

/-- The three results after the whole list, from any contents `V`: each at its stage of `V`'s arguments. The list is
    its seven stretches; each stretch's lemma takes the stages the stretches before it left. -/
theorem values (V : Valuation τ sig (Elt F)) :
    after (ops (F := F)) V (Proc.devRef .tc main_v72) = ReadP.val_main_v72 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
    ∧ after (ops (F := F)) V (Proc.devRef .tc main_v73) = ReadP.val_main_v73 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
    ∧ after (ops (F := F)) V (Proc.devRef .tc main_v24) = ReadP.val_main_v24 (F := F) (V (Proc.devRef .tc main_arg1)) (V (Proc.devRef .tc main_arg2)) := by
  rw [ops_split, StableHlo.after_append, StableHlo.after_append, StableHlo.after_append, StableHlo.after_append, StableHlo.after_append, StableHlo.after_append]
  -- stretch 1
  have a9 := s1_v9 (F := F) V
  have a10 := s1_v10 (F := F) V
  have a11 := s1_v11 (F := F) V
  have a_arg4 := s1_keep_arg4 (F := F) V
  have a_arg5 := s1_keep_arg5 (F := F) V
  have a_arg6 := s1_keep_arg6 (F := F) V
  have a_arg7 := s1_keep_arg7 (F := F) V
  have a_arg8 := s1_keep_arg8 (F := F) V
  have a_arg9 := s1_keep_arg9 (F := F) V
  have a_arg10 := s1_keep_arg10 (F := F) V
  have a_arg11 := s1_keep_arg11 (F := F) V
  -- stretch 2
  have b24 := s2_v24 (after (ops1 (F := F)) V) _ _ a10 a11
  have b25 := s2_v25 (after (ops1 (F := F)) V) _ _ a10 a11
  have b9 := (s2_keep_v9 (after (ops1 (F := F)) V)).trans a9
  have b11 := (s2_keep_v11 (after (ops1 (F := F)) V)).trans a11
  have b_arg4 := (s2_keep_arg4 (after (ops1 (F := F)) V)).trans a_arg4
  have b_arg5 := (s2_keep_arg5 (after (ops1 (F := F)) V)).trans a_arg5
  have b_arg6 := (s2_keep_arg6 (after (ops1 (F := F)) V)).trans a_arg6
  have b_arg7 := (s2_keep_arg7 (after (ops1 (F := F)) V)).trans a_arg7
  have b_arg8 := (s2_keep_arg8 (after (ops1 (F := F)) V)).trans a_arg8
  have b_arg9 := (s2_keep_arg9 (after (ops1 (F := F)) V)).trans a_arg9
  have b_arg10 := (s2_keep_arg10 (after (ops1 (F := F)) V)).trans a_arg10
  have b_arg11 := (s2_keep_arg11 (after (ops1 (F := F)) V)).trans a_arg11
  -- stretch 3
  have c31 := s3_v31 (after (ops2 (F := F)) (after (ops1 (F := F)) V)) _ _ _ _ b9 b25
  rw [b_arg4, b_arg5] at c31
  have c24 := (s3_keep_v24 (after (ops2 (F := F)) (after (ops1 (F := F)) V))).trans b24
  have c11 := (s3_keep_v11 (after (ops2 (F := F)) (after (ops1 (F := F)) V))).trans b11
  have c_arg6 := (s3_keep_arg6 (after (ops2 (F := F)) (after (ops1 (F := F)) V))).trans b_arg6
  have c_arg7 := (s3_keep_arg7 (after (ops2 (F := F)) (after (ops1 (F := F)) V))).trans b_arg7
  have c_arg8 := (s3_keep_arg8 (after (ops2 (F := F)) (after (ops1 (F := F)) V))).trans b_arg8
  have c_arg9 := (s3_keep_arg9 (after (ops2 (F := F)) (after (ops1 (F := F)) V))).trans b_arg9
  have c_arg10 := (s3_keep_arg10 (after (ops2 (F := F)) (after (ops1 (F := F)) V))).trans b_arg10
  have c_arg11 := (s3_keep_arg11 (after (ops2 (F := F)) (after (ops1 (F := F)) V))).trans b_arg11
  -- stretch 4
  have d35 := s4_v35 (after (ops3 (F := F)) (after (ops2 (F := F)) (after (ops1 (F := F)) V))) _ _ _ _ _ _ c31
  rw [c_arg6, c_arg8] at d35
  have d39 := s4_v39 (after (ops3 (F := F)) (after (ops2 (F := F)) (after (ops1 (F := F)) V))) _ c11
  rw [c_arg7, c_arg9] at d39
  have d24 := (s4_keep_v24 (after (ops3 (F := F)) (after (ops2 (F := F)) (after (ops1 (F := F)) V)))).trans c24
  have d11 := (s4_keep_v11 (after (ops3 (F := F)) (after (ops2 (F := F)) (after (ops1 (F := F)) V)))).trans c11
  have d_arg10 := (s4_keep_arg10 (after (ops3 (F := F)) (after (ops2 (F := F)) (after (ops1 (F := F)) V)))).trans c_arg10
  have d_arg11 := (s4_keep_arg11 (after (ops3 (F := F)) (after (ops2 (F := F)) (after (ops1 (F := F)) V)))).trans c_arg11
  -- stretch 5
  have e67 := s5_v67 (after (ops4 (F := F)) (after (ops3 (F := F)) (after (ops2 (F := F)) (after (ops1 (F := F)) V)))) _ _ _ _ _ _ _ _ _ _ d35 d39 d11
  have e24 := (s5_keep_v24 (after (ops4 (F := F)) (after (ops3 (F := F)) (after (ops2 (F := F)) (after (ops1 (F := F)) V))))).trans d24
  have e_arg10 := (s5_keep_arg10 (after (ops4 (F := F)) (after (ops3 (F := F)) (after (ops2 (F := F)) (after (ops1 (F := F)) V))))).trans d_arg10
  have e_arg11 := (s5_keep_arg11 (after (ops4 (F := F)) (after (ops3 (F := F)) (after (ops2 (F := F)) (after (ops1 (F := F)) V))))).trans d_arg11
  -- stretch 6
  have f71 := s6_v71 (after (ops5 (F := F)) (after (ops4 (F := F)) (after (ops3 (F := F)) (after (ops2 (F := F)) (after (ops1 (F := F)) V))))) _ _ _ _ _ _ _ _ _ _ e67
  rw [e_arg10, e_arg11] at f71
  have f24 := (s6_keep_v24 (after (ops5 (F := F)) (after (ops4 (F := F)) (after (ops3 (F := F)) (after (ops2 (F := F)) (after (ops1 (F := F)) V)))))).trans e24
  have f67 := (s6_keep_v67 (after (ops5 (F := F)) (after (ops4 (F := F)) (after (ops3 (F := F)) (after (ops2 (F := F)) (after (ops1 (F := F)) V)))))).trans e67
  -- stretch 7
  exact ⟨s7_v72 (after (ops6 (F := F)) (after (ops5 (F := F)) (after (ops4 (F := F)) (after (ops3 (F := F)) (after (ops2 (F := F)) (after (ops1 (F := F)) V)))))) _ _ _ _ _ _ _ _ _ _ _ _ f71, s7_v73 (after (ops6 (F := F)) (after (ops5 (F := F)) (after (ops4 (F := F)) (after (ops3 (F := F)) (after (ops2 (F := F)) (after (ops1 (F := F)) V)))))) _ _ _ _ _ _ _ _ _ _ f67, (s7_keep_v24 (after (ops6 (F := F)) (after (ops5 (F := F)) (after (ops4 (F := F)) (after (ops3 (F := F)) (after (ops2 (F := F)) (after (ops1 (F := F)) V))))))).trans f24⟩

set_option maxRecDepth 8192 in
set_option maxHeartbeats 42000000 in
/-- On every device, for any float values, from any memory with zero counters: every weakly fair execution of
    @main terminates with each result at its stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = ReadP.val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v73) = ReadP.val_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v24) = ReadP.val_main_v24 (F := F) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v72).trans (values (launchContents m c)).1,
      (h c main_v73).trans (values (launchContents m c)).2.1,
      (h c main_v24).trans (values (launchContents m c)).2.2,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.ReferenceIdeal.ValueP

end
-- ==== Proof.lean ====
/-
  The proof of the certificate's claim: a single attention-and-GRU decoder step, computed by three kernel regions
  among host stretches, against its plain reference.
  The frames of the two kernel programs go through relational proof data that forget the last region's output (at
  the array's clipped edge its in-array lanes cannot be named at a word-level float instance); the reference's
  frame is its run with the results dropped. At the ideal instance every region's output is named, and the two
  programs' three results are the same functions of the argument arrays: the matrix-vector products with bias and
  the attention softmax are the specification's formulas on both sides, and the gate recombination and the final
  log-softmax are one chain applied to equal inputs. The one place the programs differ is the embedding row's
  index: the kernel program clips the token into the table first; under the precondition's lower bound on the
  token both read the same row.
-/
import proofs.«425490_j31568009626350_3_alg».proof.Defs
import proofs.«425490_j31568009626350_3_alg».proof.Proof.Gen.Kernel
import proofs.«425490_j31568009626350_3_alg».proof.Proof.Gen.KernelIdeal
import proofs.«425490_j31568009626350_3_alg».proof.Proof.Gen.ReferenceIdeal
import proofs.«425490_j31568009626350_3_alg».proof.Proof.Gen.Pre_finite_inputs
import proofs.«425490_j31568009626350_3_alg».proof.Proof.K.RunForget
import proofs.«425490_j31568009626350_3_alg».proof.Proof.KI.RunForget
import proofs.«425490_j31568009626350_3_alg».proof.Proof.KI.Bridge
import proofs.«425490_j31568009626350_3_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.Forget.frame m ρ

theorem frame_ki : Cert.frame_KernelIdeal := fun m ρ _ => Cert.KernelIdeal.Hand.Forget.frame m ρ

theorem frame_ri : Cert.frame_ReferenceIdeal := fun m ρ _ =>
  (θ_run Cert.ReferenceIdeal.defs _ _).mono (fun _ h c => (h c).2.2.2) (Cert.ReferenceIdeal.ValueP.run (F := Ideal) m ρ)

/-- From memories agreeing on the arguments both idealized programs run, and end with the same three results. -/
theorem algebraic : Cert.algebraic_KernelIdeal_ReferenceIdeal := by
  intro m ρ m' ρ' hpre hagree
  refine ⟨fun c => Cert.KernelIdeal.Hand.W6 m c Cert.KernelIdeal.main_v0_0, fun c => Cert.KernelIdeal.Hand.W6 m c Cert.KernelIdeal.main_v0_1,
    fun c => Cert.KernelIdeal.Hand.W6 m c Cert.KernelIdeal.main_v0_2, Cert.KernelIdeal.Hand.kernel_run m ρ, ?_⟩
  refine (θ_run Cert.ReferenceIdeal.defs _ _).mono (fun r h c => ?_) (Cert.ReferenceIdeal.ValueP.run (F := Ideal) m' ρ')
  obtain ⟨h72, h73, h24, hargs⟩ := h c
  have htok := Cert.KernelIdeal.Hand.tok_nonneg m c (hpre c)
  refine ⟨h72.trans ?_, h73.trans ?_, h24.trans ?_, hargs⟩
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.KernelIdeal.Hand.res0_eq m c htok).symm
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
    exact (Cert.KernelIdeal.Hand.res1_eq m c htok).symm
  · rw [(hagree c).2.1, (hagree c).2.2.1]
    exact (Cert.KernelIdeal.Hand.res2_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
